-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x3x4 : Shape := ⟨3, ![8, 3, 4]⟩
abbrev S_ : Shape := ⟨0, ![]⟩
abbrev S8x4096x1 : Shape := ⟨3, ![8, 4096, 1]⟩
abbrev S8x4096x4 : Shape := ⟨3, ![8, 4096, 4]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x3x4 : S_.BroadcastsInDim S8x3x4 (![] : Fin 0 → Fin S8x3x4.rank)
  reducesTo_S8x3x4_S_d0_1_2 : S8x3x4.ReducesTo [0, 1, 2] S_
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  slices_S8x4096x3_S8x4096x1_0_0_2 : S8x4096x3.Slices ![0, 0, 2] S8x4096x1
  reducesTo_S8x4096x1_S_d0_1_2 : S8x4096x1.ReducesTo [0, 1, 2] S_
  dot_S8x4096x4_S8x3x4_S8x4096x3_2_2_1_1_0_0_wf : DotDims.WF S8x4096x4 S8x3x4 S8x4096x3 [2] [2] [1] [1] [0] [0]

variable [Facts]

def dot_S8x4096x4_S8x3x4_S8x4096x3_2_2_1_1_0_0 : DotDims S8x4096x4 S8x3x4 S8x4096x3 where
  lhsContracting := [2]
  rhsContracting := [2]
  lhsNonContracting := [1]
  rhsNonContracting := [1]
  lhsBatch := [0]
  rhsBatch := [0]
  wf := dot_S8x4096x4_S8x3x4_S8x4096x3_2_2_1_1_0_0_wf
def fn_part1 {F : FTy → Type} [FloatOps F] (main_arg0 : FVec F S8x4096x3 .f32) (main_arg2 : FVec F S8x3x4 .f32) (main_v13 : IVec S_ 1) (main_v16 : FVec F S8x4096x3 .f32) : IVec S_ 1 :=
  let main_v17 : FVec F S8x4096x1 .f32 := (extractStridedSlice S8x4096x1 ![0, 0, 2] · slices_S8x4096x3_S8x4096x1_0_0_2) main_v16
  let main_cst_5 : FVec F S_ .f32 := constant S_ .f32 0x00000000#32
  let main_v18 : FVec F S8x4096x1 .f32 := broadcastInDim S8x4096x1 ![] bcast_S_S8x4096x1 main_cst_5
  let main_v19 : IVec S8x4096x1 1 := cmpf .une main_v17 main_v18
  let main_c_6 : IVec S_ 1 := constantI S_ 1 1#1
  let main_v20 : IVec S_ 1 := (fun x v => Host.reduce IntOp.andi x v reducesTo_S8x4096x1_S_d0_1_2 h_S_) main_v19 main_c_6
  let main_v21 : IVec S_ 1 := andi main_v13 main_v20
  let main_cst_7 : FVec F S_ .f32 := constant S_ .f32 0x3F800000#32
  let main_v22 : FVec F S8x4096x1 .f32 := broadcastInDim S8x4096x1 ![] bcast_S_S8x4096x1 main_cst_7
  let main_v23 : FVec F S8x4096x4 .f32 := (fun a b => concatenate S8x4096x4 2 [⟨S8x4096x3, a⟩, ⟨S8x4096x1, b⟩] concatenates_S8x4096x3_S8x4096x1_S8x4096x4_d2) main_arg0 main_v22
  let main_v24 : FVec F S8x4096x3 .f32 := (fun l r => Host.dotGeneral dot_S8x4096x4_S8x3x4_S8x4096x3_2_2_1_1_0_0 none l r) main_v23 main_arg2
  let main_v25 : FVec F S8x4096x1 .f32 := (extractStridedSlice S8x4096x1 ![0, 0, 2] · slices_S8x4096x3_S8x4096x1_0_0_2) main_v24
  let main_cst_8 : FVec F S_ .f32 := constant S_ .f32 0x00000000#32
  let main_v26 : FVec F S8x4096x1 .f32 := broadcastInDim S8x4096x1 ![] bcast_S_S8x4096x1 main_cst_8
  let main_v27 : IVec S8x4096x1 1 := cmpf .une main_v25 main_v26
  let main_c_9 : IVec S_ 1 := constantI S_ 1 1#1
  let main_v28 : IVec S_ 1 := (fun x v => Host.reduce IntOp.andi x v reducesTo_S8x4096x1_S_d0_1_2 h_S_) main_v27 main_c_9
  let main_v29 : IVec S_ 1 := andi main_v21 main_v28
  main_v29

def fn {F : FTy → Type} [FloatOps F] (main_arg0 : FVec F S8x4096x3 .f32) (main_arg1 : FVec F S8x4096x3 .f32) (main_arg2 : FVec F S8x3x4 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x3x4 .f32 := Host.absf main_arg2
  let main_cst_2 : FVec F S_ .f32 := constant S_ .f32 0x7F800000#32
  let main_v10 : FVec F S8x3x4 .f32 := broadcastInDim S8x3x4 ![] bcast_S_S8x3x4 main_cst_2
  let main_v11 : IVec S8x3x4 1 := cmpf .olt main_v9 main_v10
  let main_c_3 : IVec S_ 1 := constantI S_ 1 1#1
  let main_v12 : IVec S_ 1 := (fun x v => Host.reduce IntOp.andi x v reducesTo_S8x3x4_S_d0_1_2 h_S_) main_v11 main_c_3
  let main_v13 : IVec S_ 1 := andi main_v8 main_v12
  let main_cst_4 : FVec F S_ .f32 := constant S_ .f32 0x3F800000#32
  let main_v14 : FVec F S8x4096x1 .f32 := broadcastInDim S8x4096x1 ![] bcast_S_S8x4096x1 main_cst_4
  let main_v15 : FVec F S8x4096x4 .f32 := (fun a b => concatenate S8x4096x4 2 [⟨S8x4096x3, a⟩, ⟨S8x4096x1, b⟩] concatenates_S8x4096x3_S8x4096x1_S8x4096x4_d2) main_arg1 main_v14
  let main_v16 : FVec F S8x4096x3 .f32 := (fun l r => Host.dotGeneral dot_S8x4096x4_S8x3x4_S8x4096x3_2_2_1_1_0_0 none l r) main_v15 main_arg2
  fn_part1 (F := F) main_arg0 main_arg2 main_v13 main_v16
-- ==== Kernel.lean ====
abbrev S8x4096x3 : Shape := ⟨3, ![8, 4096, 3]⟩
abbrev S8x3x4 : Shape := ⟨3, ![8, 3, 4]⟩
abbrev S_ : Shape := ⟨0, ![]⟩
abbrev S8x4096x1 : Shape := ⟨3, ![8, 4096, 1]⟩
abbrev S8x4096x4 : Shape := ⟨3, ![8, 4096, 4]⟩
abbrev S8x4096x2 : Shape := ⟨3, ![8, 4096, 2]⟩
abbrev S8x1x4096 : Shape := ⟨3, ![8, 1, 4096]⟩
abbrev S1x512x2 : Shape := ⟨3, ![1, 512, 2]⟩
abbrev S1x1x4096 : Shape := ⟨3, ![1, 1, 4096]⟩
abbrev S1x1x512 : Shape := ⟨3, ![1, 1, 512]⟩
abbrev S1x4096 : Shape := ⟨2, ![1, 4096]⟩
abbrev S512x2 : Shape := ⟨2, ![512, 2]⟩
abbrev S512x1x2 : Shape := ⟨3, ![512, 1, 2]⟩
abbrev S512x512x2 : Shape := ⟨3, ![512, 512, 2]⟩
abbrev S512x512 : Shape := ⟨2, ![512, 512]⟩
abbrev S512 : Shape := ⟨1, ![512]⟩
abbrev S1x512 : Shape := ⟨2, ![1, 512]⟩

abbrev nBuf : Space → Nat
  | .hbm => 52
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4, .f32⟩
  | .hbm, ⟨3, _⟩ => ⟨S_, .f32⟩
  | .hbm, ⟨4, _⟩ => ⟨S8x4096x1, .f32⟩
  | .hbm, ⟨5, _⟩ => ⟨S8x4096x4, .f32⟩
  | .hbm, ⟨6, _⟩ => ⟨S8x4096x3, .f32⟩
  | .hbm, ⟨7, _⟩ => ⟨S8x4096x2, .f32⟩
  | .hbm, ⟨8, _⟩ => ⟨S8x4096x1, .f32⟩
  | .hbm, ⟨9, _⟩ => ⟨S8x4096x2, .f32⟩
  | .hbm, ⟨10, _⟩ => ⟨S8x4096x2, .f32⟩
  | .hbm, ⟨11, _⟩ => ⟨S_, .f32⟩
  | .hbm, ⟨12, _⟩ => ⟨S8x4096x2, .f32⟩
  | .hbm, ⟨13, _⟩ => ⟨S8x4096x2, .f32⟩
  | .hbm, ⟨14, _⟩ => ⟨S_, .f32⟩
  | .hbm, ⟨15, _⟩ => ⟨S8x4096x2, .f32⟩
  | .hbm, ⟨16, _⟩ => ⟨S8x4096x2, .f32⟩
  | .hbm, ⟨17, _⟩ => ⟨S_, .f32⟩
  | .hbm, ⟨18, _⟩ => ⟨S8x4096x1, .f32⟩
  | .hbm, ⟨19, _⟩ => ⟨S8x4096x4, .f32⟩
  | .hbm, ⟨20, _⟩ => ⟨S8x4096x3, .f32⟩
  | .hbm, ⟨21, _⟩ => ⟨S8x4096x2, .f32⟩
  | .hbm, ⟨22, _⟩ => ⟨S8x4096x1, .f32⟩
  | .hbm, ⟨23, _⟩ => ⟨S8x4096x2, .f32⟩
  | .hbm, ⟨24, _⟩ => ⟨S8x4096x2, .f32⟩
  | .hbm, ⟨25, _⟩ => ⟨S_, .f32⟩
  | .hbm, ⟨26, _⟩ => ⟨S8x4096x2, .f32⟩
  | .hbm, ⟨27, _⟩ => ⟨S8x4096x2, .f32⟩
  | .hbm, ⟨28, _⟩ => ⟨S_, .f32⟩
  | .hbm, ⟨29, _⟩ => ⟨S8x4096x2, .f32⟩
  | .hbm, ⟨30, _⟩ => ⟨S8x4096x2, .f32⟩
  | .hbm, ⟨31, _⟩ => ⟨S8x1x4096, .f32⟩
  | .hbm, ⟨32, _⟩ => ⟨S8x1x4096, .f32⟩
  | .hbm, ⟨33, _⟩ => ⟨S_, .f32⟩
  | .hbm, ⟨34, _⟩ => ⟨S8x1x4096, .f32⟩
  | .hbm, ⟨35, _⟩ => ⟨S8x1x4096, .f32⟩
  | .hbm, ⟨36, _⟩ => ⟨S_, .f32⟩
  | .hbm, ⟨37, _⟩ => ⟨S8x1x4096, .f32⟩
  | .hbm, ⟨38, _⟩ => ⟨S8x1x4096, .f32⟩
  | .hbm, ⟨39, _⟩ => ⟨S8x1x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8x1x4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S1x512x2, .f32⟩
  | .local _ .vmem, ⟨1, _⟩ => ⟨S1x512x2, .f32⟩
  | .local _ .vmem, ⟨2, _⟩ => ⟨S1x512x2, .f32⟩
  | .local _ .vmem, ⟨3, _⟩ => ⟨S1x512x2, .f32⟩
  | .local _ .vmem, ⟨4, _⟩ => ⟨S1x1x4096, .f32⟩
  | .local _ .vmem, ⟨5, _⟩ => ⟨S1x1x4096, .f32⟩
  | .local _ .vmem, ⟨6, _⟩ => ⟨S1x1x512, .f32⟩
  | .local _ .vmem, ⟨7, _⟩ => ⟨S1x1x512, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_mult1 (i : grid0.Coords) : BitVec 32 :=
  let arg2 : BitVec 32 := BitVec.ofNat 32 (i 2).val
  let c512_i32 : BitVec 32 := 512#32
  let v13 : BitVec 32 := Scalar.muli arg2 c512_i32
  v13
def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_7 : BitVec 32 := 0#32
  let v17 : BitVec 1 := Scalar.cmpi .ne v16 c0_i32_7
  v17

def k0_off1 (i : grid0.Coords) : Fin 2 → Nat :=
  let c0_16 : Index := 0#32
  let arg2 : BitVec 32 := BitVec.ofNat 32 (i 2).val
  let c512_i32 : BitVec 32 := 512#32
  let v13 : BitVec 32 := Scalar.muli arg2 c512_i32
  let v14 : BitVec 32 := v13
  let v33 : Index := Scalar.indexCast v14
  ![0, v33.toNat]
def k0_cond2 (i : grid0.Coords) : BitVec 1 :=
  let arg1 : BitVec 32 := BitVec.ofNat 32 (i 1).val
  let c0_i32_8 : BitVec 32 := 0#32
  let v18 : BitVec 1 := Scalar.cmpi .sgt arg1 c0_i32_8
  let v19 : BitVec 32 := Scalar.extui v18
  let c0_i32_9 : BitVec 32 := 0#32
  let v20 : BitVec 1 := Scalar.cmpi .ne v19 c0_i32_9
  v20

def k0_off2 (i : grid0.Coords) : Fin 2 → Nat :=
  let c0_16 : Index := 0#32
  let arg2 : BitVec 32 := BitVec.ofNat 32 (i 2).val
  let c512_i32 : BitVec 32 := 512#32
  let v13 : BitVec 32 := Scalar.muli arg2 c512_i32
  let v14 : BitVec 32 := v13
  let v32 : Index := Scalar.indexCast v14
  ![0, v32.toNat]
def k0_cond5 (i : grid0.Coords) : BitVec 1 :=
  let arg1 : BitVec 32 := BitVec.ofNat 32 (i 1).val
  let c7_i32 : BitVec 32 := 7#32
  let v27 : BitVec 1 := Scalar.cmpi .eq arg1 c7_i32
  let arg2 : BitVec 32 := BitVec.ofNat 32 (i 2).val
  let c7_i32_14 : BitVec 32 := 7#32
  let v28 : BitVec 1 := Scalar.cmpi .eq arg2 c7_i32_14
  let v29 : BitVec 1 := Scalar.andi v27 v28
  let v30 : BitVec 32 := Scalar.extui v29
  let c0_i32_15 : BitVec 32 := 0#32
  let v31 : BitVec 1 := Scalar.cmpi .ne v30 c0_i32_15
  v31

def k0_cond3 (i : grid0.Coords) : BitVec 1 :=
  let arg2 : BitVec 32 := BitVec.ofNat 32 (i 2).val
  let c0_i32_10 : BitVec 32 := 0#32
  let v21 : BitVec 1 := Scalar.cmpi .eq arg2 c0_i32_10
  let v22 : BitVec 32 := Scalar.extui v21
  let c0_i32_11 : BitVec 32 := 0#32
  let v23 : BitVec 1 := Scalar.cmpi .ne v22 c0_i32_11
  v23

def k0_cond4 (i : grid0.Coords) : BitVec 1 :=
  let arg2 : BitVec 32 := BitVec.ofNat 32 (i 2).val
  let c0_i32_12 : BitVec 32 := 0#32
  let v24 : BitVec 1 := Scalar.cmpi .sgt arg2 c0_i32_12
  let v25 : BitVec 32 := Scalar.extui v24
  let c0_i32_13 : BitVec 32 := 0#32
  let v26 : BitVec 1 := Scalar.cmpi .ne v25 c0_i32_13
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  slices_S8x4096x3_S8x4096x2_0_0_0 : S8x4096x3.Slices ![0, 0, 0] S8x4096x2
  slices_S8x4096x3_S8x4096x1_0_0_2 : S8x4096x3.Slices ![0, 0, 2] S8x4096x1
  bcast_S8x4096x1_S8x4096x2_0_1_2 : S8x4096x1.BroadcastsInDim S8x4096x2 (![0, 1, 2] : Fin 3 → Fin S8x4096x2.rank)
  bcast_S_S8x4096x2 : S_.BroadcastsInDim S8x4096x2 (![] : Fin 0 → Fin S8x4096x2.rank)
  inb_S1x512x2_S1x512x2_0_0_0 : ∀ a, (![0, 0, 0] : Fin 3 → Nat) a + S1x512x2.size a ≤ S1x512x2.size a
  h_S1x512x2 : 0 < S1x512x2.numel
  shapeCasts_S1x512x2_S512x2 : S1x512x2.ShapeCasts S512x2
  shapeCasts_S512x2_S512x1x2 : S512x2.ShapeCasts S512x1x2
  shapeCasts_S512x2_S1x512x2 : S512x2.ShapeCasts S1x512x2
  broadcasts_S512x1x2_S512x512x2 : S512x1x2.Broadcasts S512x512x2
  broadcasts_S1x512x2_S512x512x2 : S1x512x2.Broadcasts S512x512x2
  reduces_S512x512x2_S512x512 : S512x512x2.Reduces [2] S512x512
  reduces_S512x512_S512 : S512x512.Reduces [0] S512
  reduces_S512x512_S512_2 : S512x512.Reduces [1] S512
  shapeCasts_S512_S1x512 : S512.ShapeCasts S1x512
  h_S1x512 : 0 < S1x512.numel
  shapeCasts_S1x512_S1x512 : S1x512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x4096_S1x4096_0_0 : ∀ a, (![0, 0] : Fin 2 → Nat) a + S1x4096.size a ≤ S1x4096.size a
  h_S1x4096 : 0 < S1x4096.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  bcast_S_S8x1x4096 : S_.BroadcastsInDim S8x1x4096 (![] : Fin 0 → Fin S8x1x4096.rank)
  reducesTo_S8x1x4096_S_d0_1_2 : S8x1x4096.ReducesTo [0, 1, 2] S_
  h_S_ : 0 < S_.numel
  dot_S8x4096x4_S8x3x4_S8x4096x3_2_2_1_1_0_0_wf : DotDims.WF S8x4096x4 S8x3x4 S8x4096x3 [2] [2] [1] [1] [0] [0]
  hrank0 : 0 < grid0.rank
  k0_mult1_dvd : ∀ i : grid0.Coords, 512 ∣ (k0_mult1 i).toNat
  k0_off1_inb : ∀ i : grid0.Coords, ∀ (k0_h1 : k0_cond1 i = 1#1), ∀ a, (k0_off1 i) a + S1x512.size a ≤ S1x4096.size a
  k0_off2_inb : ∀ i : grid0.Coords, ∀ (k0_h2 : k0_cond2 i = 1#1), ∀ a, (k0_off2 i) a + S1x512.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2.size a ≤ S8x4096x2.size a
  hwx0_0 : ∀ i : grid0.Coords, EltTy.bits .f32 = 32 ∨ (Rect.block (s := S8x4096x2) S1x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2.size a ≤ S8x4096x2.size a
  hwx0_1 : ∀ i : grid0.Coords, EltTy.bits .f32 = 32 ∨ (Rect.block (s := S8x4096x2) S1x512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x4096.size a
  hwx0_3 : ∀ i : grid0.Coords, EltTy.bits .f32 = 32 ∨ (Rect.block (s := S8x1x4096) S1x1x512.size (cc0_transform_3 i) (hinb0_3 i)).WholeWords (EltTy.packing .f32)

variable [Facts₀]

def dot_S8x4096x4_S8x3x4_S8x4096x3_2_2_1_1_0_0 : DotDims S8x4096x4 S8x3x4 S8x4096x3 where
  lhsContracting := [2]
  rhsContracting := [2]
  lhsNonContracting := [1]
  rhsNonContracting := [1]
  lhsBatch := [0]
  rhsBatch := [0]
  wf := dot_S8x4096x4_S8x3x4_S8x4096x3_2_2_1_1_0_0_wf

abbrev win0_0 : Pipeline.Window sig grid0 :=
  Pipeline.Window.ofSpec (Memref.whole main_v10) S1x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond5 i == 1#1) | 3 => fun i => !(k0_cond3 i == 1#1) && !(k0_cond4 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x3x4 : Shape := ⟨3, ![8, 3, 4]⟩
abbrev S_ : Shape := ⟨0, ![]⟩
abbrev S8x4096x1 : Shape := ⟨3, ![8, 4096, 1]⟩
abbrev S8x4096x4 : Shape := ⟨3, ![8, 4096, 4]⟩
abbrev S8x4096x2 : Shape := ⟨3, ![8, 4096, 2]⟩
abbrev S8x4096 : Shape := ⟨2, ![8, 4096]⟩
abbrev S8x1x4096 : Shape := ⟨3, ![8, 1, 4096]⟩
abbrev S8x4096x4096 : Shape := ⟨3, ![8, 4096, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4, .f32⟩
  | .hbm, ⟨3, _⟩ => ⟨S_, .f32⟩
  | .hbm, ⟨4, _⟩ => ⟨S8x4096x1, .f32⟩
  | .hbm, ⟨5, _⟩ => ⟨S8x4096x4, .f32⟩
  | .hbm, ⟨6, _⟩ => ⟨S8x4096x3, .f32⟩
  | .hbm, ⟨7, _⟩ => ⟨S8x4096x2, .f32⟩
  | .hbm, ⟨8, _⟩ => ⟨S8x4096x1, .f32⟩
  | .hbm, ⟨9, _⟩ => ⟨S8x4096x2, .f32⟩
  | .hbm, ⟨10, _⟩ => ⟨S8x4096x2, .f32⟩
  | .hbm, ⟨11, _⟩ => ⟨S_, .f32⟩
  | .hbm, ⟨12, _⟩ => ⟨S8x4096x2, .f32⟩
  | .hbm, ⟨13, _⟩ => ⟨S8x4096x2, .f32⟩
  | .hbm, ⟨14, _⟩ => ⟨S_, .f32⟩
  | .hbm, ⟨15, _⟩ => ⟨S8x4096x2, .f32⟩
  | .hbm, ⟨16, _⟩ => ⟨S8x4096x2, .f32⟩
  | .hbm, ⟨17, _⟩ => ⟨S_, .f32⟩
  | .hbm, ⟨18, _⟩ => ⟨S8x4096x1, .f32⟩
  | .hbm, ⟨19, _⟩ => ⟨S8x4096x4, .f32⟩
  | .hbm, ⟨20, _⟩ => ⟨S8x4096x3, .f32⟩
  | .hbm, ⟨21, _⟩ => ⟨S8x4096x2, .f32⟩
  | .hbm, ⟨22, _⟩ => ⟨S8x4096x1, .f32⟩
  | .hbm, ⟨23, _⟩ => ⟨S8x4096x2, .f32⟩
  | .hbm, ⟨24, _⟩ => ⟨S8x4096x2, .f32⟩
  | .hbm, ⟨25, _⟩ => ⟨S_, .f32⟩
  | .hbm, ⟨26, _⟩ => ⟨S8x4096x2, .f32⟩
  | .hbm, ⟨27, _⟩ => ⟨S8x4096x2, .f32⟩
  | .hbm, ⟨28, _⟩ => ⟨S_, .f32⟩
  | .hbm, ⟨29, _⟩ => ⟨S8x4096x2, .f32⟩
  | .hbm, ⟨30, _⟩ => ⟨S8x4096x2, .f32⟩
  | .hbm, ⟨31, _⟩ => ⟨S8x4096x2, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x2, .f32⟩
  | .hbm, ⟨36, _⟩ => ⟨S_, .f32⟩
  | .hbm, ⟨37, _⟩ => ⟨S8x4096, .f32⟩
  | .hbm, ⟨38, _⟩ => ⟨S8x1x4096, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S8x4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  slices_S8x4096x3_S8x4096x2_0_0_0 : S8x4096x3.Slices ![0, 0, 0] S8x4096x2
  slices_S8x4096x3_S8x4096x1_0_0_2 : S8x4096x3.Slices ![0, 0, 2] S8x4096x1
  bcast_S8x4096x1_S8x4096x2_0_1_2 : S8x4096x1.BroadcastsInDim S8x4096x2 (![0, 1, 2] : Fin 3 → Fin S8x4096x2.rank)
  bcast_S_S8x4096x2 : S_.BroadcastsInDim S8x4096x2 (![] : Fin 0 → Fin S8x4096x2.rank)
  reducesTo_S8x4096x2_S8x4096_d2 : S8x4096x2.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096x4096_S8x4096_d2 : S8x4096x4096.ReducesTo [2] S8x4096
  reducesTo_S8x4096_S_d0_1 : S8x4096.ReducesTo [0, 1] S_
  dot_S8x4096x4_S8x3x4_S8x4096x3_2_2_1_1_0_0_wf : DotDims.WF S8x4096x4 S8x3x4 S8x4096x3 [2] [2] [1] [1] [0] [0]
  dot_S8x4096x2_S8x4096x2_S8x4096x4096_2_2_1_1_0_0_wf : DotDims.WF S8x4096x2 S8x4096x2 S8x4096x4096 [2] [2] [1] [1] [0] [0]

variable [Facts₀]

def dot_S8x4096x4_S8x3x4_S8x4096x3_2_2_1_1_0_0 : DotDims S8x4096x4 S8x3x4 S8x4096x3 where
  lhsContracting := [2]
  rhsContracting := [2]
  lhsNonContracting := [1]
  rhsNonContracting := [1]
  lhsBatch := [0]
  rhsBatch := [0]
  wf := dot_S8x4096x4_S8x3x4_S8x4096x3_2_2_1_1_0_0_wf
def dot_S8x4096x2_S8x4096x2_S8x4096x4096_2_2_1_1_0_0 : DotDims S8x4096x2 S8x4096x2 S8x4096x4096 where
  lhsContracting := [2]
  rhsContracting := [2]
  lhsNonContracting := [1]
  rhsNonContracting := [1]
  lhsBatch := [0]
  rhsBatch := [0]
  wf := dot_S8x4096x2_S8x4096x2_S8x4096x4096_2_2_1_1_0_0_wf

class Facts : Prop extends Facts₀ where

variable [Facts]
-- ==== Proof.K.Base.lean ====
/- What the body's five runs share: a load of a whole buffer and a store of a whole buffer read back, and the scratch
   row after a store of one 512-lane slice. Generic in the float instance. -/
import proofs.«102414_j35115652612620_1_alg».proof.Proof.Gen.Kernel.Frame
import proofs.«102414_j35115652612620_1_alg».proof.Proof.Gen.Kernel.Skeleton
import Idealize.ShloMosaic.Lib.Pipeline.Value
import Idealize.ShloMosaic.Lib.WritesUnit
import Idealize.ShloMosaic.Lib.WholeRead

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-buffer loads and stores read back -/

theorem zero3 : (![0, 0, 0] : Fin 3 → ℕ) = fun _ => 0 := by funext a; fin_cases a <;> rfl
theorem zero2 : (![0, 0] : Fin 2 → ℕ) = fun _ => 0 := by funext a; fin_cases a <;> rfl

/-- A load of the whole of a whole memref held at `X` reads `X`. -/
theorem readAt_whole {S : Shape} {M : Memref sig .tc .vmem S .f32} (hM : M.IsWhole) (X : Vec F S .f32)
    {off : Fin S.rank → ℕ} (hz : off = fun _ => 0) (inb : ∀ a, off a + S.size a ≤ S.size a) :
    View.readAt (Elt F) M.view (Rect.unit off S.size inb).toLoadRect (hM.unread X) = X := by
  rw [View.readAt_eq_ld, hM.read_unread, View.ld_unit_zero hz]

/-- One store of the whole buffer leaves its payload, whatever was there. -/
theorem read_writes_whole {S : Shape} (M : Memref sig .tc .vmem S .f32) (f : M.view.ty.Contents (Elt F))
    {off : Fin S.rank → ℕ} (hz : off = fun _ => 0) (inb : ∀ a, off a + S.size a ≤ S.size a) (w : Vec F S .f32) :
    M.view.read (Elt F) (M.view.writes (Elt F) f [(⟨Rect.unit off S.size inb, w⟩ : View.Piece (Elt F) S .f32)]) = w := by
  subst hz
  rw [View.read_writes_eq_canon _ _ _ (fun y => ⟨_, List.mem_singleton_self _, by
    show y ∈ (Rect.whole S).set; rw [Rect.set_whole]; exact Finset.mem_univ y⟩), View.canon_unit_zero rfl]

/-! ## The scratch row after one point's store -/

/-- The scratch row after the first-row-tile store: lanes [512·m, 512·m + 512) take this tile's column minima. -/
def scStep1 (M : Memref sig .tc .vmem S1x4096 .f32) (hM : M.IsWhole) (i : grid0.Coords) (h1 : k0_cond1 i = 1#1)
    (x0 x1 : Vec F S1x512x2 .f32) (xs : Vec F S1x4096 .f32) : Vec F S1x4096 .f32 :=
  M.view.read (Elt F) (M.view.writes (Elt F) (hM.unread xs)
    [(⟨Rect.unit (s := S1x4096) (k0_off1 i) S1x512.size (k0_off1_inb i h1), k0_pay5 x0 x1⟩ : View.Piece (Elt F) S1x4096 .f32)])

/-- The scratch row after a later row tile's store: the same lanes take the minimum of what they held and this
    tile's column minima. -/
def scStep2 (M : Memref sig .tc .vmem S1x4096 .f32) (hM : M.IsWhole) (i : grid0.Coords) (h2 : k0_cond2 i = 1#1)
    (x0 x1 : Vec F S1x512x2 .f32) (xs : Vec F S1x4096 .f32) : Vec F S1x4096 .f32 :=
  M.view.read (Elt F) (M.view.writes (Elt F) (hM.unread xs)
    [(⟨Rect.unit (s := S1x4096) (k0_off2 i) S1x512.size (k0_off2_inb i h2),
        k0_pay6 x0 x1 (View.readAt (Elt F) M.view (Rect.unit (s := S1x4096) (k0_off2 i) S1x512.size (k0_off2_inb i h2)).toLoadRect (hM.unread xs))⟩ : View.Piece (Elt F) S1x4096 .f32)])

end Cert.Kernel.Gen

end
-- ==== Proof.K.AccDefs.lean ====
/- The two running minima as functions of the grid point, the body's conditions as facts about the point's number,
   where each window is idle, and the staging buffers' names. The point numbered t is batch t / 64, row tile
   t / 8 % 8, column tile t % 8. Generic in the float instance. -/
import proofs.«102414_j35115652612620_1_alg».proof.Proof.K.Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the scratch row -/

abbrev ms0_0 (t : Fin cfg0.N) : Memref sig .tc .vmem S1x512x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
/-- The scratch row: a whole scoped buffer of the kernel's own. -/
abbrev scM0 : Memref sig .tc .vmem S1x4096 .f32 := Memref.whole cc0_scratch0
theorem hsc0 : (scM0 : Memref sig .tc .vmem S1x4096 .f32).IsWhole := Memref.isWhole_whole _

/-- What the region may use beside its windows: the scratch row at some contents, and the generator register. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

/-! ## The body's conditions, by the point's number -/

/-- First row tile. -/
theorem hcond1 : ∀ t : Fin cfg0.N, k0_cond1 (grid0.coords t) = 1#1 ↔ t.val / 8 % 8 = 0 :=
  (by decide +kernel : ∀ t : Fin grid0.N, k0_cond1 (grid0.coords t) = 1#1 ↔ t.val / 8 % 8 = 0)
/-- A later row tile. -/
theorem hcond2 : ∀ t : Fin cfg0.N, k0_cond2 (grid0.coords t) = 1#1 ↔ ¬ t.val / 8 % 8 = 0 :=
  (by decide +kernel : ∀ t : Fin grid0.N, k0_cond2 (grid0.coords t) = 1#1 ↔ ¬ t.val / 8 % 8 = 0)
/-- First column tile. -/
theorem hcond3 : ∀ t : Fin cfg0.N, k0_cond3 (grid0.coords t) = 1#1 ↔ t.val % 8 = 0 :=
  (by decide +kernel : ∀ t : Fin grid0.N, k0_cond3 (grid0.coords t) = 1#1 ↔ t.val % 8 = 0)
/-- A later column tile. -/
theorem hcond4 : ∀ t : Fin cfg0.N, k0_cond4 (grid0.coords t) = 1#1 ↔ ¬ t.val % 8 = 0 :=
  (by decide +kernel : ∀ t : Fin grid0.N, k0_cond4 (grid0.coords t) = 1#1 ↔ ¬ t.val % 8 = 0)
/-- The batch's last point. -/
theorem hcond5 : ∀ t : Fin cfg0.N, k0_cond5 (grid0.coords t) = 1#1 ↔ t.val % 64 = 63 :=
  (by decide +kernel : ∀ t : Fin grid0.N, k0_cond5 (grid0.coords t) = 1#1 ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- The column result's window is stored only at a batch's last point, idle before it, and not written back there. -/
theorem idleAt0_2 : ∀ t : Fin cfg0.N, ¬ t.val % 64 = 63 → cfg0.idle 2 (grid0.coords t) = true := by decide +kernel
theorem liveAt0_2 : ∀ t : Fin cfg0.N, t.val % 64 = 63 → cfg0.idle 2 (grid0.coords t) = false := by decide +kernel
theorem noFlush0_2 : ∀ t : Fin cfg0.N, ¬ t.val % 64 = 63 → (cfg0.win 2).flush t = false := by decide +kernel
/-- The row result's window is never idle, whatever the coordinates: one of its two stores always runs. -/
theorem live3 : ∀ i : grid0.Coords, cfg0.idle 3 i = false := fun i =>
  (by decide : ∀ a : Fin 8, (!(Scalar.cmpi .ne (Scalar.extui (Scalar.cmpi .eq (BitVec.ofNat 32 a.val) 0#32)) 0#32 == 1#1)
      && !(Scalar.cmpi .ne (Scalar.extui (Scalar.cmpi .sgt (BitVec.ofNat 32 a.val) 0#32)) 0#32 == 1#1)) = false) (i 2)

/-! ## The running minima -/

/-- The two input windows' blocks at a point: 512 points of each cloud. -/
abbrev ablk (c : Dev nD) (t : Fin cfg0.N) : Vec F S1x512x2 .f32 := iblk m c 0 t
abbrev pblk (c : Dev nD) (t : Fin cfg0.N) : Vec F S1x512x2 .f32 := iblk m c 1 t

/-- What the row result's buffer holds after the point numbered `n`: at a first column tile this tile's row minima,
    afterwards the minimum with what the point before left. -/
def rowAt (c : Dev nD) : (n : ℕ) → n < cfg0.N → Vec F S1x1x512 .f32
  | 0, h => k0_pay7 (ablk m c ⟨0, h⟩) (pblk m c ⟨0, h⟩)
  | n + 1, h =>
    if (n + 1) % 8 = 0 then k0_pay7 (ablk m c ⟨n + 1, h⟩) (pblk m c ⟨n + 1, h⟩)
    else k0_pay8 (ablk m c ⟨n + 1, h⟩) (pblk m c ⟨n + 1, h⟩) (rowAt c n (Nat.lt_of_succ_lt h))

theorem rowAt_first (c : Dev nD) (t : Fin cfg0.N) (h : t.val % 8 = 0) :
    rowAt m c t.val t.isLt = k0_pay7 (ablk m c t) (pblk m c t) := by
  obtain ⟨n, hn⟩ := t
  cases n with
  | zero => rfl
  | succ n => exact if_pos h

theorem rowAt_later (c : Dev nD) (t : Fin cfg0.N) (h : ¬ t.val % 8 = 0) :
    rowAt m c t.val t.isLt = k0_pay8 (ablk m c t) (pblk m c t)
      (rowAt m c (t.val - 1) (Nat.lt_of_le_of_lt (Nat.sub_le _ _) t.isLt)) := by
  obtain ⟨n, hn⟩ := t
  cases n with
  | zero => exact absurd (Nat.zero_mod _) h
  | succ n => exact if_neg h

/-- The scratch row after `n` points, from contents `d` before the first: each point updates its column tile's lanes. -/
def scAt (c : Dev nD) (d : Vec F S1x4096 .f32) : (n : ℕ) → n ≤ cfg0.N → Vec F S1x4096 .f32
  | 0, _ => d
  | n + 1, h =>
    if h1 : k0_cond1 (grid0.coords ⟨n, h⟩) = 1#1 then
      scStep1 scM0 hsc0 (grid0.coords ⟨n, h⟩) h1 (ablk m c ⟨n, h⟩) (pblk m c ⟨n, h⟩) (scAt c d n (Nat.le_of_succ_le h))
    else if h2 : k0_cond2 (grid0.coords ⟨n, h⟩) = 1#1 then
      scStep2 scM0 hsc0 (grid0.coords ⟨n, h⟩) h2 (ablk m c ⟨n, h⟩) (pblk m c ⟨n, h⟩) (scAt c d n (Nat.le_of_succ_le h))
    else scAt c d n (Nat.le_of_succ_le h)

theorem scAt_zero (c : Dev nD) (d : Vec F S1x4096 .f32) (h : 0 ≤ cfg0.N) : scAt m c d 0 h = d := rfl

theorem scAt_succ1 (c : Dev nD) (d : Vec F S1x4096 .f32) (t : Fin cfg0.N) (h1 : k0_cond1 (grid0.coords t) = 1#1) :
    scAt m c d (t.val + 1) t.isLt
      = scStep1 scM0 hsc0 (grid0.coords t) h1 (ablk m c t) (pblk m c t) (scAt m c d t.val (Nat.le_of_lt t.isLt)) :=
  dif_pos h1

theorem scAt_succ2 (c : Dev nD) (d : Vec F S1x4096 .f32) (t : Fin cfg0.N) (h1 : ¬ k0_cond1 (grid0.coords t) = 1#1)
    (h2 : k0_cond2 (grid0.coords t) = 1#1) :
    scAt m c d (t.val + 1) t.isLt
      = scStep2 scM0 hsc0 (grid0.coords t) h2 (ablk m c t) (pblk m c t) (scAt m c d t.val (Nat.le_of_lt t.isLt)) :=
  (dif_neg h1).trans (dif_pos h2)

/-- Contents nobody names: what the scratch row is taken to hold before the first point where it does not matter. -/
def scDflt : Vec F S1x4096 .f32 := fun _ => (Elt.inhabited F .f32).default

end Cert.Kernel.Gen

end
-- ==== Proof.K.Data.lean ====
/- The pipeline's proof data: each array as the region finds it; after the body at a point the two inputs' buffers at
   their blocks, the row result's at the running row minima, the column result's at the scratch row (read at a
   batch's last point only); between points the scratch row at its running contents. -/
import proofs.«102414_j35115652612620_1_alg».proof.Proof.K.AccDefs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before the point numbered `n`: the scratch row at what `n` points leave of some first contents, and
    the generator register at some state. -/
def PhiS (c : Dev nD) (n : ℕ) (hn : n ≤ cfg0.N) : sProp 𝕄 :=
  iprop(iprop(∃ d, owns (c : Thread nD τ) scM0 fullShare (scAt m c d n hn)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (scAt m c scDflt (t.val + 1) t.isLt)
    | ⟨3, _⟩ => rowAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem Phi_succ (c : Dev nD) (t : Fin cfg0.N) :
    (dats m 0 c).Φ t.succ = PhiS m c (t.val + 1) t.isLt := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = k0_pay1 (scAt m c scDflt (t.val + 1) t.isLt) := by dsimp only [dats]
theorem after0_3 (c : Dev nD) (t : Fin cfg0.N) : (dats m 0 c).after 3 t = rowAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Past a first column tile the row result's buffer holds what the point before left: it is written back only after a
    last column tile. -/
theorem before0_3 (c : Dev nD) (t : Fin cfg0.N) (h : ¬ t.val % 8 = 0) (d) :
    (dats m 0 c).before 3 t d = rowAt m c (t.val - 1) (Nat.lt_of_le_of_lt (Nat.sub_le _ _) t.isLt) := by
  have ht : t.val ≠ 0 := fun h0 => h (by rw [h0])
  have hfl : (cfg0.win 3).flush ⟨t.val - 1, Nat.lt_of_le_of_lt (Nat.sub_le _ _) t.isLt⟩ = false := by
    rcases hb : (cfg0.win 3).flush ⟨t.val - 1, Nat.lt_of_le_of_lt (Nat.sub_le _ _) t.isLt⟩ with _ | _
    · rfl
    · exfalso
      have := (flush0_3 ⟨t.val - 1, Nat.lt_of_le_of_lt (Nat.sub_le _ _) t.isLt⟩).mp hb
      dsimp only at this
      omega
  rw [(dats m 0 c).before_out_kept 3 rfl t ht hfl live3 (fun _ _ => rfl) d, after0_3]

end Cert.Kernel.Gen

end
-- ==== Proof.K.RunA.lean ====
/- The body at a point of the first row tile and the first column tile, not the last of its batch. -/
import proofs.«102414_j35115652612620_1_alg».proof.Proof.K.Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- With the two inputs' buffers at their blocks, the column result's buffer at anything it is handed (untouched), the
    row result's buffer at anything and the scratch row at its contents, the body runs, leaving the row result's buffer
    at this tile's row minima and the scratch row with this tile's lanes set to this tile's column minima. -/
theorem run_A (c : Dev nD) (i : grid0.Coords)
    (arg3 : Memref sig .tc .vmem S1x512x2 .f32) (harg3 : arg3.IsWhole) (arg4 : Memref sig .tc .vmem S1x512x2 .f32) (harg4 : arg4.IsWhole)
    (arg5 : Memref sig .tc .vmem S1x1x4096 .f32) (harg5 : arg5.IsWhole) (arg6 : Memref sig .tc .vmem S1x1x512 .f32) (harg6 : arg6.IsWhole)
    (arg7 : Memref sig .tc .vmem S1x4096 .f32) (harg7 : arg7.IsWhole)
    (hc1 : k0_cond1 i = 1#1) (hc2 : ¬ k0_cond2 i = 1#1) (hc3 : k0_cond3 i = 1#1) (hc4 : ¬ k0_cond4 i = 1#1) (hc5 : ¬ k0_cond5 i = 1#1)
    (x0 : Vec F S1x512x2 .f32) (x1 : Vec F S1x512x2 .f32) (xi2 : Vec F S1x1x4096 .f32) (xs : Vec F S1x4096 .f32)
    (E : Set ℕ) (K : PUnit → sProp 𝕄) :
    iprop(owns (c : Thread nD τ) arg3 fullShare x0 ∗ owns (c : Thread nD τ) arg4 fullShare x1
        ∗ owns (c : Thread nD τ) arg5 fullShare xi2 ∗ (∃ d, owns (c : Thread nD τ) arg6 fullShare d) ∗ owns (c : Thread nD τ) arg7 fullShare xs
        ∗ (iprop(owns (c : Thread nD τ) arg3 fullShare x0 ∗ owns (c : Thread nD τ) arg4 fullShare x1
            ∗ owns (c : Thread nD τ) arg5 fullShare xi2
            ∗ owns (c : Thread nD τ) arg6 fullShare (k0_pay7 x0 x1)
            ∗ owns (c : Thread nD τ) arg7 fullShare (scStep1 arg7 harg7 i hc1 x0 x1 xs)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel; simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_writes_whole arg6 _ zero3, readAt_whole harg3 x0 zero3, readAt_whole harg4 x1 zero3]
  · iexists _; isplitr
    swap; · iexact HS
    ipureintro
    unfold scStep1
    rw [readAt_whole harg3 x0 zero3, readAt_whole harg4 x1 zero3]

end Cert.Kernel.Gen

end
-- ==== Proof.K.RunB.lean ====
/- The body at a point of the first row tile, past the first column tile, not the last of its batch. -/
import proofs.«102414_j35115652612620_1_alg».proof.Proof.K.Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- With the two inputs' buffers at their blocks, the column result's buffer at anything it is handed (untouched), the
    row result's buffer at the running row minima and the scratch row at its contents, the body runs, leaving the row
    result's buffer at the minimum with this tile's row minima and the scratch row with this tile's lanes set to this
    tile's column minima. -/
theorem run_B (c : Dev nD) (i : grid0.Coords)
    (arg3 : Memref sig .tc .vmem S1x512x2 .f32) (harg3 : arg3.IsWhole) (arg4 : Memref sig .tc .vmem S1x512x2 .f32) (harg4 : arg4.IsWhole)
    (arg5 : Memref sig .tc .vmem S1x1x4096 .f32) (harg5 : arg5.IsWhole) (arg6 : Memref sig .tc .vmem S1x1x512 .f32) (harg6 : arg6.IsWhole)
    (arg7 : Memref sig .tc .vmem S1x4096 .f32) (harg7 : arg7.IsWhole)
    (hc1 : k0_cond1 i = 1#1) (hc2 : ¬ k0_cond2 i = 1#1) (hc3 : ¬ k0_cond3 i = 1#1) (hc4 : k0_cond4 i = 1#1) (hc5 : ¬ k0_cond5 i = 1#1)
    (x0 : Vec F S1x512x2 .f32) (x1 : Vec F S1x512x2 .f32) (xi2 : Vec F S1x1x4096 .f32) (xo3 : Vec F S1x1x512 .f32) (xs : Vec F S1x4096 .f32)
    (E : Set ℕ) (K : PUnit → sProp 𝕄) :
    iprop(owns (c : Thread nD τ) arg3 fullShare x0 ∗ owns (c : Thread nD τ) arg4 fullShare x1
        ∗ owns (c : Thread nD τ) arg5 fullShare xi2 ∗ owns (c : Thread nD τ) arg6 fullShare xo3 ∗ owns (c : Thread nD τ) arg7 fullShare xs
        ∗ (iprop(owns (c : Thread nD τ) arg3 fullShare x0 ∗ owns (c : Thread nD τ) arg4 fullShare x1
            ∗ owns (c : Thread nD τ) arg5 fullShare xi2
            ∗ owns (c : Thread nD τ) arg6 fullShare (k0_pay8 x0 x1 xo3)
            ∗ owns (c : Thread nD τ) arg7 fullShare (scStep1 arg7 harg7 i hc1 x0 x1 xs)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel; simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_writes_whole arg6 _ zero3, readAt_whole harg3 x0 zero3, readAt_whole harg4 x1 zero3, readAt_whole harg6 xo3 zero3]
  · iexists _; isplitr
    swap; · iexact HS
    ipureintro
    unfold scStep1
    rw [readAt_whole harg3 x0 zero3, readAt_whole harg4 x1 zero3]

end Cert.Kernel.Gen

end
-- ==== Proof.K.RunC.lean ====
/- The body at a point past the first row tile, of the first column tile, not the last of its batch. -/
import proofs.«102414_j35115652612620_1_alg».proof.Proof.K.Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- With the two inputs' buffers at their blocks, the column result's buffer at anything it is handed (untouched), the
    row result's buffer at anything and the scratch row at its contents, the body runs, leaving the row result's buffer
    at this tile's row minima and the scratch row with this tile's lanes updated. -/
theorem run_C (c : Dev nD) (i : grid0.Coords)
    (arg3 : Memref sig .tc .vmem S1x512x2 .f32) (harg3 : arg3.IsWhole) (arg4 : Memref sig .tc .vmem S1x512x2 .f32) (harg4 : arg4.IsWhole)
    (arg5 : Memref sig .tc .vmem S1x1x4096 .f32) (harg5 : arg5.IsWhole) (arg6 : Memref sig .tc .vmem S1x1x512 .f32) (harg6 : arg6.IsWhole)
    (arg7 : Memref sig .tc .vmem S1x4096 .f32) (harg7 : arg7.IsWhole)
    (hc1 : ¬ k0_cond1 i = 1#1) (hc2 : k0_cond2 i = 1#1) (hc3 : k0_cond3 i = 1#1) (hc4 : ¬ k0_cond4 i = 1#1) (hc5 : ¬ k0_cond5 i = 1#1)
    (x0 : Vec F S1x512x2 .f32) (x1 : Vec F S1x512x2 .f32) (xi2 : Vec F S1x1x4096 .f32) (xs : Vec F S1x4096 .f32)
    (E : Set ℕ) (K : PUnit → sProp 𝕄) :
    iprop(owns (c : Thread nD τ) arg3 fullShare x0 ∗ owns (c : Thread nD τ) arg4 fullShare x1
        ∗ owns (c : Thread nD τ) arg5 fullShare xi2 ∗ (∃ d, owns (c : Thread nD τ) arg6 fullShare d) ∗ owns (c : Thread nD τ) arg7 fullShare xs
        ∗ (iprop(owns (c : Thread nD τ) arg3 fullShare x0 ∗ owns (c : Thread nD τ) arg4 fullShare x1
            ∗ owns (c : Thread nD τ) arg5 fullShare xi2
            ∗ owns (c : Thread nD τ) arg6 fullShare (k0_pay7 x0 x1)
            ∗ owns (c : Thread nD τ) arg7 fullShare (scStep2 arg7 harg7 i hc2 x0 x1 xs)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel; simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_writes_whole arg6 _ zero3, readAt_whole harg3 x0 zero3, readAt_whole harg4 x1 zero3]
  · iexists _; isplitr
    swap; · iexact HS
    ipureintro
    unfold scStep2
    rw [readAt_whole harg3 x0 zero3, readAt_whole harg4 x1 zero3]

end Cert.Kernel.Gen

end
-- ==== Proof.K.RunD.lean ====
/- The body at a point past the first row tile and past the first column tile, not the last of its batch. -/
import proofs.«102414_j35115652612620_1_alg».proof.Proof.K.Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- With the two inputs' buffers at their blocks, the column result's buffer at anything it is handed (untouched), the
    row result's buffer at the running row minima and the scratch row at its contents, the body runs, leaving the row
    result's buffer at the minimum with this tile's row minima and the scratch row with this tile's lanes updated. -/
theorem run_D (c : Dev nD) (i : grid0.Coords)
    (arg3 : Memref sig .tc .vmem S1x512x2 .f32) (harg3 : arg3.IsWhole) (arg4 : Memref sig .tc .vmem S1x512x2 .f32) (harg4 : arg4.IsWhole)
    (arg5 : Memref sig .tc .vmem S1x1x4096 .f32) (harg5 : arg5.IsWhole) (arg6 : Memref sig .tc .vmem S1x1x512 .f32) (harg6 : arg6.IsWhole)
    (arg7 : Memref sig .tc .vmem S1x4096 .f32) (harg7 : arg7.IsWhole)
    (hc1 : ¬ k0_cond1 i = 1#1) (hc2 : k0_cond2 i = 1#1) (hc3 : ¬ k0_cond3 i = 1#1) (hc4 : k0_cond4 i = 1#1) (hc5 : ¬ k0_cond5 i = 1#1)
    (x0 : Vec F S1x512x2 .f32) (x1 : Vec F S1x512x2 .f32) (xi2 : Vec F S1x1x4096 .f32) (xo3 : Vec F S1x1x512 .f32) (xs : Vec F S1x4096 .f32)
    (E : Set ℕ) (K : PUnit → sProp 𝕄) :
    iprop(owns (c : Thread nD τ) arg3 fullShare x0 ∗ owns (c : Thread nD τ) arg4 fullShare x1
        ∗ owns (c : Thread nD τ) arg5 fullShare xi2 ∗ owns (c : Thread nD τ) arg6 fullShare xo3 ∗ owns (c : Thread nD τ) arg7 fullShare xs
        ∗ (iprop(owns (c : Thread nD τ) arg3 fullShare x0 ∗ owns (c : Thread nD τ) arg4 fullShare x1
            ∗ owns (c : Thread nD τ) arg5 fullShare xi2
            ∗ owns (c : Thread nD τ) arg6 fullShare (k0_pay8 x0 x1 xo3)
            ∗ owns (c : Thread nD τ) arg7 fullShare (scStep2 arg7 harg7 i hc2 x0 x1 xs)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel; simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_writes_whole arg6 _ zero3, readAt_whole harg3 x0 zero3, readAt_whole harg4 x1 zero3, readAt_whole harg6 xo3 zero3]
  · iexists _; isplitr
    swap; · iexact HS
    ipureintro
    unfold scStep2
    rw [readAt_whole harg3 x0 zero3, readAt_whole harg4 x1 zero3]

end Cert.Kernel.Gen

end
-- ==== Proof.K.RunE.lean ====
/- The body at the last point of a batch: past the first row tile and past the first column tile, and the scratch
   row, complete, goes out whole as the column result. -/
import proofs.«102414_j35115652612620_1_alg».proof.Proof.K.Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- With the two inputs' buffers at their blocks, the column result's buffer at anything, the row result's buffer at the
    running row minima and the scratch row at its contents, the body runs, leaving the row result's buffer at the
    minimum with this tile's row minima, the scratch row with this tile's lanes updated, and the column result's
    buffer at that whole updated scratch row. -/
theorem run_E (c : Dev nD) (i : grid0.Coords)
    (arg3 : Memref sig .tc .vmem S1x512x2 .f32) (harg3 : arg3.IsWhole) (arg4 : Memref sig .tc .vmem S1x512x2 .f32) (harg4 : arg4.IsWhole)
    (arg5 : Memref sig .tc .vmem S1x1x4096 .f32) (harg5 : arg5.IsWhole) (arg6 : Memref sig .tc .vmem S1x1x512 .f32) (harg6 : arg6.IsWhole)
    (arg7 : Memref sig .tc .vmem S1x4096 .f32) (harg7 : arg7.IsWhole)
    (hc1 : ¬ k0_cond1 i = 1#1) (hc2 : k0_cond2 i = 1#1) (hc3 : ¬ k0_cond3 i = 1#1) (hc4 : k0_cond4 i = 1#1) (hc5 : k0_cond5 i = 1#1)
    (x0 : Vec F S1x512x2 .f32) (x1 : Vec F S1x512x2 .f32) (xo3 : Vec F S1x1x512 .f32) (xs : Vec F S1x4096 .f32)
    (E : Set ℕ) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare xo3 ∗ owns (c : Thread nD τ) arg7 fullShare xs
        ∗ (iprop(owns (c : Thread nD τ) arg3 fullShare x0 ∗ owns (c : Thread nD τ) arg4 fullShare x1
            ∗ owns (c : Thread nD τ) arg5 fullShare (k0_pay1 (scStep2 arg7 harg7 i hc2 x0 x1 xs))
            ∗ owns (c : Thread nD τ) arg6 fullShare (k0_pay8 x0 x1 xo3)
            ∗ owns (c : Thread nD τ) arg7 fullShare (scStep2 arg7 harg7 i hc2 x0 x1 xs)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel; simp only [k0_part1_eq_skeleton]; unfold k0_part1_skel
  unfold owns
  iintro ⟨⟨%f0, %hf0, H0⟩, ⟨%f1, %hf1, H1⟩, ⟨%d2, %f2, -, H2⟩, ⟨%f3, %hf3, H3⟩, ⟨%fs, %hfs, HS⟩, Hk⟩
  obtain rfl := harg3.eq_unread hf0; obtain rfl := harg4.eq_unread hf1
  obtain rfl := harg6.eq_unread hf3; obtain rfl := harg7.eq_unread hfs
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [read_writes_whole arg5 _ zero3]
    unfold run_E.sl.v32
    rw [View.readAt_eq_ld, View.ld_unit_zero (S := S1x4096) zero2]
    unfold run_E.sl.HS_1 scStep2
    rw [readAt_whole harg3 x0 zero3, readAt_whole harg4 x1 zero3]
  isplitl [H3]
  · iexists _; isplitr
    swap; · iexact H3
    ipureintro
    rw [read_writes_whole arg6 _ zero3, readAt_whole harg3 x0 zero3, readAt_whole harg4 x1 zero3, readAt_whole harg6 xo3 zero3]
  · iexists _; isplitr
    swap; · iexact HS
    ipureintro
    unfold run_E.sl.HS_1 scStep2
    rw [readAt_whole harg3 x0 zero3, readAt_whole harg4 x1 zero3]

end Cert.Kernel.Gen

end
-- ==== Proof.K.Body.lean ====
/- The body obligation: at every point the body, handed each window's buffer at what the proof data says it holds and
   the scratch row at its running contents, leaves them at what the proof data says for the next point. Five cases by
   the point's row tile (first or later), column tile (first or later) and whether it is its batch's last. -/
import proofs.«102414_j35115652612620_1_alg».proof.Proof.K.Data
import proofs.«102414_j35115652612620_1_alg».proof.Proof.K.RunA
import proofs.«102414_j35115652612620_1_alg».proof.Proof.K.RunB
import proofs.«102414_j35115652612620_1_alg».proof.Proof.K.RunC
import proofs.«102414_j35115652612620_1_alg».proof.Proof.K.RunD
import proofs.«102414_j35115652612620_1_alg».proof.Proof.K.RunE

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Once every column tile has been stored once, the scratch row no longer depends on what it held at first. -/
def ScIndep : Prop :=
  ∀ (c : Dev nD) (d d' : Vec F S1x4096 .f32) (n : ℕ) (hn : n ≤ cfg0.N), 8 ≤ n → scAt m c d n hn = scAt m c d' n hn

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (hind : ScIndep m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_succ, Phi_castSucc]
  unfold PhiS
  have hN : t.val < 512 := lt_of_lt_of_eq t.isLt (show cfg0.N = 512 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 3 t = owns (c : Thread nD τ) (ms0_3 t) fullShare ((dats m 0 c).after 3 t) from by
    unfold Dat.leavesExact; rw [liveAt0_3 t], after0_3]
  by_cases hn0 : t.val / 8 % 8 = 0
  · have hc1 : k0_cond1 (grid0.coords t) = 1#1 := (hcond1 t).mpr hn0
    have hc2 : ¬ k0_cond2 (grid0.coords t) = 1#1 := fun h => (hcond2 t).mp h hn0
    have h63 : ¬ t.val % 64 = 63 := by omega
    have hc5 : ¬ k0_cond5 (grid0.coords t) = 1#1 := fun h => h63 ((hcond5 t).mp h)
    rw [Dat.leavesExact_idle (dats m 0 c) 2 t (idleAt0_2 t h63) (noFlush0_2 t h63)]
    simp only [fun d => scAt_succ1 m c d t hc1]
    by_cases hm0 : t.val % 8 = 0
    · have hc3 : k0_cond3 (grid0.coords t) = 1#1 := (hcond3 t).mpr hm0
      have hc4 : ¬ k0_cond4 (grid0.coords t) = 1#1 := fun h => (hcond4 t).mp h hm0
      rw [rowAt_first m c t hm0]
      iintro ⟨⟨⟨%d, HS⟩, Hg⟩, Ho, ⟨%d0, H0⟩, ⟨%d1, H1⟩, ⟨%d2, H2⟩, ⟨%d3, H3⟩⟩
      iapply (run_A c (grid0.coords t) _ _ _ _ _ _ _ _ _ _ hc1 hc2 hc3 hc4 hc5 (iblk m c 0 t) (iblk m c 1 t) _ _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexists d; iexact HS
        iexact Hg
      isplitl [Ho]; · iexact Ho
      isplitl [H0]; · iexact H0
      isplitl [H1]; · iexact H1
      isplitl [H2]; · iexists _; iexact H2
      iexact H3
    · have hc3 : ¬ k0_cond3 (grid0.coords t) = 1#1 := fun h => hm0 ((hcond3 t).mp h)
      have hc4 : k0_cond4 (grid0.coords t) = 1#1 := (hcond4 t).mpr hm0
      rw [rowAt_later m c t hm0]
      simp only [before0_3 m c t hm0]
      iintro ⟨⟨⟨%d, HS⟩, Hg⟩, Ho, ⟨%d0, H0⟩, ⟨%d1, H1⟩, ⟨%d2, H2⟩, ⟨%d3, H3⟩⟩
      iapply (run_B c (grid0.coords t) _ _ _ _ _ _ _ _ _ _ hc1 hc2 hc3 hc4 hc5 (iblk m c 0 t) (iblk m c 1 t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexists d; iexact HS
        iexact Hg
      isplitl [Ho]; · iexact Ho
      isplitl [H0]; · iexact H0
      isplitl [H1]; · iexact H1
      isplitl [H2]; · iexists _; iexact H2
      iexact H3
  · have hc1 : ¬ k0_cond1 (grid0.coords t) = 1#1 := fun h => hn0 ((hcond1 t).mp h)
    have hc2 : k0_cond2 (grid0.coords t) = 1#1 := (hcond2 t).mpr hn0
    simp only [fun d => scAt_succ2 m c d t hc1 hc2]
    by_cases hm0 : t.val % 8 = 0
    · have hc3 : k0_cond3 (grid0.coords t) = 1#1 := (hcond3 t).mpr hm0
      have hc4 : ¬ k0_cond4 (grid0.coords t) = 1#1 := fun h => (hcond4 t).mp h hm0
      have h63 : ¬ t.val % 64 = 63 := by omega
      have hc5 : ¬ k0_cond5 (grid0.coords t) = 1#1 := fun h => h63 ((hcond5 t).mp h)
      rw [Dat.leavesExact_idle (dats m 0 c) 2 t (idleAt0_2 t h63) (noFlush0_2 t h63)]
      rw [rowAt_first m c t hm0]
      iintro ⟨⟨⟨%d, HS⟩, Hg⟩, Ho, ⟨%d0, H0⟩, ⟨%d1, H1⟩, ⟨%d2, H2⟩, ⟨%d3, H3⟩⟩
      iapply (run_C c (grid0.coords t) _ _ _ _ _ _ _ _ _ _ hc1 hc2 hc3 hc4 hc5 (iblk m c 0 t) (iblk m c 1 t) _ _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexists d; iexact HS
        iexact Hg
      isplitl [Ho]; · iexact Ho
      isplitl [H0]; · iexact H0
      isplitl [H1]; · iexact H1
      isplitl [H2]; · iexists _; iexact H2
      iexact H3
    · have hc3 : ¬ k0_cond3 (grid0.coords t) = 1#1 := fun h => hm0 ((hcond3 t).mp h)
      have hc4 : k0_cond4 (grid0.coords t) = 1#1 := (hcond4 t).mpr hm0
      rw [rowAt_later m c t hm0]
      simp only [before0_3 m c t hm0]
      by_cases h63 : t.val % 64 = 63
      · have hc5 : k0_cond5 (grid0.coords t) = 1#1 := (hcond5 t).mpr h63
        rw [show (dats m 0 c).leavesExact 2 t = owns (c : Thread nD τ) (ms0_2 t) fullShare ((dats m 0 c).after 2 t) from by
          unfold Dat.leavesExact; rw [liveAt0_2 t h63], after0_2]
        iintro ⟨⟨⟨%d, HS⟩, Hg⟩, Ho, ⟨%d0, H0⟩, ⟨%d1, H1⟩, ⟨%d2, H2⟩, ⟨%d3, H3⟩⟩
        have e : scAt m c scDflt (t.val + 1) t.isLt
            = scStep2 scM0 hsc0 (grid0.coords t) hc2 (ablk m c t) (pblk m c t) (scAt m c d t.val (Nat.le_of_lt t.isLt)) :=
          (hind c scDflt d (t.val + 1) t.isLt (by omega)).trans (scAt_succ2 m c d t hc1 hc2)
        rw [e]
        iapply (run_E c (grid0.coords t) _ _ _ _ _ _ _ _ _ _ hc1 hc2 hc3 hc4 hc5 (iblk m c 0 t) (iblk m c 1 t) _ _ Set.univ _)
        isplitl [H0]; · iexact H0
        isplitl [H1]; · iexact H1
        isplitl [H2]; · iexists _; iexact H2
        isplitl [H3]; · iexact H3
        isplitl [HS]; · iexact HS
        iintro ⟨H0, H1, H2, H3, HS⟩
        isplitl [HS Hg]
        · isplitl [HS]; · iexists d; iexact HS
          iexact Hg
        isplitl [Ho]; · iexact Ho
        isplitl [H0]; · iexact H0
        isplitl [H1]; · iexact H1
        isplitl [H2]; · iexact H2
        iexact H3
      · have hc5 : ¬ k0_cond5 (grid0.coords t) = 1#1 := fun h => h63 ((hcond5 t).mp h)
        rw [Dat.leavesExact_idle (dats m 0 c) 2 t (idleAt0_2 t h63) (noFlush0_2 t h63)]
        iintro ⟨⟨⟨%d, HS⟩, Hg⟩, Ho, ⟨%d0, H0⟩, ⟨%d1, H1⟩, ⟨%d2, H2⟩, ⟨%d3, H3⟩⟩
        iapply (run_D c (grid0.coords t) _ _ _ _ _ _ _ _ _ _ hc1 hc2 hc3 hc4 hc5 (iblk m c 0 t) (iblk m c 1 t) _ _ _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]; · iexists d; iexact HS
          iexact Hg
        isplitl [Ho]; · iexact Ho
        isplitl [H0]; · iexact H0
        isplitl [H1]; · iexact H1
        isplitl [H2]; · iexists _; iexact H2
        iexact H3

/-- The library's body obligation, at every point. -/
theorem body_obligation (hind : ScIndep m) (c : Dev nD) :
    BodyObligation (dats (F := F) m 0 c) (defs₀ (F := F)) Variants.none () Set.univ := fun t => by
  rw [bigSep_W0, bigSep_W0]
  exact sound_body m hind c t

/-- What the launch hands the region is the invariant before the first point: the scratch row at some contents. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨%d, HS⟩, Hg⟩
  isplitl [HS]
  · iexists d; iexact HS
  iexact Hg

/-- After the last point the invariant gives it back, the row's contents forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  unfold PhiS
  iintro ⟨⟨%d, HS⟩, Hg⟩
  isplitl [HS]
  · iexists _; iexact HS
  iexact Hg

end Cert.Kernel.Gen

end
-- ==== Proof.K.FrameRun.lean ====
/- The run of the whole program around its one region, from the body obligation: every weakly fair execution ends,
   nothing faults, each array of the pipeline ends at what the proof data computes, every other buffer as the host
   operations after the region leave it; and, read at the argument arrays, the frame claim. -/
import proofs.«102414_j35115652612620_1_alg».proof.Proof.K.Body

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main (hind : ScIndep m) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m hind c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post, at any float instance. -/
theorem frame (hind : ScIndep m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hind)

end Cert.Kernel.Gen

end
-- ==== Proof.K.ScPure.lean ====
/- The scratch row of 4096 lanes, one point at a time. The point numbered t stores the 512 lanes
   [512·(t % 8), 512·(t % 8) + 512): a lane inside takes the payload at its position in the slice, a lane outside keeps
   what it held. After the first eight points every lane has been stored once, so the row no longer depends on
   what it held before the first. Generic in the float instance. -/
import proofs.«102414_j35115652612620_1_alg».proof.Proof.K.AccDefs
import Idealize.ShloMosaic.Lib.ValueIdx

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The slice's offsets, by the point's number -/

/-- The point's column tile is its number modulo 8. -/
theorem coord2_eq : ∀ t : Fin cfg0.N, (grid0.coords t 2).val = t.val % 8 :=
  (by decide +kernel : ∀ t : Fin grid0.N, (grid0.coords t 2).val = t.val % 8)

theorem off1_eq : ∀ t : Fin cfg0.N, k0_off1 (grid0.coords t) = ![0, 512 * (t.val % 8)] := fun t =>
  (k0_off1_eq (grid0.coords t)).trans (congrArg (fun n : ℕ => (![0, 512 * n] : Fin 2 → ℕ)) (coord2_eq t))

theorem off2_eq : ∀ t : Fin cfg0.N, k0_off2 (grid0.coords t) = ![0, 512 * (t.val % 8)] := fun t =>
  (k0_off2_eq (grid0.coords t)).trans (congrArg (fun n : ℕ => (![0, 512 * n] : Fin 2 → ℕ)) (coord2_eq t))

/-- The slice's old contents as a vector. -/
def scSlice (t : Fin cfg0.N) (xs : Vec F S1x4096 .f32) : Vec F S1x512 .f32 := fun z =>
  xs (ValueIdx.ix2 0 ⟨512 * (t.val % 8) + (z 1).val, by
    have h : (z 1).val < 512 := (z 1).isLt
    have : t.val % 8 < 8 := Nat.mod_lt _ (by decide)
    omega⟩)

/-! ## One point's store read back -/

theorem scStep1_in (t : Fin cfg0.N) (h1 : k0_cond1 (grid0.coords t) = 1#1) (x0 x1 : Vec F S1x512x2 .f32)
    (xs : Vec F S1x4096 .f32) (j : Fin 512) (hj : 512 * (t.val % 8) + j.val < 4096) :
    scStep1 scM0 hsc0 (grid0.coords t) h1 x0 x1 xs (ValueIdx.ix2 0 ⟨512 * (t.val % 8) + j.val, hj⟩)
      = k0_pay5 x0 x1 (ValueIdx.ix2 0 j) := by
  unfold scStep1
  refine View.read_writes_cons_unit_of_mem (Val := Elt F) scM0.view (hsc0.unread xs) (off := k0_off1 (grid0.coords t))
    (off' := ![0, 512 * (t.val % 8)]) (size := S1x512.size) (k0_off1_inb _ h1) (k0_pay5 x0 x1) []
    (ValueIdx.ix2 0 ⟨512 * (t.val % 8) + j.val, hj⟩) (ValueIdx.ix2 0 j) (off1_eq t) (fun a => ?_)
  match a with
  | ⟨0, _⟩ => rfl
  | ⟨1, _⟩ => rfl

theorem scStep1_out (t : Fin cfg0.N) (h1 : k0_cond1 (grid0.coords t) = 1#1) (x0 x1 : Vec F S1x512x2 .f32)
    (xs : Vec F S1x4096 .f32) (y : S1x4096.Idx)
    (hy : (y 1).val < 512 * (t.val % 8) ∨ 512 * (t.val % 8) + 512 ≤ (y 1).val) :
    scStep1 scM0 hsc0 (grid0.coords t) h1 x0 x1 xs y = xs y := by
  unfold scStep1
  refine (View.read_writes_cons_unit_of_not_mem (Val := Elt F) scM0.view (hsc0.unread xs) (off := k0_off1 (grid0.coords t))
    (off' := ![0, 512 * (t.val % 8)]) (size := S1x512.size) (k0_off1_inb _ h1) (k0_pay5 x0 x1) [] y (off1_eq t) 1 hy).trans ?_
  exact congrFun (hsc0.read_unread xs) y

/-- The load of the slice before the store reads the slice's old contents. -/
theorem readAt_scSlice (t : Fin cfg0.N) (h2 : k0_cond2 (grid0.coords t) = 1#1) (xs : Vec F S1x4096 .f32) :
    View.readAt (Elt F) (scM0 : Memref sig .tc .vmem S1x4096 .f32).view
        (Rect.unit (s := S1x4096) (k0_off2 (grid0.coords t)) S1x512.size (k0_off2_inb _ h2)).toLoadRect (hsc0.unread xs)
      = scSlice t xs := by
  rw [View.readAt_unit_congr_cast _ (off2_eq t)]
  funext z
  refine (hsc0.readAt_unread xs _ z).trans (congrArg xs (funext fun a => Fin.ext ?_))
  match a with
  | ⟨0, _⟩ =>
    have h : (z 0).val < 1 := (z 0).isLt
    show 0 + 1 * (z 0).val = 0
    omega
  | ⟨1, _⟩ =>
    show 512 * (t.val % 8) + 1 * (z 1).val = 512 * (t.val % 8) + (z 1).val
    omega

theorem scStep2_in (t : Fin cfg0.N) (h2 : k0_cond2 (grid0.coords t) = 1#1) (x0 x1 : Vec F S1x512x2 .f32)
    (xs : Vec F S1x4096 .f32) (j : Fin 512) (hj : 512 * (t.val % 8) + j.val < 4096) :
    scStep2 scM0 hsc0 (grid0.coords t) h2 x0 x1 xs (ValueIdx.ix2 0 ⟨512 * (t.val % 8) + j.val, hj⟩)
      = k0_pay6 x0 x1 (scSlice t xs) (ValueIdx.ix2 0 j) := by
  unfold scStep2
  refine (View.read_writes_cons_unit_of_mem (Val := Elt F) scM0.view (hsc0.unread xs) (off := k0_off2 (grid0.coords t))
    (off' := ![0, 512 * (t.val % 8)]) (size := S1x512.size) (k0_off2_inb _ h2) _ []
    (ValueIdx.ix2 0 ⟨512 * (t.val % 8) + j.val, hj⟩) (ValueIdx.ix2 0 j) (off2_eq t) (fun a => ?_)).trans ?_
  · match a with
    | ⟨0, _⟩ => rfl
    | ⟨1, _⟩ => rfl
  · rw [readAt_scSlice t h2 xs]

theorem scStep2_out (t : Fin cfg0.N) (h2 : k0_cond2 (grid0.coords t) = 1#1) (x0 x1 : Vec F S1x512x2 .f32)
    (xs : Vec F S1x4096 .f32) (y : S1x4096.Idx)
    (hy : (y 1).val < 512 * (t.val % 8) ∨ 512 * (t.val % 8) + 512 ≤ (y 1).val) :
    scStep2 scM0 hsc0 (grid0.coords t) h2 x0 x1 xs y = xs y := by
  unfold scStep2
  refine (View.read_writes_cons_unit_of_not_mem (Val := Elt F) scM0.view (hsc0.unread xs) (off := k0_off2 (grid0.coords t))
    (off' := ![0, 512 * (t.val % 8)]) (size := S1x512.size) (k0_off2_inb _ h2) _ [] y (off2_eq t) 1 hy).trans ?_
  exact congrFun (hsc0.read_unread xs) y

/-! ## After eight points the row forgets its first contents -/

/-- `scStep1_in` at a lane given with its position in the slice. -/
theorem scStep1_in' (t : Fin cfg0.N) (h1 : k0_cond1 (grid0.coords t) = 1#1) (x0 x1 : Vec F S1x512x2 .f32)
    (xs : Vec F S1x4096 .f32) (l : Fin 4096) (j : Fin 512) (hl : l.val = 512 * (t.val % 8) + j.val) :
    scStep1 scM0 hsc0 (grid0.coords t) h1 x0 x1 xs (ValueIdx.ix2 0 l) = k0_pay5 x0 x1 (ValueIdx.ix2 0 j) := by
  obtain ⟨l, hl4⟩ := l
  simp only at hl
  subst hl
  exact scStep1_in t h1 x0 x1 xs j hl4

/-- One of the first eight points: rows that agree below the slice agree, after its store, below the slice's end. -/
theorem scStep1_agree (t : Fin cfg0.N) (ht : t.val < 8) (h1 : k0_cond1 (grid0.coords t) = 1#1)
    (x0 x1 : Vec F S1x512x2 .f32) (A A' : Vec F S1x4096 .f32)
    (hA : ∀ l : Fin 4096, l.val < 512 * t.val → A (ValueIdx.ix2 0 l) = A' (ValueIdx.ix2 0 l))
    (l : Fin 4096) (hl : l.val < 512 * (t.val + 1)) :
    scStep1 scM0 hsc0 (grid0.coords t) h1 x0 x1 A (ValueIdx.ix2 0 l)
      = scStep1 scM0 hsc0 (grid0.coords t) h1 x0 x1 A' (ValueIdx.ix2 0 l) := by
  have hmod : t.val % 8 = t.val := Nat.mod_eq_of_lt ht
  by_cases hin : 512 * t.val ≤ l.val
  · have hj : l.val - 512 * t.val < 512 := by omega
    have e : l.val = 512 * (t.val % 8) + (⟨l.val - 512 * t.val, hj⟩ : Fin 512).val := by
      rw [hmod]
      show l.val = 512 * t.val + (l.val - 512 * t.val)
      omega
    rw [scStep1_in' t h1 x0 x1 A l _ e, scStep1_in' t h1 x0 x1 A' l _ e]
  · have hy : ((ValueIdx.ix2 (0 : Fin 1) l : S1x4096.Idx) 1).val < 512 * (t.val % 8)
        ∨ 512 * (t.val % 8) + 512 ≤ ((ValueIdx.ix2 (0 : Fin 1) l : S1x4096.Idx) 1).val :=
      Or.inl (by rw [hmod]; show l.val < 512 * t.val; omega)
    rw [scStep1_out t h1 x0 x1 A _ hy, scStep1_out t h1 x0 x1 A' _ hy]
    exact hA l (by omega)

/-- Through the first eight points the rows from two first contents agree on every lane already stored. -/
theorem scAt_agree_below (c : Dev nD) (d d' : Vec F S1x4096 .f32) :
    ∀ (n : ℕ) (hn : n ≤ cfg0.N), n ≤ 8 → ∀ l : Fin 4096, l.val < 512 * n →
      scAt m c d n hn (ValueIdx.ix2 0 l) = scAt m c d' n hn (ValueIdx.ix2 0 l) := by
  intro n
  induction n with
  | zero => intro hn _ l hl; exact absurd hl (by omega)
  | succ n ih =>
    intro hn h8 l hl
    have h1 : k0_cond1 (grid0.coords ⟨n, hn⟩) = 1#1 := (hcond1 ⟨n, hn⟩).mpr (by show n / 8 % 8 = 0; omega)
    have e1 : scAt m c d (n + 1) hn = scStep1 scM0 hsc0 (grid0.coords ⟨n, hn⟩) h1 (ablk m c ⟨n, hn⟩) (pblk m c ⟨n, hn⟩)
        (scAt m c d n (Nat.le_of_succ_le hn)) := scAt_succ1 m c d ⟨n, hn⟩ h1
    have e2 : scAt m c d' (n + 1) hn = scStep1 scM0 hsc0 (grid0.coords ⟨n, hn⟩) h1 (ablk m c ⟨n, hn⟩) (pblk m c ⟨n, hn⟩)
        (scAt m c d' n (Nat.le_of_succ_le hn)) := scAt_succ1 m c d' ⟨n, hn⟩ h1
    rw [e1, e2]
    exact scStep1_agree ⟨n, hn⟩ (by show n < 8; omega) h1 _ _ _ _
      (fun l' hl' => ih (Nat.le_of_succ_le hn) (by omega) l' hl') l hl

/-- After eight points the rows from two first contents are one row. -/
theorem scAt_eight (c : Dev nD) (d d' : Vec F S1x4096 .f32) (h : 8 ≤ cfg0.N) : scAt m c d 8 h = scAt m c d' 8 h := by
  funext y
  have e : y = ValueIdx.ix2 (0 : Fin 1) (y 1) := by
    funext a
    match a with
    | ⟨0, _⟩ =>
      have h0 : (y 0).val < 1 := (y 0).isLt
      exact Fin.ext (by show (y 0).val = 0; omega)
    | ⟨1, _⟩ => rfl
  rw [e]
  exact scAt_agree_below m c d d' 8 h (Nat.le_refl 8) (y 1) (y 1).isLt

/-- Equal rows step to equal rows. -/
theorem scAt_succ_congr (c : Dev nD) (d d' : Vec F S1x4096 .f32) (n : ℕ) (h : n + 1 ≤ cfg0.N)
    (e : scAt m c d n (Nat.le_of_succ_le h) = scAt m c d' n (Nat.le_of_succ_le h)) :
    scAt m c d (n + 1) h = scAt m c d' (n + 1) h := by
  by_cases h1 : k0_cond1 (grid0.coords ⟨n, h⟩) = 1#1
  · have e1 : scAt m c d (n + 1) h = scStep1 scM0 hsc0 (grid0.coords ⟨n, h⟩) h1 (ablk m c ⟨n, h⟩) (pblk m c ⟨n, h⟩)
        (scAt m c d n (Nat.le_of_succ_le h)) := dif_pos h1
    have e2 : scAt m c d' (n + 1) h = scStep1 scM0 hsc0 (grid0.coords ⟨n, h⟩) h1 (ablk m c ⟨n, h⟩) (pblk m c ⟨n, h⟩)
        (scAt m c d' n (Nat.le_of_succ_le h)) := dif_pos h1
    rw [e1, e2, e]
  · by_cases h2 : k0_cond2 (grid0.coords ⟨n, h⟩) = 1#1
    · have e1 : scAt m c d (n + 1) h = scStep2 scM0 hsc0 (grid0.coords ⟨n, h⟩) h2 (ablk m c ⟨n, h⟩) (pblk m c ⟨n, h⟩)
          (scAt m c d n (Nat.le_of_succ_le h)) := (dif_neg h1).trans (dif_pos h2)
      have e2 : scAt m c d' (n + 1) h = scStep2 scM0 hsc0 (grid0.coords ⟨n, h⟩) h2 (ablk m c ⟨n, h⟩) (pblk m c ⟨n, h⟩)
          (scAt m c d' n (Nat.le_of_succ_le h)) := (dif_neg h1).trans (dif_pos h2)
      rw [e1, e2, e]
    · have e1 : scAt m c d (n + 1) h = scAt m c d n (Nat.le_of_succ_le h) := (dif_neg h1).trans (dif_neg h2)
      have e2 : scAt m c d' (n + 1) h = scAt m c d' n (Nat.le_of_succ_le h) := (dif_neg h1).trans (dif_neg h2)
      rw [e1, e2, e]

theorem scAt_indep (c : Dev nD) (d d' : Vec F S1x4096 .f32) (n : ℕ) (hn : n ≤ cfg0.N) (h8 : 8 ≤ n) :
    scAt m c d n hn = scAt m c d' n hn := by
  induction n, h8 using Nat.le_induction with
  | base => exact scAt_eight m c d d' hn
  | succ n h8 ih => exact scAt_succ_congr m c d d' n hn (ih (Nat.le_of_succ_le hn))

end Cert.Kernel.Gen

end
-- ==== Proof.K.Indep.lean ====
/- The word-level program's scratch row forgets its first contents after eight points, as the idealized one's does. -/
import proofs.«102414_j35115652612620_1_alg».proof.Proof.K.FrameRun
import proofs.«102414_j35115652612620_1_alg».proof.Proof.K.ScPure

noncomputable section

namespace Cert.Kernel.Gen

open Idealize.ShloMosaic

theorem scIndep {F : FTy → Type} [FloatOps F] (m : (ℓ : Loc nD τ sig) → Buf (Elt F) ℓ) : ScIndep m :=
  fun c d d' n hn h8 => scAt_indep m c d d' n hn h8

end Cert.Kernel.Gen

end
-- ==== Proof.KI.Base.lean ====
/- What the body's five runs share: a load of a whole buffer and a store of a whole buffer read back, and the scratch
   row after a store of one 512-lane slice. Generic in the float instance. -/
import proofs.«102414_j35115652612620_1_alg».proof.Proof.Gen.KernelIdeal.Frame
import proofs.«102414_j35115652612620_1_alg».proof.Proof.Gen.KernelIdeal.Skeleton
import Idealize.ShloMosaic.Lib.Pipeline.Value
import Idealize.ShloMosaic.Lib.WritesUnit
import Idealize.ShloMosaic.Lib.WholeRead

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-buffer loads and stores read back -/

theorem zero3 : (![0, 0, 0] : Fin 3 → ℕ) = fun _ => 0 := by funext a; fin_cases a <;> rfl
theorem zero2 : (![0, 0] : Fin 2 → ℕ) = fun _ => 0 := by funext a; fin_cases a <;> rfl

/-- A load of the whole of a whole memref held at `X` reads `X`. -/
theorem readAt_whole {S : Shape} {M : Memref sig .tc .vmem S .f32} (hM : M.IsWhole) (X : Vec F S .f32)
    {off : Fin S.rank → ℕ} (hz : off = fun _ => 0) (inb : ∀ a, off a + S.size a ≤ S.size a) :
    View.readAt (Elt F) M.view (Rect.unit off S.size inb).toLoadRect (hM.unread X) = X := by
  rw [View.readAt_eq_ld, hM.read_unread, View.ld_unit_zero hz]

/-- One store of the whole buffer leaves its payload, whatever was there. -/
theorem read_writes_whole {S : Shape} (M : Memref sig .tc .vmem S .f32) (f : M.view.ty.Contents (Elt F))
    {off : Fin S.rank → ℕ} (hz : off = fun _ => 0) (inb : ∀ a, off a + S.size a ≤ S.size a) (w : Vec F S .f32) :
    M.view.read (Elt F) (M.view.writes (Elt F) f [(⟨Rect.unit off S.size inb, w⟩ : View.Piece (Elt F) S .f32)]) = w := by
  subst hz
  rw [View.read_writes_eq_canon _ _ _ (fun y => ⟨_, List.mem_singleton_self _, by
    show y ∈ (Rect.whole S).set; rw [Rect.set_whole]; exact Finset.mem_univ y⟩), View.canon_unit_zero rfl]

/-! ## The scratch row after one point's store -/

/-- The scratch row after the first-row-tile store: lanes [512·m, 512·m + 512) take this tile's column minima. -/
def scStep1 (M : Memref sig .tc .vmem S1x4096 .f32) (hM : M.IsWhole) (i : grid0.Coords) (h1 : k0_cond1 i = 1#1)
    (x0 x1 : Vec F S1x512x2 .f32) (xs : Vec F S1x4096 .f32) : Vec F S1x4096 .f32 :=
  M.view.read (Elt F) (M.view.writes (Elt F) (hM.unread xs)
    [(⟨Rect.unit (s := S1x4096) (k0_off1 i) S1x512.size (k0_off1_inb i h1), k0_pay5 x0 x1⟩ : View.Piece (Elt F) S1x4096 .f32)])

/-- The scratch row after a later row tile's store: the same lanes take the minimum of what they held and this
    tile's column minima. -/
def scStep2 (M : Memref sig .tc .vmem S1x4096 .f32) (hM : M.IsWhole) (i : grid0.Coords) (h2 : k0_cond2 i = 1#1)
    (x0 x1 : Vec F S1x512x2 .f32) (xs : Vec F S1x4096 .f32) : Vec F S1x4096 .f32 :=
  M.view.read (Elt F) (M.view.writes (Elt F) (hM.unread xs)
    [(⟨Rect.unit (s := S1x4096) (k0_off2 i) S1x512.size (k0_off2_inb i h2),
        k0_pay6 x0 x1 (View.readAt (Elt F) M.view (Rect.unit (s := S1x4096) (k0_off2 i) S1x512.size (k0_off2_inb i h2)).toLoadRect (hM.unread xs))⟩ : View.Piece (Elt F) S1x4096 .f32)])

end Cert.KernelIdeal.Gen

end
-- ==== Proof.KI.AccDefs.lean ====
/- The two running minima as functions of the grid point, the body's conditions as facts about the point's number,
   where each window is idle, and the staging buffers' names. The point numbered t is batch t / 64, row tile
   t / 8 % 8, column tile t % 8. Generic in the float instance. -/
import proofs.«102414_j35115652612620_1_alg».proof.Proof.KI.Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the scratch row -/

abbrev ms0_0 (t : Fin cfg0.N) : Memref sig .tc .vmem S1x512x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
/-- The scratch row: a whole scoped buffer of the kernel's own. -/
abbrev scM0 : Memref sig .tc .vmem S1x4096 .f32 := Memref.whole cc0_scratch0
theorem hsc0 : (scM0 : Memref sig .tc .vmem S1x4096 .f32).IsWhole := Memref.isWhole_whole _

/-- What the region may use beside its windows: the scratch row at some contents, and the generator register. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

/-! ## The body's conditions, by the point's number -/

/-- First row tile. -/
theorem hcond1 : ∀ t : Fin cfg0.N, k0_cond1 (grid0.coords t) = 1#1 ↔ t.val / 8 % 8 = 0 :=
  (by decide +kernel : ∀ t : Fin grid0.N, k0_cond1 (grid0.coords t) = 1#1 ↔ t.val / 8 % 8 = 0)
/-- A later row tile. -/
theorem hcond2 : ∀ t : Fin cfg0.N, k0_cond2 (grid0.coords t) = 1#1 ↔ ¬ t.val / 8 % 8 = 0 :=
  (by decide +kernel : ∀ t : Fin grid0.N, k0_cond2 (grid0.coords t) = 1#1 ↔ ¬ t.val / 8 % 8 = 0)
/-- First column tile. -/
theorem hcond3 : ∀ t : Fin cfg0.N, k0_cond3 (grid0.coords t) = 1#1 ↔ t.val % 8 = 0 :=
  (by decide +kernel : ∀ t : Fin grid0.N, k0_cond3 (grid0.coords t) = 1#1 ↔ t.val % 8 = 0)
/-- A later column tile. -/
theorem hcond4 : ∀ t : Fin cfg0.N, k0_cond4 (grid0.coords t) = 1#1 ↔ ¬ t.val % 8 = 0 :=
  (by decide +kernel : ∀ t : Fin grid0.N, k0_cond4 (grid0.coords t) = 1#1 ↔ ¬ t.val % 8 = 0)
/-- The batch's last point. -/
theorem hcond5 : ∀ t : Fin cfg0.N, k0_cond5 (grid0.coords t) = 1#1 ↔ t.val % 64 = 63 :=
  (by decide +kernel : ∀ t : Fin grid0.N, k0_cond5 (grid0.coords t) = 1#1 ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- The column result's window is stored only at a batch's last point, idle before it, and not written back there. -/
theorem idleAt0_2 : ∀ t : Fin cfg0.N, ¬ t.val % 64 = 63 → cfg0.idle 2 (grid0.coords t) = true := by decide +kernel
theorem liveAt0_2 : ∀ t : Fin cfg0.N, t.val % 64 = 63 → cfg0.idle 2 (grid0.coords t) = false := by decide +kernel
theorem noFlush0_2 : ∀ t : Fin cfg0.N, ¬ t.val % 64 = 63 → (cfg0.win 2).flush t = false := by decide +kernel
/-- The row result's window is never idle, whatever the coordinates: one of its two stores always runs. -/
theorem live3 : ∀ i : grid0.Coords, cfg0.idle 3 i = false := fun i =>
  (by decide : ∀ a : Fin 8, (!(Scalar.cmpi .ne (Scalar.extui (Scalar.cmpi .eq (BitVec.ofNat 32 a.val) 0#32)) 0#32 == 1#1)
      && !(Scalar.cmpi .ne (Scalar.extui (Scalar.cmpi .sgt (BitVec.ofNat 32 a.val) 0#32)) 0#32 == 1#1)) = false) (i 2)

/-! ## The running minima -/

/-- The two input windows' blocks at a point: 512 points of each cloud. -/
abbrev ablk (c : Dev nD) (t : Fin cfg0.N) : Vec F S1x512x2 .f32 := iblk m c 0 t
abbrev pblk (c : Dev nD) (t : Fin cfg0.N) : Vec F S1x512x2 .f32 := iblk m c 1 t

/-- What the row result's buffer holds after the point numbered `n`: at a first column tile this tile's row minima,
    afterwards the minimum with what the point before left. -/
def rowAt (c : Dev nD) : (n : ℕ) → n < cfg0.N → Vec F S1x1x512 .f32
  | 0, h => k0_pay7 (ablk m c ⟨0, h⟩) (pblk m c ⟨0, h⟩)
  | n + 1, h =>
    if (n + 1) % 8 = 0 then k0_pay7 (ablk m c ⟨n + 1, h⟩) (pblk m c ⟨n + 1, h⟩)
    else k0_pay8 (ablk m c ⟨n + 1, h⟩) (pblk m c ⟨n + 1, h⟩) (rowAt c n (Nat.lt_of_succ_lt h))

theorem rowAt_first (c : Dev nD) (t : Fin cfg0.N) (h : t.val % 8 = 0) :
    rowAt m c t.val t.isLt = k0_pay7 (ablk m c t) (pblk m c t) := by
  obtain ⟨n, hn⟩ := t
  cases n with
  | zero => rfl
  | succ n => exact if_pos h

theorem rowAt_later (c : Dev nD) (t : Fin cfg0.N) (h : ¬ t.val % 8 = 0) :
    rowAt m c t.val t.isLt = k0_pay8 (ablk m c t) (pblk m c t)
      (rowAt m c (t.val - 1) (Nat.lt_of_le_of_lt (Nat.sub_le _ _) t.isLt)) := by
  obtain ⟨n, hn⟩ := t
  cases n with
  | zero => exact absurd (Nat.zero_mod _) h
  | succ n => exact if_neg h

/-- The scratch row after `n` points, from contents `d` before the first: each point updates its column tile's lanes. -/
def scAt (c : Dev nD) (d : Vec F S1x4096 .f32) : (n : ℕ) → n ≤ cfg0.N → Vec F S1x4096 .f32
  | 0, _ => d
  | n + 1, h =>
    if h1 : k0_cond1 (grid0.coords ⟨n, h⟩) = 1#1 then
      scStep1 scM0 hsc0 (grid0.coords ⟨n, h⟩) h1 (ablk m c ⟨n, h⟩) (pblk m c ⟨n, h⟩) (scAt c d n (Nat.le_of_succ_le h))
    else if h2 : k0_cond2 (grid0.coords ⟨n, h⟩) = 1#1 then
      scStep2 scM0 hsc0 (grid0.coords ⟨n, h⟩) h2 (ablk m c ⟨n, h⟩) (pblk m c ⟨n, h⟩) (scAt c d n (Nat.le_of_succ_le h))
    else scAt c d n (Nat.le_of_succ_le h)

theorem scAt_zero (c : Dev nD) (d : Vec F S1x4096 .f32) (h : 0 ≤ cfg0.N) : scAt m c d 0 h = d := rfl

theorem scAt_succ1 (c : Dev nD) (d : Vec F S1x4096 .f32) (t : Fin cfg0.N) (h1 : k0_cond1 (grid0.coords t) = 1#1) :
    scAt m c d (t.val + 1) t.isLt
      = scStep1 scM0 hsc0 (grid0.coords t) h1 (ablk m c t) (pblk m c t) (scAt m c d t.val (Nat.le_of_lt t.isLt)) :=
  dif_pos h1

theorem scAt_succ2 (c : Dev nD) (d : Vec F S1x4096 .f32) (t : Fin cfg0.N) (h1 : ¬ k0_cond1 (grid0.coords t) = 1#1)
    (h2 : k0_cond2 (grid0.coords t) = 1#1) :
    scAt m c d (t.val + 1) t.isLt
      = scStep2 scM0 hsc0 (grid0.coords t) h2 (ablk m c t) (pblk m c t) (scAt m c d t.val (Nat.le_of_lt t.isLt)) :=
  (dif_neg h1).trans (dif_pos h2)

/-- Contents nobody names: what the scratch row is taken to hold before the first point where it does not matter. -/
def scDflt : Vec F S1x4096 .f32 := fun _ => (Elt.inhabited F .f32).default

end Cert.KernelIdeal.Gen

end
-- ==== Proof.KI.Data.lean ====
/- The pipeline's proof data: each array as the region finds it; after the body at a point the two inputs' buffers at
   their blocks, the row result's at the running row minima, the column result's at the scratch row (read at a
   batch's last point only); between points the scratch row at its running contents. -/
import proofs.«102414_j35115652612620_1_alg».proof.Proof.KI.AccDefs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before the point numbered `n`: the scratch row at what `n` points leave of some first contents, and
    the generator register at some state. -/
def PhiS (c : Dev nD) (n : ℕ) (hn : n ≤ cfg0.N) : sProp 𝕄 :=
  iprop(iprop(∃ d, owns (c : Thread nD τ) scM0 fullShare (scAt m c d n hn)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (scAt m c scDflt (t.val + 1) t.isLt)
    | ⟨3, _⟩ => rowAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem Phi_succ (c : Dev nD) (t : Fin cfg0.N) :
    (dats m 0 c).Φ t.succ = PhiS m c (t.val + 1) t.isLt := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = k0_pay1 (scAt m c scDflt (t.val + 1) t.isLt) := by dsimp only [dats]
theorem after0_3 (c : Dev nD) (t : Fin cfg0.N) : (dats m 0 c).after 3 t = rowAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Past a first column tile the row result's buffer holds what the point before left: it is written back only after a
    last column tile. -/
theorem before0_3 (c : Dev nD) (t : Fin cfg0.N) (h : ¬ t.val % 8 = 0) (d) :
    (dats m 0 c).before 3 t d = rowAt m c (t.val - 1) (Nat.lt_of_le_of_lt (Nat.sub_le _ _) t.isLt) := by
  have ht : t.val ≠ 0 := fun h0 => h (by rw [h0])
  have hfl : (cfg0.win 3).flush ⟨t.val - 1, Nat.lt_of_le_of_lt (Nat.sub_le _ _) t.isLt⟩ = false := by
    rcases hb : (cfg0.win 3).flush ⟨t.val - 1, Nat.lt_of_le_of_lt (Nat.sub_le _ _) t.isLt⟩ with _ | _
    · rfl
    · exfalso
      have := (flush0_3 ⟨t.val - 1, Nat.lt_of_le_of_lt (Nat.sub_le _ _) t.isLt⟩).mp hb
      dsimp only at this
      omega
  rw [(dats m 0 c).before_out_kept 3 rfl t ht hfl live3 (fun _ _ => rfl) d, after0_3]

end Cert.KernelIdeal.Gen

end
-- ==== Proof.KI.RunA.lean ====
/- The body at a point of the first row tile and the first column tile, not the last of its batch. -/
import proofs.«102414_j35115652612620_1_alg».proof.Proof.KI.Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- With the two inputs' buffers at their blocks, the column result's buffer at anything it is handed (untouched), the
    row result's buffer at anything and the scratch row at its contents, the body runs, leaving the row result's buffer
    at this tile's row minima and the scratch row with this tile's lanes set to this tile's column minima. -/
theorem run_A (c : Dev nD) (i : grid0.Coords)
    (arg3 : Memref sig .tc .vmem S1x512x2 .f32) (harg3 : arg3.IsWhole) (arg4 : Memref sig .tc .vmem S1x512x2 .f32) (harg4 : arg4.IsWhole)
    (arg5 : Memref sig .tc .vmem S1x1x4096 .f32) (harg5 : arg5.IsWhole) (arg6 : Memref sig .tc .vmem S1x1x512 .f32) (harg6 : arg6.IsWhole)
    (arg7 : Memref sig .tc .vmem S1x4096 .f32) (harg7 : arg7.IsWhole)
    (hc1 : k0_cond1 i = 1#1) (hc2 : ¬ k0_cond2 i = 1#1) (hc3 : k0_cond3 i = 1#1) (hc4 : ¬ k0_cond4 i = 1#1) (hc5 : ¬ k0_cond5 i = 1#1)
    (x0 : Vec F S1x512x2 .f32) (x1 : Vec F S1x512x2 .f32) (xi2 : Vec F S1x1x4096 .f32) (xs : Vec F S1x4096 .f32)
    (E : Set ℕ) (K : PUnit → sProp 𝕄) :
    iprop(owns (c : Thread nD τ) arg3 fullShare x0 ∗ owns (c : Thread nD τ) arg4 fullShare x1
        ∗ owns (c : Thread nD τ) arg5 fullShare xi2 ∗ (∃ d, owns (c : Thread nD τ) arg6 fullShare d) ∗ owns (c : Thread nD τ) arg7 fullShare xs
        ∗ (iprop(owns (c : Thread nD τ) arg3 fullShare x0 ∗ owns (c : Thread nD τ) arg4 fullShare x1
            ∗ owns (c : Thread nD τ) arg5 fullShare xi2
            ∗ owns (c : Thread nD τ) arg6 fullShare (k0_pay7 x0 x1)
            ∗ owns (c : Thread nD τ) arg7 fullShare (scStep1 arg7 harg7 i hc1 x0 x1 xs)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel; simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_writes_whole arg6 _ zero3, readAt_whole harg3 x0 zero3, readAt_whole harg4 x1 zero3]
  · iexists _; isplitr
    swap; · iexact HS
    ipureintro
    unfold scStep1
    rw [readAt_whole harg3 x0 zero3, readAt_whole harg4 x1 zero3]

end Cert.KernelIdeal.Gen

end
-- ==== Proof.KI.RunB.lean ====
/- The body at a point of the first row tile, past the first column tile, not the last of its batch. -/
import proofs.«102414_j35115652612620_1_alg».proof.Proof.KI.Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- With the two inputs' buffers at their blocks, the column result's buffer at anything it is handed (untouched), the
    row result's buffer at the running row minima and the scratch row at its contents, the body runs, leaving the row
    result's buffer at the minimum with this tile's row minima and the scratch row with this tile's lanes set to this
    tile's column minima. -/
theorem run_B (c : Dev nD) (i : grid0.Coords)
    (arg3 : Memref sig .tc .vmem S1x512x2 .f32) (harg3 : arg3.IsWhole) (arg4 : Memref sig .tc .vmem S1x512x2 .f32) (harg4 : arg4.IsWhole)
    (arg5 : Memref sig .tc .vmem S1x1x4096 .f32) (harg5 : arg5.IsWhole) (arg6 : Memref sig .tc .vmem S1x1x512 .f32) (harg6 : arg6.IsWhole)
    (arg7 : Memref sig .tc .vmem S1x4096 .f32) (harg7 : arg7.IsWhole)
    (hc1 : k0_cond1 i = 1#1) (hc2 : ¬ k0_cond2 i = 1#1) (hc3 : ¬ k0_cond3 i = 1#1) (hc4 : k0_cond4 i = 1#1) (hc5 : ¬ k0_cond5 i = 1#1)
    (x0 : Vec F S1x512x2 .f32) (x1 : Vec F S1x512x2 .f32) (xi2 : Vec F S1x1x4096 .f32) (xo3 : Vec F S1x1x512 .f32) (xs : Vec F S1x4096 .f32)
    (E : Set ℕ) (K : PUnit → sProp 𝕄) :
    iprop(owns (c : Thread nD τ) arg3 fullShare x0 ∗ owns (c : Thread nD τ) arg4 fullShare x1
        ∗ owns (c : Thread nD τ) arg5 fullShare xi2 ∗ owns (c : Thread nD τ) arg6 fullShare xo3 ∗ owns (c : Thread nD τ) arg7 fullShare xs
        ∗ (iprop(owns (c : Thread nD τ) arg3 fullShare x0 ∗ owns (c : Thread nD τ) arg4 fullShare x1
            ∗ owns (c : Thread nD τ) arg5 fullShare xi2
            ∗ owns (c : Thread nD τ) arg6 fullShare (k0_pay8 x0 x1 xo3)
            ∗ owns (c : Thread nD τ) arg7 fullShare (scStep1 arg7 harg7 i hc1 x0 x1 xs)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel; simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_writes_whole arg6 _ zero3, readAt_whole harg3 x0 zero3, readAt_whole harg4 x1 zero3, readAt_whole harg6 xo3 zero3]
  · iexists _; isplitr
    swap; · iexact HS
    ipureintro
    unfold scStep1
    rw [readAt_whole harg3 x0 zero3, readAt_whole harg4 x1 zero3]

end Cert.KernelIdeal.Gen

end
-- ==== Proof.KI.RunC.lean ====
/- The body at a point past the first row tile, of the first column tile, not the last of its batch. -/
import proofs.«102414_j35115652612620_1_alg».proof.Proof.KI.Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- With the two inputs' buffers at their blocks, the column result's buffer at anything it is handed (untouched), the
    row result's buffer at anything and the scratch row at its contents, the body runs, leaving the row result's buffer
    at this tile's row minima and the scratch row with this tile's lanes updated. -/
theorem run_C (c : Dev nD) (i : grid0.Coords)
    (arg3 : Memref sig .tc .vmem S1x512x2 .f32) (harg3 : arg3.IsWhole) (arg4 : Memref sig .tc .vmem S1x512x2 .f32) (harg4 : arg4.IsWhole)
    (arg5 : Memref sig .tc .vmem S1x1x4096 .f32) (harg5 : arg5.IsWhole) (arg6 : Memref sig .tc .vmem S1x1x512 .f32) (harg6 : arg6.IsWhole)
    (arg7 : Memref sig .tc .vmem S1x4096 .f32) (harg7 : arg7.IsWhole)
    (hc1 : ¬ k0_cond1 i = 1#1) (hc2 : k0_cond2 i = 1#1) (hc3 : k0_cond3 i = 1#1) (hc4 : ¬ k0_cond4 i = 1#1) (hc5 : ¬ k0_cond5 i = 1#1)
    (x0 : Vec F S1x512x2 .f32) (x1 : Vec F S1x512x2 .f32) (xi2 : Vec F S1x1x4096 .f32) (xs : Vec F S1x4096 .f32)
    (E : Set ℕ) (K : PUnit → sProp 𝕄) :
    iprop(owns (c : Thread nD τ) arg3 fullShare x0 ∗ owns (c : Thread nD τ) arg4 fullShare x1
        ∗ owns (c : Thread nD τ) arg5 fullShare xi2 ∗ (∃ d, owns (c : Thread nD τ) arg6 fullShare d) ∗ owns (c : Thread nD τ) arg7 fullShare xs
        ∗ (iprop(owns (c : Thread nD τ) arg3 fullShare x0 ∗ owns (c : Thread nD τ) arg4 fullShare x1
            ∗ owns (c : Thread nD τ) arg5 fullShare xi2
            ∗ owns (c : Thread nD τ) arg6 fullShare (k0_pay7 x0 x1)
            ∗ owns (c : Thread nD τ) arg7 fullShare (scStep2 arg7 harg7 i hc2 x0 x1 xs)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel; simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_writes_whole arg6 _ zero3, readAt_whole harg3 x0 zero3, readAt_whole harg4 x1 zero3]
  · iexists _; isplitr
    swap; · iexact HS
    ipureintro
    unfold scStep2
    rw [readAt_whole harg3 x0 zero3, readAt_whole harg4 x1 zero3]

end Cert.KernelIdeal.Gen

end
-- ==== Proof.KI.RunD.lean ====
/- The body at a point past the first row tile and past the first column tile, not the last of its batch. -/
import proofs.«102414_j35115652612620_1_alg».proof.Proof.KI.Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- With the two inputs' buffers at their blocks, the column result's buffer at anything it is handed (untouched), the
    row result's buffer at the running row minima and the scratch row at its contents, the body runs, leaving the row
    result's buffer at the minimum with this tile's row minima and the scratch row with this tile's lanes updated. -/
theorem run_D (c : Dev nD) (i : grid0.Coords)
    (arg3 : Memref sig .tc .vmem S1x512x2 .f32) (harg3 : arg3.IsWhole) (arg4 : Memref sig .tc .vmem S1x512x2 .f32) (harg4 : arg4.IsWhole)
    (arg5 : Memref sig .tc .vmem S1x1x4096 .f32) (harg5 : arg5.IsWhole) (arg6 : Memref sig .tc .vmem S1x1x512 .f32) (harg6 : arg6.IsWhole)
    (arg7 : Memref sig .tc .vmem S1x4096 .f32) (harg7 : arg7.IsWhole)
    (hc1 : ¬ k0_cond1 i = 1#1) (hc2 : k0_cond2 i = 1#1) (hc3 : ¬ k0_cond3 i = 1#1) (hc4 : k0_cond4 i = 1#1) (hc5 : ¬ k0_cond5 i = 1#1)
    (x0 : Vec F S1x512x2 .f32) (x1 : Vec F S1x512x2 .f32) (xi2 : Vec F S1x1x4096 .f32) (xo3 : Vec F S1x1x512 .f32) (xs : Vec F S1x4096 .f32)
    (E : Set ℕ) (K : PUnit → sProp 𝕄) :
    iprop(owns (c : Thread nD τ) arg3 fullShare x0 ∗ owns (c : Thread nD τ) arg4 fullShare x1
        ∗ owns (c : Thread nD τ) arg5 fullShare xi2 ∗ owns (c : Thread nD τ) arg6 fullShare xo3 ∗ owns (c : Thread nD τ) arg7 fullShare xs
        ∗ (iprop(owns (c : Thread nD τ) arg3 fullShare x0 ∗ owns (c : Thread nD τ) arg4 fullShare x1
            ∗ owns (c : Thread nD τ) arg5 fullShare xi2
            ∗ owns (c : Thread nD τ) arg6 fullShare (k0_pay8 x0 x1 xo3)
            ∗ owns (c : Thread nD τ) arg7 fullShare (scStep2 arg7 harg7 i hc2 x0 x1 xs)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel; simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_writes_whole arg6 _ zero3, readAt_whole harg3 x0 zero3, readAt_whole harg4 x1 zero3, readAt_whole harg6 xo3 zero3]
  · iexists _; isplitr
    swap; · iexact HS
    ipureintro
    unfold scStep2
    rw [readAt_whole harg3 x0 zero3, readAt_whole harg4 x1 zero3]

end Cert.KernelIdeal.Gen

end
-- ==== Proof.KI.RunE.lean ====
/- The body at the last point of a batch: past the first row tile and past the first column tile, and the scratch
   row, complete, goes out whole as the column result. -/
import proofs.«102414_j35115652612620_1_alg».proof.Proof.KI.Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- With the two inputs' buffers at their blocks, the column result's buffer at anything, the row result's buffer at the
    running row minima and the scratch row at its contents, the body runs, leaving the row result's buffer at the
    minimum with this tile's row minima, the scratch row with this tile's lanes updated, and the column result's
    buffer at that whole updated scratch row. -/
theorem run_E (c : Dev nD) (i : grid0.Coords)
    (arg3 : Memref sig .tc .vmem S1x512x2 .f32) (harg3 : arg3.IsWhole) (arg4 : Memref sig .tc .vmem S1x512x2 .f32) (harg4 : arg4.IsWhole)
    (arg5 : Memref sig .tc .vmem S1x1x4096 .f32) (harg5 : arg5.IsWhole) (arg6 : Memref sig .tc .vmem S1x1x512 .f32) (harg6 : arg6.IsWhole)
    (arg7 : Memref sig .tc .vmem S1x4096 .f32) (harg7 : arg7.IsWhole)
    (hc1 : ¬ k0_cond1 i = 1#1) (hc2 : k0_cond2 i = 1#1) (hc3 : ¬ k0_cond3 i = 1#1) (hc4 : k0_cond4 i = 1#1) (hc5 : k0_cond5 i = 1#1)
    (x0 : Vec F S1x512x2 .f32) (x1 : Vec F S1x512x2 .f32) (xo3 : Vec F S1x1x512 .f32) (xs : Vec F S1x4096 .f32)
    (E : Set ℕ) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare xo3 ∗ owns (c : Thread nD τ) arg7 fullShare xs
        ∗ (iprop(owns (c : Thread nD τ) arg3 fullShare x0 ∗ owns (c : Thread nD τ) arg4 fullShare x1
            ∗ owns (c : Thread nD τ) arg5 fullShare (k0_pay1 (scStep2 arg7 harg7 i hc2 x0 x1 xs))
            ∗ owns (c : Thread nD τ) arg6 fullShare (k0_pay8 x0 x1 xo3)
            ∗ owns (c : Thread nD τ) arg7 fullShare (scStep2 arg7 harg7 i hc2 x0 x1 xs)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel; simp only [k0_part1_eq_skeleton]; unfold k0_part1_skel
  unfold owns
  iintro ⟨⟨%f0, %hf0, H0⟩, ⟨%f1, %hf1, H1⟩, ⟨%d2, %f2, -, H2⟩, ⟨%f3, %hf3, H3⟩, ⟨%fs, %hfs, HS⟩, Hk⟩
  obtain rfl := harg3.eq_unread hf0; obtain rfl := harg4.eq_unread hf1
  obtain rfl := harg6.eq_unread hf3; obtain rfl := harg7.eq_unread hfs
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [read_writes_whole arg5 _ zero3]
    unfold run_E.sl.v32
    rw [View.readAt_eq_ld, View.ld_unit_zero (S := S1x4096) zero2]
    unfold run_E.sl.HS_1 scStep2
    rw [readAt_whole harg3 x0 zero3, readAt_whole harg4 x1 zero3]
  isplitl [H3]
  · iexists _; isplitr
    swap; · iexact H3
    ipureintro
    rw [read_writes_whole arg6 _ zero3, readAt_whole harg3 x0 zero3, readAt_whole harg4 x1 zero3, readAt_whole harg6 xo3 zero3]
  · iexists _; isplitr
    swap; · iexact HS
    ipureintro
    unfold run_E.sl.HS_1 scStep2
    rw [readAt_whole harg3 x0 zero3, readAt_whole harg4 x1 zero3]

end Cert.KernelIdeal.Gen

end
-- ==== Proof.KI.Body.lean ====
/- The body obligation: at every point the body, handed each window's buffer at what the proof data says it holds and
   the scratch row at its running contents, leaves them at what the proof data says for the next point. Five cases by
   the point's row tile (first or later), column tile (first or later) and whether it is its batch's last. -/
import proofs.«102414_j35115652612620_1_alg».proof.Proof.KI.Data
import proofs.«102414_j35115652612620_1_alg».proof.Proof.KI.RunA
import proofs.«102414_j35115652612620_1_alg».proof.Proof.KI.RunB
import proofs.«102414_j35115652612620_1_alg».proof.Proof.KI.RunC
import proofs.«102414_j35115652612620_1_alg».proof.Proof.KI.RunD
import proofs.«102414_j35115652612620_1_alg».proof.Proof.KI.RunE

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Once every column tile has been stored once, the scratch row no longer depends on what it held at first. -/
def ScIndep : Prop :=
  ∀ (c : Dev nD) (d d' : Vec F S1x4096 .f32) (n : ℕ) (hn : n ≤ cfg0.N), 8 ≤ n → scAt m c d n hn = scAt m c d' n hn

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (hind : ScIndep m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_succ, Phi_castSucc]
  unfold PhiS
  have hN : t.val < 512 := lt_of_lt_of_eq t.isLt (show cfg0.N = 512 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 3 t = owns (c : Thread nD τ) (ms0_3 t) fullShare ((dats m 0 c).after 3 t) from by
    unfold Dat.leavesExact; rw [liveAt0_3 t], after0_3]
  by_cases hn0 : t.val / 8 % 8 = 0
  · have hc1 : k0_cond1 (grid0.coords t) = 1#1 := (hcond1 t).mpr hn0
    have hc2 : ¬ k0_cond2 (grid0.coords t) = 1#1 := fun h => (hcond2 t).mp h hn0
    have h63 : ¬ t.val % 64 = 63 := by omega
    have hc5 : ¬ k0_cond5 (grid0.coords t) = 1#1 := fun h => h63 ((hcond5 t).mp h)
    rw [Dat.leavesExact_idle (dats m 0 c) 2 t (idleAt0_2 t h63) (noFlush0_2 t h63)]
    simp only [fun d => scAt_succ1 m c d t hc1]
    by_cases hm0 : t.val % 8 = 0
    · have hc3 : k0_cond3 (grid0.coords t) = 1#1 := (hcond3 t).mpr hm0
      have hc4 : ¬ k0_cond4 (grid0.coords t) = 1#1 := fun h => (hcond4 t).mp h hm0
      rw [rowAt_first m c t hm0]
      iintro ⟨⟨⟨%d, HS⟩, Hg⟩, Ho, ⟨%d0, H0⟩, ⟨%d1, H1⟩, ⟨%d2, H2⟩, ⟨%d3, H3⟩⟩
      iapply (run_A c (grid0.coords t) _ _ _ _ _ _ _ _ _ _ hc1 hc2 hc3 hc4 hc5 (iblk m c 0 t) (iblk m c 1 t) _ _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexists d; iexact HS
        iexact Hg
      isplitl [Ho]; · iexact Ho
      isplitl [H0]; · iexact H0
      isplitl [H1]; · iexact H1
      isplitl [H2]; · iexists _; iexact H2
      iexact H3
    · have hc3 : ¬ k0_cond3 (grid0.coords t) = 1#1 := fun h => hm0 ((hcond3 t).mp h)
      have hc4 : k0_cond4 (grid0.coords t) = 1#1 := (hcond4 t).mpr hm0
      rw [rowAt_later m c t hm0]
      simp only [before0_3 m c t hm0]
      iintro ⟨⟨⟨%d, HS⟩, Hg⟩, Ho, ⟨%d0, H0⟩, ⟨%d1, H1⟩, ⟨%d2, H2⟩, ⟨%d3, H3⟩⟩
      iapply (run_B c (grid0.coords t) _ _ _ _ _ _ _ _ _ _ hc1 hc2 hc3 hc4 hc5 (iblk m c 0 t) (iblk m c 1 t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexists d; iexact HS
        iexact Hg
      isplitl [Ho]; · iexact Ho
      isplitl [H0]; · iexact H0
      isplitl [H1]; · iexact H1
      isplitl [H2]; · iexists _; iexact H2
      iexact H3
  · have hc1 : ¬ k0_cond1 (grid0.coords t) = 1#1 := fun h => hn0 ((hcond1 t).mp h)
    have hc2 : k0_cond2 (grid0.coords t) = 1#1 := (hcond2 t).mpr hn0
    simp only [fun d => scAt_succ2 m c d t hc1 hc2]
    by_cases hm0 : t.val % 8 = 0
    · have hc3 : k0_cond3 (grid0.coords t) = 1#1 := (hcond3 t).mpr hm0
      have hc4 : ¬ k0_cond4 (grid0.coords t) = 1#1 := fun h => (hcond4 t).mp h hm0
      have h63 : ¬ t.val % 64 = 63 := by omega
      have hc5 : ¬ k0_cond5 (grid0.coords t) = 1#1 := fun h => h63 ((hcond5 t).mp h)
      rw [Dat.leavesExact_idle (dats m 0 c) 2 t (idleAt0_2 t h63) (noFlush0_2 t h63)]
      rw [rowAt_first m c t hm0]
      iintro ⟨⟨⟨%d, HS⟩, Hg⟩, Ho, ⟨%d0, H0⟩, ⟨%d1, H1⟩, ⟨%d2, H2⟩, ⟨%d3, H3⟩⟩
      iapply (run_C c (grid0.coords t) _ _ _ _ _ _ _ _ _ _ hc1 hc2 hc3 hc4 hc5 (iblk m c 0 t) (iblk m c 1 t) _ _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexists d; iexact HS
        iexact Hg
      isplitl [Ho]; · iexact Ho
      isplitl [H0]; · iexact H0
      isplitl [H1]; · iexact H1
      isplitl [H2]; · iexists _; iexact H2
      iexact H3
    · have hc3 : ¬ k0_cond3 (grid0.coords t) = 1#1 := fun h => hm0 ((hcond3 t).mp h)
      have hc4 : k0_cond4 (grid0.coords t) = 1#1 := (hcond4 t).mpr hm0
      rw [rowAt_later m c t hm0]
      simp only [before0_3 m c t hm0]
      by_cases h63 : t.val % 64 = 63
      · have hc5 : k0_cond5 (grid0.coords t) = 1#1 := (hcond5 t).mpr h63
        rw [show (dats m 0 c).leavesExact 2 t = owns (c : Thread nD τ) (ms0_2 t) fullShare ((dats m 0 c).after 2 t) from by
          unfold Dat.leavesExact; rw [liveAt0_2 t h63], after0_2]
        iintro ⟨⟨⟨%d, HS⟩, Hg⟩, Ho, ⟨%d0, H0⟩, ⟨%d1, H1⟩, ⟨%d2, H2⟩, ⟨%d3, H3⟩⟩
        have e : scAt m c scDflt (t.val + 1) t.isLt
            = scStep2 scM0 hsc0 (grid0.coords t) hc2 (ablk m c t) (pblk m c t) (scAt m c d t.val (Nat.le_of_lt t.isLt)) :=
          (hind c scDflt d (t.val + 1) t.isLt (by omega)).trans (scAt_succ2 m c d t hc1 hc2)
        rw [e]
        iapply (run_E c (grid0.coords t) _ _ _ _ _ _ _ _ _ _ hc1 hc2 hc3 hc4 hc5 (iblk m c 0 t) (iblk m c 1 t) _ _ Set.univ _)
        isplitl [H0]; · iexact H0
        isplitl [H1]; · iexact H1
        isplitl [H2]; · iexists _; iexact H2
        isplitl [H3]; · iexact H3
        isplitl [HS]; · iexact HS
        iintro ⟨H0, H1, H2, H3, HS⟩
        isplitl [HS Hg]
        · isplitl [HS]; · iexists d; iexact HS
          iexact Hg
        isplitl [Ho]; · iexact Ho
        isplitl [H0]; · iexact H0
        isplitl [H1]; · iexact H1
        isplitl [H2]; · iexact H2
        iexact H3
      · have hc5 : ¬ k0_cond5 (grid0.coords t) = 1#1 := fun h => h63 ((hcond5 t).mp h)
        rw [Dat.leavesExact_idle (dats m 0 c) 2 t (idleAt0_2 t h63) (noFlush0_2 t h63)]
        iintro ⟨⟨⟨%d, HS⟩, Hg⟩, Ho, ⟨%d0, H0⟩, ⟨%d1, H1⟩, ⟨%d2, H2⟩, ⟨%d3, H3⟩⟩
        iapply (run_D c (grid0.coords t) _ _ _ _ _ _ _ _ _ _ hc1 hc2 hc3 hc4 hc5 (iblk m c 0 t) (iblk m c 1 t) _ _ _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]; · iexists d; iexact HS
          iexact Hg
        isplitl [Ho]; · iexact Ho
        isplitl [H0]; · iexact H0
        isplitl [H1]; · iexact H1
        isplitl [H2]; · iexists _; iexact H2
        iexact H3

/-- The library's body obligation, at every point. -/
theorem body_obligation (hind : ScIndep m) (c : Dev nD) :
    BodyObligation (dats (F := F) m 0 c) (defs₀ (F := F)) Variants.none () Set.univ := fun t => by
  rw [bigSep_W0, bigSep_W0]
  exact sound_body m hind c t

/-- What the launch hands the region is the invariant before the first point: the scratch row at some contents. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨%d, HS⟩, Hg⟩
  isplitl [HS]
  · iexists d; iexact HS
  iexact Hg

/-- After the last point the invariant gives it back, the row's contents forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  unfold PhiS
  iintro ⟨⟨%d, HS⟩, Hg⟩
  isplitl [HS]
  · iexists _; iexact HS
  iexact Hg

end Cert.KernelIdeal.Gen

end
-- ==== Proof.KI.FrameRun.lean ====
/- The run of the whole program around its one region, from the body obligation: every weakly fair execution ends,
   nothing faults, each array of the pipeline ends at what the proof data computes, every other buffer as the host
   operations after the region leave it; and, read at the argument arrays, the frame claim. -/
import proofs.«102414_j35115652612620_1_alg».proof.Proof.KI.Body

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main (hind : ScIndep m) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m hind c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post, at any float instance. -/
theorem frame (hind : ScIndep m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hind)

end Cert.KernelIdeal.Gen

end
-- ==== Proof.KI.ScPure.lean ====
/- The scratch row of 4096 lanes, one point at a time. The point numbered t stores the 512 lanes
   [512·(t % 8), 512·(t % 8) + 512): a lane inside takes the payload at its position in the slice, a lane outside keeps
   what it held. After the first eight points every lane has been stored once, so the row no longer depends on
   what it held before the first. Generic in the float instance. -/
import proofs.«102414_j35115652612620_1_alg».proof.Proof.KI.AccDefs
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The slice's offsets, by the point's number -/

/-- The point's column tile is its number modulo 8. -/
theorem coord2_eq : ∀ t : Fin cfg0.N, (grid0.coords t 2).val = t.val % 8 :=
  (by decide +kernel : ∀ t : Fin grid0.N, (grid0.coords t 2).val = t.val % 8)

theorem off1_eq : ∀ t : Fin cfg0.N, k0_off1 (grid0.coords t) = ![0, 512 * (t.val % 8)] := fun t =>
  (k0_off1_eq (grid0.coords t)).trans (congrArg (fun n : ℕ => (![0, 512 * n] : Fin 2 → ℕ)) (coord2_eq t))

theorem off2_eq : ∀ t : Fin cfg0.N, k0_off2 (grid0.coords t) = ![0, 512 * (t.val % 8)] := fun t =>
  (k0_off2_eq (grid0.coords t)).trans (congrArg (fun n : ℕ => (![0, 512 * n] : Fin 2 → ℕ)) (coord2_eq t))

/-- The slice's old contents as a vector. -/
def scSlice (t : Fin cfg0.N) (xs : Vec F S1x4096 .f32) : Vec F S1x512 .f32 := fun z =>
  xs (ValueIdx.ix2 0 ⟨512 * (t.val % 8) + (z 1).val, by
    have h : (z 1).val < 512 := (z 1).isLt
    have : t.val % 8 < 8 := Nat.mod_lt _ (by decide)
    omega⟩)

/-! ## One point's store read back -/

theorem scStep1_in (t : Fin cfg0.N) (h1 : k0_cond1 (grid0.coords t) = 1#1) (x0 x1 : Vec F S1x512x2 .f32)
    (xs : Vec F S1x4096 .f32) (j : Fin 512) (hj : 512 * (t.val % 8) + j.val < 4096) :
    scStep1 scM0 hsc0 (grid0.coords t) h1 x0 x1 xs (ValueIdx.ix2 0 ⟨512 * (t.val % 8) + j.val, hj⟩)
      = k0_pay5 x0 x1 (ValueIdx.ix2 0 j) := by
  unfold scStep1
  refine View.read_writes_cons_unit_of_mem (Val := Elt F) scM0.view (hsc0.unread xs) (off := k0_off1 (grid0.coords t))
    (off' := ![0, 512 * (t.val % 8)]) (size := S1x512.size) (k0_off1_inb _ h1) (k0_pay5 x0 x1) []
    (ValueIdx.ix2 0 ⟨512 * (t.val % 8) + j.val, hj⟩) (ValueIdx.ix2 0 j) (off1_eq t) (fun a => ?_)
  match a with
  | ⟨0, _⟩ => rfl
  | ⟨1, _⟩ => rfl

theorem scStep1_out (t : Fin cfg0.N) (h1 : k0_cond1 (grid0.coords t) = 1#1) (x0 x1 : Vec F S1x512x2 .f32)
    (xs : Vec F S1x4096 .f32) (y : S1x4096.Idx)
    (hy : (y 1).val < 512 * (t.val % 8) ∨ 512 * (t.val % 8) + 512 ≤ (y 1).val) :
    scStep1 scM0 hsc0 (grid0.coords t) h1 x0 x1 xs y = xs y := by
  unfold scStep1
  refine (View.read_writes_cons_unit_of_not_mem (Val := Elt F) scM0.view (hsc0.unread xs) (off := k0_off1 (grid0.coords t))
    (off' := ![0, 512 * (t.val % 8)]) (size := S1x512.size) (k0_off1_inb _ h1) (k0_pay5 x0 x1) [] y (off1_eq t) 1 hy).trans ?_
  exact congrFun (hsc0.read_unread xs) y

/-- The load of the slice before the store reads the slice's old contents. -/
theorem readAt_scSlice (t : Fin cfg0.N) (h2 : k0_cond2 (grid0.coords t) = 1#1) (xs : Vec F S1x4096 .f32) :
    View.readAt (Elt F) (scM0 : Memref sig .tc .vmem S1x4096 .f32).view
        (Rect.unit (s := S1x4096) (k0_off2 (grid0.coords t)) S1x512.size (k0_off2_inb _ h2)).toLoadRect (hsc0.unread xs)
      = scSlice t xs := by
  rw [View.readAt_unit_congr_cast _ (off2_eq t)]
  funext z
  refine (hsc0.readAt_unread xs _ z).trans (congrArg xs (funext fun a => Fin.ext ?_))
  match a with
  | ⟨0, _⟩ =>
    have h : (z 0).val < 1 := (z 0).isLt
    show 0 + 1 * (z 0).val = 0
    omega
  | ⟨1, _⟩ =>
    show 512 * (t.val % 8) + 1 * (z 1).val = 512 * (t.val % 8) + (z 1).val
    omega

theorem scStep2_in (t : Fin cfg0.N) (h2 : k0_cond2 (grid0.coords t) = 1#1) (x0 x1 : Vec F S1x512x2 .f32)
    (xs : Vec F S1x4096 .f32) (j : Fin 512) (hj : 512 * (t.val % 8) + j.val < 4096) :
    scStep2 scM0 hsc0 (grid0.coords t) h2 x0 x1 xs (ValueIdx.ix2 0 ⟨512 * (t.val % 8) + j.val, hj⟩)
      = k0_pay6 x0 x1 (scSlice t xs) (ValueIdx.ix2 0 j) := by
  unfold scStep2
  refine (View.read_writes_cons_unit_of_mem (Val := Elt F) scM0.view (hsc0.unread xs) (off := k0_off2 (grid0.coords t))
    (off' := ![0, 512 * (t.val % 8)]) (size := S1x512.size) (k0_off2_inb _ h2) _ []
    (ValueIdx.ix2 0 ⟨512 * (t.val % 8) + j.val, hj⟩) (ValueIdx.ix2 0 j) (off2_eq t) (fun a => ?_)).trans ?_
  · match a with
    | ⟨0, _⟩ => rfl
    | ⟨1, _⟩ => rfl
  · rw [readAt_scSlice t h2 xs]

theorem scStep2_out (t : Fin cfg0.N) (h2 : k0_cond2 (grid0.coords t) = 1#1) (x0 x1 : Vec F S1x512x2 .f32)
    (xs : Vec F S1x4096 .f32) (y : S1x4096.Idx)
    (hy : (y 1).val < 512 * (t.val % 8) ∨ 512 * (t.val % 8) + 512 ≤ (y 1).val) :
    scStep2 scM0 hsc0 (grid0.coords t) h2 x0 x1 xs y = xs y := by
  unfold scStep2
  refine (View.read_writes_cons_unit_of_not_mem (Val := Elt F) scM0.view (hsc0.unread xs) (off := k0_off2 (grid0.coords t))
    (off' := ![0, 512 * (t.val % 8)]) (size := S1x512.size) (k0_off2_inb _ h2) _ [] y (off2_eq t) 1 hy).trans ?_
  exact congrFun (hsc0.read_unread xs) y

/-! ## After eight points the row forgets its first contents -/

/-- `scStep1_in` at a lane given with its position in the slice. -/
theorem scStep1_in' (t : Fin cfg0.N) (h1 : k0_cond1 (grid0.coords t) = 1#1) (x0 x1 : Vec F S1x512x2 .f32)
    (xs : Vec F S1x4096 .f32) (l : Fin 4096) (j : Fin 512) (hl : l.val = 512 * (t.val % 8) + j.val) :
    scStep1 scM0 hsc0 (grid0.coords t) h1 x0 x1 xs (ValueIdx.ix2 0 l) = k0_pay5 x0 x1 (ValueIdx.ix2 0 j) := by
  obtain ⟨l, hl4⟩ := l
  simp only at hl
  subst hl
  exact scStep1_in t h1 x0 x1 xs j hl4

/-- One of the first eight points: rows that agree below the slice agree, after its store, below the slice's end. -/
theorem scStep1_agree (t : Fin cfg0.N) (ht : t.val < 8) (h1 : k0_cond1 (grid0.coords t) = 1#1)
    (x0 x1 : Vec F S1x512x2 .f32) (A A' : Vec F S1x4096 .f32)
    (hA : ∀ l : Fin 4096, l.val < 512 * t.val → A (ValueIdx.ix2 0 l) = A' (ValueIdx.ix2 0 l))
    (l : Fin 4096) (hl : l.val < 512 * (t.val + 1)) :
    scStep1 scM0 hsc0 (grid0.coords t) h1 x0 x1 A (ValueIdx.ix2 0 l)
      = scStep1 scM0 hsc0 (grid0.coords t) h1 x0 x1 A' (ValueIdx.ix2 0 l) := by
  have hmod : t.val % 8 = t.val := Nat.mod_eq_of_lt ht
  by_cases hin : 512 * t.val ≤ l.val
  · have hj : l.val - 512 * t.val < 512 := by omega
    have e : l.val = 512 * (t.val % 8) + (⟨l.val - 512 * t.val, hj⟩ : Fin 512).val := by
      rw [hmod]
      show l.val = 512 * t.val + (l.val - 512 * t.val)
      omega
    rw [scStep1_in' t h1 x0 x1 A l _ e, scStep1_in' t h1 x0 x1 A' l _ e]
  · have hy : ((ValueIdx.ix2 (0 : Fin 1) l : S1x4096.Idx) 1).val < 512 * (t.val % 8)
        ∨ 512 * (t.val % 8) + 512 ≤ ((ValueIdx.ix2 (0 : Fin 1) l : S1x4096.Idx) 1).val :=
      Or.inl (by rw [hmod]; show l.val < 512 * t.val; omega)
    rw [scStep1_out t h1 x0 x1 A _ hy, scStep1_out t h1 x0 x1 A' _ hy]
    exact hA l (by omega)

/-- Through the first eight points the rows from two first contents agree on every lane already stored. -/
theorem scAt_agree_below (c : Dev nD) (d d' : Vec F S1x4096 .f32) :
    ∀ (n : ℕ) (hn : n ≤ cfg0.N), n ≤ 8 → ∀ l : Fin 4096, l.val < 512 * n →
      scAt m c d n hn (ValueIdx.ix2 0 l) = scAt m c d' n hn (ValueIdx.ix2 0 l) := by
  intro n
  induction n with
  | zero => intro hn _ l hl; exact absurd hl (by omega)
  | succ n ih =>
    intro hn h8 l hl
    have h1 : k0_cond1 (grid0.coords ⟨n, hn⟩) = 1#1 := (hcond1 ⟨n, hn⟩).mpr (by show n / 8 % 8 = 0; omega)
    have e1 : scAt m c d (n + 1) hn = scStep1 scM0 hsc0 (grid0.coords ⟨n, hn⟩) h1 (ablk m c ⟨n, hn⟩) (pblk m c ⟨n, hn⟩)
        (scAt m c d n (Nat.le_of_succ_le hn)) := scAt_succ1 m c d ⟨n, hn⟩ h1
    have e2 : scAt m c d' (n + 1) hn = scStep1 scM0 hsc0 (grid0.coords ⟨n, hn⟩) h1 (ablk m c ⟨n, hn⟩) (pblk m c ⟨n, hn⟩)
        (scAt m c d' n (Nat.le_of_succ_le hn)) := scAt_succ1 m c d' ⟨n, hn⟩ h1
    rw [e1, e2]
    exact scStep1_agree ⟨n, hn⟩ (by show n < 8; omega) h1 _ _ _ _
      (fun l' hl' => ih (Nat.le_of_succ_le hn) (by omega) l' hl') l hl

/-- After eight points the rows from two first contents are one row. -/
theorem scAt_eight (c : Dev nD) (d d' : Vec F S1x4096 .f32) (h : 8 ≤ cfg0.N) : scAt m c d 8 h = scAt m c d' 8 h := by
  funext y
  have e : y = ValueIdx.ix2 (0 : Fin 1) (y 1) := by
    funext a
    match a with
    | ⟨0, _⟩ =>
      have h0 : (y 0).val < 1 := (y 0).isLt
      exact Fin.ext (by show (y 0).val = 0; omega)
    | ⟨1, _⟩ => rfl
  rw [e]
  exact scAt_agree_below m c d d' 8 h (Nat.le_refl 8) (y 1) (y 1).isLt

/-- Equal rows step to equal rows. -/
theorem scAt_succ_congr (c : Dev nD) (d d' : Vec F S1x4096 .f32) (n : ℕ) (h : n + 1 ≤ cfg0.N)
    (e : scAt m c d n (Nat.le_of_succ_le h) = scAt m c d' n (Nat.le_of_succ_le h)) :
    scAt m c d (n + 1) h = scAt m c d' (n + 1) h := by
  by_cases h1 : k0_cond1 (grid0.coords ⟨n, h⟩) = 1#1
  · have e1 : scAt m c d (n + 1) h = scStep1 scM0 hsc0 (grid0.coords ⟨n, h⟩) h1 (ablk m c ⟨n, h⟩) (pblk m c ⟨n, h⟩)
        (scAt m c d n (Nat.le_of_succ_le h)) := dif_pos h1
    have e2 : scAt m c d' (n + 1) h = scStep1 scM0 hsc0 (grid0.coords ⟨n, h⟩) h1 (ablk m c ⟨n, h⟩) (pblk m c ⟨n, h⟩)
        (scAt m c d' n (Nat.le_of_succ_le h)) := dif_pos h1
    rw [e1, e2, e]
  · by_cases h2 : k0_cond2 (grid0.coords ⟨n, h⟩) = 1#1
    · have e1 : scAt m c d (n + 1) h = scStep2 scM0 hsc0 (grid0.coords ⟨n, h⟩) h2 (ablk m c ⟨n, h⟩) (pblk m c ⟨n, h⟩)
          (scAt m c d n (Nat.le_of_succ_le h)) := (dif_neg h1).trans (dif_pos h2)
      have e2 : scAt m c d' (n + 1) h = scStep2 scM0 hsc0 (grid0.coords ⟨n, h⟩) h2 (ablk m c ⟨n, h⟩) (pblk m c ⟨n, h⟩)
          (scAt m c d' n (Nat.le_of_succ_le h)) := (dif_neg h1).trans (dif_pos h2)
      rw [e1, e2, e]
    · have e1 : scAt m c d (n + 1) h = scAt m c d n (Nat.le_of_succ_le h) := (dif_neg h1).trans (dif_neg h2)
      have e2 : scAt m c d' (n + 1) h = scAt m c d' n (Nat.le_of_succ_le h) := (dif_neg h1).trans (dif_neg h2)
      rw [e1, e2, e]

theorem scAt_indep (c : Dev nD) (d d' : Vec F S1x4096 .f32) (n : ℕ) (hn : n ≤ cfg0.N) (h8 : 8 ≤ n) :
    scAt m c d n hn = scAt m c d' n hn := by
  induction n, h8 using Nat.le_induction with
  | base => exact scAt_eight m c d d' hn
  | succ n h8 ih => exact scAt_succ_congr m c d d' n hn (ih (Nat.le_of_succ_le hn))

end Cert.KernelIdeal.Gen

end
-- ==== Proof.KI.Final.lean ====
/- What the two result arrays hold after the grid's last point, each as one function of its index. The row result's block
   at the point numbered t is (t / 64, 0, t / 8 % 8) of 1 × 1 × 512 blocks and is written back where t % 8 = 7; there
   64 · (t / 64) + 8 · (t / 8 % 8) + 7 = t, so element (b, 0, r) ends at the running row minima after the point numbered
   64 · b + 8 · (r / 512) + 7, at lane r % 512. The column result's block is (t / 64, 0, 0) of 1 × 1 × 4096 blocks and is
   written back where t % 64 = 63; there 64 · (t / 64) + 64 = t + 1, so element (b, 0, r) ends at the column result of
   the scratch row after 64 · b + 64 points, at lane r. In both the written-back blocks cover the array. Generic in the
   float instance. -/
import proofs.«102414_j35115652612620_1_alg».proof.Proof.KI.Data
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The printed index maps over the grid -/

/-- The row result's block at the point numbered t is (batch, 0, row tile). -/
theorem idx_facts3 : ∀ t : Fin cfg0.N, win0_3.index t (0 : Fin 3) = t.val / 64 ∧ win0_3.index t (1 : Fin 3) = 0 ∧ win0_3.index t (2 : Fin 3) = t.val / 8 % 8 :=
  (by decide +kernel : ∀ t : Fin grid0.N, win0_3.index t (0 : Fin 3) = t.val / 64 ∧ win0_3.index t (1 : Fin 3) = 0 ∧ win0_3.index t (2 : Fin 3) = t.val / 8 % 8)

/-- The column result's block at the point numbered t is (batch, 0, 0). -/
theorem idx_facts2 : ∀ t : Fin cfg0.N, win0_2.index t (0 : Fin 3) = t.val / 64 ∧ win0_2.index t (1 : Fin 3) = 0 ∧ win0_2.index t (2 : Fin 3) = 0 :=
  (by decide +kernel : ∀ t : Fin grid0.N, win0_2.index t (0 : Fin 3) = t.val / 64 ∧ win0_2.index t (1 : Fin 3) = 0 ∧ win0_2.index t (2 : Fin 3) = 0)

/-! ## The row result -/

/-- The running row minima at equal point numbers and equal lanes, whatever the bounds' proofs. -/
theorem rowAt_congr (c : Dev nD) {n n' : ℕ} (h : n = n') (hn : n < cfg0.N) (hn' : n' < cfg0.N) {y y' : S1x1x512.Idx}
    (hy : y = y') : rowAt m c n hn y = rowAt m c n' hn' y' := by
  subst h hy; rfl

/-- The last column tile's point of the row tile an element of the row result lies in is a point of the grid. -/
theorem bound3 (idx : S8x1x4096.Idx) : 64 * (idx 0).val + 8 * ((idx 2).val / 512) + 7 < cfg0.N := by
  have h0 : (idx 0).val < 8 := (idx 0).isLt
  have h2 : (idx 2).val < 4096 := (idx 2).isLt
  have hN : cfg0.N = 512 := N_0
  omega

/-- What the row result's array ends holding: at (b, 0, r) the running row minima after the last column tile of row tile
    r / 512 of batch b, at lane r % 512. -/
def G3 (c : Dev nD) : S8x1x4096.Idx → Elt F .f32 := fun idx =>
  rowAt m c (64 * (idx 0).val + 8 * ((idx 2).val / 512) + 7) (bound3 idx) (ix3 0 0 ⟨(idx 2).val % 512, Nat.mod_lt _ (by decide)⟩)

theorem flushed3_eq (c : Dev nD) (t : Fin cfg0.N) (hf : (cfg0.win 3).flush t = true) :
    (dats m 0 c).flushed 3 t = ((cfg0.win 3).blk t).view.read (Elt F) (G3 m c) := by
  have ht : t.val % 8 = 7 := (flush0_3 t).mp hf
  obtain ⟨e0, e1, e2⟩ := idx_facts3 t
  show (cfg0.win 3).cut (grid0.coords t) ((dats m 0 c).after 3 t) = _
  rw [after0_3]
  funext y
  rw [View.read_apply]
  show rowAt m c t.val t.isLt y = G3 m c (((cfg0.win 3).blk t).view.emb y)
  have h0 : ((((cfg0.win 3).blk t).view.emb y : S8x1x4096.Idx) 0).val = win0_3.index t (0 : Fin 3) * 1 + 1 * ((y : S1x1x512.Idx) 0).val := rfl
  have h2 : ((((cfg0.win 3).blk t).view.emb y : S8x1x4096.Idx) 2).val = win0_3.index t (2 : Fin 3) * 512 + 1 * ((y : S1x1x512.Idx) 2).val := rfl
  have y0 : ((y : S1x1x512.Idx) 0).val < 1 := ((y : S1x1x512.Idx) 0).isLt
  have y1 : ((y : S1x1x512.Idx) 1).val < 1 := ((y : S1x1x512.Idx) 1).isLt
  have y2 : ((y : S1x1x512.Idx) 2).val < 512 := ((y : S1x1x512.Idx) 2).isLt
  refine rowAt_congr m c ?_ _ _ ?_
  · rw [h0, h2, e0, e2]; omega
  · funext a
    apply Fin.ext
    match a with
    | ⟨0, _⟩ => show ((y : S1x1x512.Idx) 0).val = 0; omega
    | ⟨1, _⟩ => show ((y : S1x1x512.Idx) 1).val = 0; omega
    | ⟨2, _⟩ =>
      show ((y : S1x1x512.Idx) 2).val = ((((cfg0.win 3).blk t).view.emb y : S8x1x4096.Idx) 2).val % 512
      rw [h2, e2]; omega

/-- An index of the row result's array is in the block at the point numbered t iff each coordinate is in the block's range. -/
theorem mem_blk3 (t : Fin cfg0.N) (i : S8x1x4096.Idx) :
    i ∈ ((cfg0.win 3).blk t).view.set ↔ ∀ a : Fin 3, win0_3.index t a * S1x1x512.size a ≤ (i a).val
      ∧ (i a).val < win0_3.index t a * S1x1x512.size a + S1x1x512.size a := by
  show i ∈ ((View.whole main_v22_1).slice (win0_3.rect t)).set ↔ _
  rw [View.set_slice_whole, Rect.mem_set_unit]
  exact Iff.rfl

/-- Element (b, 0, r) of the row result is written back at the last column tile of row tile r / 512 of batch b. -/
theorem cover3 (i : S8x1x4096.Idx) :
    ∃ t : Fin cfg0.N, (cfg0.win 3).flush t = true ∧ i ∈ ((cfg0.win 3).blk t).view.set := by
  have i0 : (i 0).val < 8 := (i 0).isLt
  have i1 : (i 1).val < 1 := (i 1).isLt
  have i2 : (i 2).val < 4096 := (i 2).isLt
  refine ⟨⟨64 * (i 0).val + 8 * ((i 2).val / 512) + 7, bound3 i⟩, (flush0_3 _).mpr ?_, ?_⟩
  · show (64 * (i 0).val + 8 * ((i 2).val / 512) + 7) % 8 = 7
    omega
  · obtain ⟨e0, e1, e2⟩ := idx_facts3 ⟨64 * (i 0).val + 8 * ((i 2).val / 512) + 7, bound3 i⟩
    have e0' : win0_3.index ⟨64 * (i 0).val + 8 * ((i 2).val / 512) + 7, bound3 i⟩ (0 : Fin 3) = (64 * (i 0).val + 8 * ((i 2).val / 512) + 7) / 64 := e0
    have e2' : win0_3.index ⟨64 * (i 0).val + 8 * ((i 2).val / 512) + 7, bound3 i⟩ (2 : Fin 3) = (64 * (i 0).val + 8 * ((i 2).val / 512) + 7) / 8 % 8 := e2
    rw [mem_blk3]
    intro a
    match a with
    | ⟨0, _⟩ =>
      show win0_3.index _ (0 : Fin 3) * 1 ≤ (i 0).val ∧ (i 0).val < win0_3.index _ (0 : Fin 3) * 1 + 1
      rw [e0']; omega
    | ⟨1, _⟩ =>
      show win0_3.index _ (1 : Fin 3) * 1 ≤ (i 1).val ∧ (i 1).val < win0_3.index _ (1 : Fin 3) * 1 + 1
      rw [e1]; omega
    | ⟨2, _⟩ =>
      show win0_3.index _ (2 : Fin 3) * 512 ≤ (i 2).val ∧ (i 2).val < win0_3.index _ (2 : Fin 3) * 512 + 512
      rw [e2']; omega

/-- The row result's array after the run: at (b, 0, r) the running row minima after the last column tile of row tile
    r / 512 of batch b, at lane r % 512. -/
theorem final3 (c : Dev nD) : (dats m 0 c).arrAt 3 cfg0.N = fun idx : S8x1x4096.Idx =>
    rowAt m c (64 * (idx 0).val + 8 * ((idx 2).val / 512) + 7) (bound3 idx) (ix3 0 0 ⟨(idx 2).val % 512, Nat.mod_lt _ (by decide)⟩) :=
  (dats m 0 c).arrAt_eq_of_cover 3 (G3 m c) (flushed3_eq m c) cover3

/-! ## The column result -/

/-- The column result of the scratch row at equal point numbers and equal lanes, whatever the bounds' proofs. -/
theorem pay1_scAt_congr (c : Dev nD) {n n' : ℕ} (h : n = n') (hn : n ≤ cfg0.N) (hn' : n' ≤ cfg0.N) {y y' : S1x1x4096.Idx}
    (hy : y = y') : k0_pay1 (scAt m c scDflt n hn) y = k0_pay1 (scAt m c scDflt n' hn') y' := by
  subst h hy; rfl

/-- The number of points up to the end of an element's batch is at most the grid's. -/
theorem bound2 (idx : S8x1x4096.Idx) : 64 * (idx 0).val + 64 ≤ cfg0.N := by
  have h0 : (idx 0).val < 8 := (idx 0).isLt
  have hN : cfg0.N = 512 := N_0
  omega

/-- What the column result's array ends holding: at (b, 0, r) the column result of the scratch row after batch b's
    last point, at lane r. -/
def G2 (c : Dev nD) : S8x1x4096.Idx → Elt F .f32 := fun idx =>
  k0_pay1 (scAt m c scDflt (64 * (idx 0).val + 64) (bound2 idx)) (ix3 0 0 (idx 2))

theorem flushed2_eq (c : Dev nD) (t : Fin cfg0.N) (hf : (cfg0.win 2).flush t = true) :
    (dats m 0 c).flushed 2 t = ((cfg0.win 2).blk t).view.read (Elt F) (G2 m c) := by
  have ht : t.val % 64 = 63 := (flush0_2 t).mp hf
  obtain ⟨e0, e1, e2⟩ := idx_facts2 t
  show (cfg0.win 2).cut (grid0.coords t) ((dats m 0 c).after 2 t) = _
  rw [after0_2]
  funext y
  rw [View.read_apply]
  show k0_pay1 (scAt m c scDflt (t.val + 1) t.isLt) y = G2 m c (((cfg0.win 2).blk t).view.emb y)
  have h0 : ((((cfg0.win 2).blk t).view.emb y : S8x1x4096.Idx) 0).val = win0_2.index t (0 : Fin 3) * 1 + 1 * ((y : S1x1x4096.Idx) 0).val := rfl
  have h2 : ((((cfg0.win 2).blk t).view.emb y : S8x1x4096.Idx) 2).val = win0_2.index t (2 : Fin 3) * 4096 + 1 * ((y : S1x1x4096.Idx) 2).val := rfl
  have y0 : ((y : S1x1x4096.Idx) 0).val < 1 := ((y : S1x1x4096.Idx) 0).isLt
  have y1 : ((y : S1x1x4096.Idx) 1).val < 1 := ((y : S1x1x4096.Idx) 1).isLt
  have y2 : ((y : S1x1x4096.Idx) 2).val < 4096 := ((y : S1x1x4096.Idx) 2).isLt
  refine pay1_scAt_congr m c ?_ _ _ ?_
  · rw [h0, e0]; omega
  · funext a
    apply Fin.ext
    match a with
    | ⟨0, _⟩ => show ((y : S1x1x4096.Idx) 0).val = 0; omega
    | ⟨1, _⟩ => show ((y : S1x1x4096.Idx) 1).val = 0; omega
    | ⟨2, _⟩ =>
      show ((y : S1x1x4096.Idx) 2).val = ((((cfg0.win 2).blk t).view.emb y : S8x1x4096.Idx) 2).val
      rw [h2, e2]; omega

/-- An index of the column result's array is in the block at the point numbered t iff each coordinate is in the block's range. -/
theorem mem_blk2 (t : Fin cfg0.N) (i : S8x1x4096.Idx) :
    i ∈ ((cfg0.win 2).blk t).view.set ↔ ∀ a : Fin 3, win0_2.index t a * S1x1x4096.size a ≤ (i a).val
      ∧ (i a).val < win0_2.index t a * S1x1x4096.size a + S1x1x4096.size a := by
  show i ∈ ((View.whole main_v22_0).slice (win0_2.rect t)).set ↔ _
  rw [View.set_slice_whole, Rect.mem_set_unit]
  exact Iff.rfl

/-- Element (b, 0, r) of the column result is written back at batch b's last point. -/
theorem cover2 (i : S8x1x4096.Idx) :
    ∃ t : Fin cfg0.N, (cfg0.win 2).flush t = true ∧ i ∈ ((cfg0.win 2).blk t).view.set := by
  have i0 : (i 0).val < 8 := (i 0).isLt
  have i1 : (i 1).val < 1 := (i 1).isLt
  have i2 : (i 2).val < 4096 := (i 2).isLt
  have hN : cfg0.N = 512 := N_0
  have hb : 64 * (i 0).val + 63 < cfg0.N := by omega
  refine ⟨⟨64 * (i 0).val + 63, hb⟩, (flush0_2 _).mpr ?_, ?_⟩
  · show (64 * (i 0).val + 63) % 64 = 63
    omega
  · obtain ⟨e0, e1, e2⟩ := idx_facts2 ⟨64 * (i 0).val + 63, hb⟩
    have e0' : win0_2.index ⟨64 * (i 0).val + 63, hb⟩ (0 : Fin 3) = (64 * (i 0).val + 63) / 64 := e0
    rw [mem_blk2]
    intro a
    match a with
    | ⟨0, _⟩ =>
      show win0_2.index _ (0 : Fin 3) * 1 ≤ (i 0).val ∧ (i 0).val < win0_2.index _ (0 : Fin 3) * 1 + 1
      rw [e0']; omega
    | ⟨1, _⟩ =>
      show win0_2.index _ (1 : Fin 3) * 1 ≤ (i 1).val ∧ (i 1).val < win0_2.index _ (1 : Fin 3) * 1 + 1
      rw [e1]; omega
    | ⟨2, _⟩ =>
      show win0_2.index _ (2 : Fin 3) * 4096 ≤ (i 2).val ∧ (i 2).val < win0_2.index _ (2 : Fin 3) * 4096 + 4096
      rw [e2]; omega

/-- The column result's array after the run: at (b, 0, r) the column result of the scratch row after batch b's last
    point, at lane r. -/
theorem final2 (c : Dev nD) : (dats m 0 c).arrAt 2 cfg0.N = fun idx : S8x1x4096.Idx =>
    k0_pay1 (scAt m c scDflt (64 * (idx 0).val + 64) (bound2 idx)) (ix3 0 0 (idx 2)) :=
  (dats m 0 c).arrAt_eq_of_cover 2 (G2 m c) (flushed2_eq m c) cover2

end Cert.KernelIdeal.Gen

end
-- ==== Proof.KI.Blocks.lean ====
/- The two input windows' blocks read at an index of the clouds. The point numbered t is batch t / 64, row tile
   t / 8 % 8, column tile t % 8. Generic in the float instance. -/
import proofs.«102414_j35115652612620_1_alg».proof.Proof.KI.AccDefs
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Blocks

variable {F : FTy → Type} [FloatOps F]

variable (m : (ℓ : Loc nD τ sig) → Buf (Elt F) ℓ)

/-! ## The blocks, read at an index of the clouds -/

/-- The first cloud's block index at a point: batch, row tile, 0. -/
theorem idx_facts_a : ∀ t : Fin cfg0.N, win0_0.index t (0 : Fin 3) = t.val / 64
    ∧ win0_0.index t (1 : Fin 3) = t.val / 8 % 8 ∧ win0_0.index t (2 : Fin 3) = 0 :=
  (by decide +kernel : ∀ t : Fin grid0.N, win0_0.index t (0 : Fin 3) = t.val / 64
    ∧ win0_0.index t (1 : Fin 3) = t.val / 8 % 8 ∧ win0_0.index t (2 : Fin 3) = 0)

/-- The second cloud's block index at a point: batch, column tile, 0. -/
theorem idx_facts_p : ∀ t : Fin cfg0.N, win0_1.index t (0 : Fin 3) = t.val / 64
    ∧ win0_1.index t (1 : Fin 3) = t.val % 8 ∧ win0_1.index t (2 : Fin 3) = 0 :=
  (by decide +kernel : ∀ t : Fin grid0.N, win0_1.index t (0 : Fin 3) = t.val / 64
    ∧ win0_1.index t (1 : Fin 3) = t.val % 8 ∧ win0_1.index t (2 : Fin 3) = 0)

/-- The first cloud's block at point t, row i, lane k, is the cloud at batch t / 64, point 512 · (t / 8 % 8) + i. -/
theorem ablk_apply (c : Dev nD) (t : Fin cfg0.N) (i : Fin 512) (k : Fin 2) :
    ablk m c t (ix3 0 i k)
      = V m c main_v10 (ix3 (n0 := 8) (n1 := 4096) ⟨t.val / 64, by have := lt_of_lt_of_eq t.isLt N_0; omega⟩
          ⟨512 * (t.val / 8 % 8) + i.val, by have := i.isLt; omega⟩ k) := by
  have ht : t.val < 512 := lt_of_lt_of_eq t.isLt N_0
  obtain ⟨e0, e1, e2⟩ := idx_facts_a t
  unfold ablk iblk
  rw [View.read_apply]
  show V m c main_v10 (((cfg0.win 0).blk t).view.emb (ix3 0 i k)) = V m c main_v10 _
  refine congrArg _ ?_
  funext a; apply Fin.ext
  match a with
  | ⟨0, _⟩ => show win0_0.index t (0 : Fin 3) * 1 + 1 * 0 = t.val / 64; omega
  | ⟨1, _⟩ => show win0_0.index t (1 : Fin 3) * 512 + 1 * i.val = 512 * (t.val / 8 % 8) + i.val; omega
  | ⟨2, _⟩ => show win0_0.index t (2 : Fin 3) * 2 + 1 * k.val = k.val; omega

/-- The second cloud's block at point t, row j, lane k, is the cloud at batch t / 64, point 512 · (t % 8) + j. -/
theorem pblk_apply (c : Dev nD) (t : Fin cfg0.N) (j : Fin 512) (k : Fin 2) :
    pblk m c t (ix3 0 j k)
      = V m c main_v21 (ix3 (n0 := 8) (n1 := 4096) ⟨t.val / 64, by have := lt_of_lt_of_eq t.isLt N_0; omega⟩
          ⟨512 * (t.val % 8) + j.val, by have := j.isLt; omega⟩ k) := by
  have ht : t.val < 512 := lt_of_lt_of_eq t.isLt N_0
  obtain ⟨e0, e1, e2⟩ := idx_facts_p t
  unfold pblk iblk
  rw [View.read_apply]
  show V m c main_v21 (((cfg0.win 1).blk t).view.emb (ix3 0 j k)) = V m c main_v21 _
  refine congrArg _ ?_
  funext a; apply Fin.ext
  match a with
  | ⟨0, _⟩ => show win0_1.index t (0 : Fin 3) * 1 + 1 * 0 = t.val / 64; omega
  | ⟨1, _⟩ => show win0_1.index t (1 : Fin 3) * 512 + 1 * j.val = 512 * (t.val % 8) + j.val; omega
  | ⟨2, _⟩ => show win0_1.index t (2 : Fin 3) * 2 + 1 * k.val = k.val; omega

end Blocks

end Cert.KernelIdeal.Gen

end
-- ==== Proof.PayIdeal.lean ====
/-
  The payloads of the body read at an index, at the extended reals.

  With x0, x1 two blocks of 512 points in the plane (coordinates k = 0, 1):
    pay2 at (i, j)  is the squared distance  ∑ k, (x0 i k - x1 j k)²;
    pay3 at j       is its infimum over i, pay4 at i its infimum over j
                    (a minimum reduction from +∞ over one axis is the infimum over that axis);
    pay5 … pay8     are pay3 / pay4 under unit axes, alone or as the minimum with a value already held;
    pay1            is a row under one more unit axis.
-/
import proofs.«102414_j35115652612620_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Gen

open Idealize.ShloMosaic Idealize.ShloMosaic.ValueIdx

theorem pay1_apply (v : Vec Ideal S1x4096 .f32) (j : Fin 4096) :
    k0_pay1 (F := Ideal) v (ix3 0 0 j) = v (ix2 0 j) :=
  shapeCast_ab_1ab_apply v _ 0 0 j

/-- The inserted index over (i, j) with lane k on the last axis is (i, j, k). -/
theorem pay_lift_lane (i j : Fin 512) (k : Fin 2) :
    reduces_S512x512x2_S512x512.lift (ix2 i j) k = ix3 i j k := by
  funext a
  match a with
  | ⟨0, _⟩ => exact Fin.ext rfl
  | ⟨1, _⟩ => exact Fin.ext rfl
  | ⟨2, _⟩ => exact Fin.ext rfl

/-- The first operand of the difference: the first block's row i, lane k, whatever j. -/
theorem pay_lhs_apply (x0 : Vec Ideal S1x512x2 .f32) (i j : Fin 512) (k : Fin 2) :
    broadcastTo S512x512x2 (shapeCast S512x1x2 (shapeCast S512x2 x0 shapeCasts_S1x512x2_S512x2) shapeCasts_S512x2_S512x1x2)
        broadcasts_S512x1x2_S512x512x2 (ix3 i j k) = x0 (ix3 0 i k) := by
  refine (broadcastTo_apply _ _ (ix3 i j k) (ix3 i (0 : Fin 1) k) fun a => ?_).trans ?_
  · match a with
    | ⟨0, _⟩ => rfl
    | ⟨1, _⟩ => rfl
    | ⟨2, _⟩ => rfl
  · refine (shapeCast_apply _ _ (ix3 i (0 : Fin 1) k) (ix2 i k) ?_).trans ?_
    · rw [Shape.rowMajor_val_three, Shape.rowMajor_val_two]
      show i.val * 2 + k.val = (i.val * 1 + 0) * 2 + k.val
      omega
    · exact shapeCast_1ab_ab_apply x0 _ i k

/-- The second operand: the second block's row j, lane k, whatever i. -/
theorem pay_rhs_apply (x1 : Vec Ideal S1x512x2 .f32) (i j : Fin 512) (k : Fin 2) :
    broadcastTo S512x512x2 (shapeCast S1x512x2 (shapeCast S512x2 x1 shapeCasts_S1x512x2_S512x2) shapeCasts_S512x2_S1x512x2)
        broadcasts_S1x512x2_S512x512x2 (ix3 i j k) = x1 (ix3 0 j k) := by
  rw [shapeCast_shapeCast]
  refine broadcastTo_apply _ _ (ix3 i j k) (ix3 (0 : Fin 1) j k) fun a => ?_
  match a with
  | ⟨0, _⟩ => rfl
  | ⟨1, _⟩ => rfl
  | ⟨2, _⟩ => rfl

theorem pay2_apply (x0 x1 : Vec Ideal S1x512x2 .f32) (i j : Fin 512) :
    k0_pay2 (F := Ideal) x0 x1 (ix2 i j)
      = ∑ k : Fin 2, (x0 (ix3 0 i k) - x1 (ix3 0 j k)) * (x0 (ix3 0 i k) - x1 (ix3 0 j k)) := by
  unfold k0_pay2
  refine (Ideal.multiReduction_add_single _ _ reduces_S512x512x2_S512x512 _ _ (ix2 i j)).trans ?_
  show ∑ k : Fin 2, _ = _
  refine Finset.sum_congr rfl fun k _ => ?_
  refine (congrArg _ (pay_lift_lane i j k)).trans ?_
  show (_ - _) * (_ - _) = _
  rw [pay_lhs_apply, pay_rhs_apply]

/-- The f32 word of +∞ is the top extended real. -/
theorem pay_ofBits_inf_f32 : FloatOps.ofBits (F := Ideal) .f32 0x7F800000#32 = (⊤ : EReal) := by
  show Ideal.ofBits .f32 0x7F800000#32 = ⊤
  simp [Ideal.ofBits, Ideal.ieee]

/-- A fold of min from the top over a whole finite type is the infimum. -/
theorem pay_fold_min_top_eq_iInf {ι : Type} [Fintype ι] (f : ι → EReal) :
    (Finset.univ : Finset ι).fold min (⊤ : EReal) f = ⨅ i, f i := by
  refine eq_of_forall_le_iff fun c => ?_
  rw [Finset.le_fold_min, le_iInf_iff]
  simp

/-- The inserted index over column j with row i on the first axis is (i, j). -/
theorem pay_lift_row (j i : Fin 512) : reduces_S512x512_S512.lift (ix1 j) i = ix2 i j := by
  funext a
  match a with
  | ⟨0, _⟩ => exact Fin.ext rfl
  | ⟨1, _⟩ => exact Fin.ext rfl

/-- The inserted index over row i with column j on the second axis is (i, j). -/
theorem pay_lift_col (i j : Fin 512) : reduces_S512x512_S512_2.lift (ix1 i) j = ix2 i j := by
  funext a
  match a with
  | ⟨0, _⟩ => exact Fin.ext rfl
  | ⟨1, _⟩ => exact Fin.ext rfl

/-- A minimum reduction over one axis from +∞ is the infimum over that axis's coordinates. -/
theorem pay_minimumf_single_inf {s t : Shape} {a : Fin s.rank} (src : FVec Ideal s .f32)
    (h : s.Reduces [a] t) (hφ : FKind.Formats .f32) (hacc : (0x7F800000#32 : BitVec 32) = FKind.minimumf.neutral .f32 hφ) (j : t.Idx) :
    multiReduction (F := Ideal) .minimumf [a] t src 0x7F800000#32 h hφ hacc j = ⨅ k : Fin (s.size a), src (h.lift j k) := by
  classical
  rw [multiReduction_minimumf_eq_fold]
  refine (h.fold_filter_drop_single _ _ src j).trans ?_
  rw [pay_ofBits_inf_f32]
  exact pay_fold_min_top_eq_iInf _

theorem pay3_apply (x0 x1 : Vec Ideal S1x512x2 .f32) (j : Fin 512) :
    k0_pay3 (F := Ideal) x0 x1 (ix1 j) = ⨅ i : Fin 512, k0_pay2 (F := Ideal) x0 x1 (ix2 i j) := by
  unfold k0_pay3
  refine (pay_minimumf_single_inf _ reduces_S512x512_S512 _ _ (ix1 j)).trans ?_
  exact iInf_congr fun i => congrArg _ (pay_lift_row j i)

theorem pay4_apply (x0 x1 : Vec Ideal S1x512x2 .f32) (i : Fin 512) :
    k0_pay4 (F := Ideal) x0 x1 (ix1 i) = ⨅ j : Fin 512, k0_pay2 (F := Ideal) x0 x1 (ix2 i j) := by
  unfold k0_pay4
  refine (pay_minimumf_single_inf _ reduces_S512x512_S512_2 _ _ (ix1 i)).trans ?_
  exact iInf_congr fun j => congrArg _ (pay_lift_col i j)

theorem pay5_apply (x0 x1 : Vec Ideal S1x512x2 .f32) (j : Fin 512) :
    k0_pay5 (F := Ideal) x0 x1 (ix2 0 j) = k0_pay3 (F := Ideal) x0 x1 (ix1 j) := by
  unfold k0_pay5
  rw [shapeCast_self]
  exact shapeCast_a_1a_apply _ _ 0 j

theorem pay6_apply (x0 x1 : Vec Ideal S1x512x2 .f32) (v : Vec Ideal S1x512 .f32) (j : Fin 512) :
    k0_pay6 (F := Ideal) x0 x1 v (ix2 0 j) = min (v (ix2 0 j)) (k0_pay3 (F := Ideal) x0 x1 (ix1 j)) := by
  unfold k0_pay6
  rw [shapeCast_self]
  exact congrArg (min (v (ix2 0 j))) (shapeCast_a_1a_apply _ _ 0 j)

theorem pay7_apply (x0 x1 : Vec Ideal S1x512x2 .f32) (i : Fin 512) :
    k0_pay7 (F := Ideal) x0 x1 (ix3 0 0 i) = k0_pay4 (F := Ideal) x0 x1 (ix1 i) := by
  unfold k0_pay7
  exact (shapeCast_ab_1ab_apply _ _ 0 0 i).trans (shapeCast_a_1a_apply _ _ 0 i)

theorem pay8_apply (x0 x1 : Vec Ideal S1x512x2 .f32) (v : Vec Ideal S1x1x512 .f32) (i : Fin 512) :
    k0_pay8 (F := Ideal) x0 x1 v (ix3 0 0 i) = min (v (ix3 0 0 i)) (k0_pay4 (F := Ideal) x0 x1 (ix1 i)) := by
  unfold k0_pay8
  refine (shapeCast_ab_1ab_apply _ _ 0 0 i).trans ?_
  exact congrArg₂ min (shapeCast_1ab_ab_apply v _ 0 i) (shapeCast_a_1a_apply _ _ 0 i)

end Cert.KernelIdeal.Gen

end
-- ==== Proof.Spec.lean ====
/- The chamfer loss over two projected point clouds, as each program forms it: the definitions every part of
   the certificate is stated over. Nothing here mentions a program. -/
import Idealize.ShloMosaic.PureOps.Ideal
import Idealize.ShloMosaic.Lib.ValueIdx

noncomputable section

open scoped BigOperators

namespace Cert.Chamfer

open Idealize.ShloMosaic Idealize.ShloMosaic.ValueIdx

/-- A projected, normalised cloud: batch × point × (x, y). -/
abbrev SPl : Shape := ⟨3, ![8, 4096, 2]⟩
/-- One nearest-neighbour distance per batch and point, as the kernel lays it out: batch × 1 × point. -/
abbrev SOut : Shape := ⟨3, ![8, 1, 4096]⟩
/-- The same as the reference lays it out: batch × point. -/
abbrev SRed : Shape := ⟨2, ![8, 4096]⟩

/-- The floor under the squared distances (the f32 nearest 1e-12), the count 8 · 4096, one half and two: the
    words both programs carry, read at the ideal values. -/
def eps : EReal := Ideal.ofBits .f32 0x2B8CBCCC#32
def cnt : EReal := Ideal.ofBits .f32 0x47000000#32
def half : EReal := Ideal.ofBits .f32 0x3F000000#32
def two : EReal := Ideal.ofBits .f32 0x40000000#32

/-- The squared distance between point `n` of cloud `A` and point `m` of cloud `P` in batch `b`, as a sum of
    squared coordinate differences. -/
def dK (A P : SPl.Idx → EReal) (b : Fin 8) (n m : Fin 4096) : EReal :=
  ∑ k : Fin 2, (A (ix3 b n k) - P (ix3 b m k)) * (A (ix3 b n k) - P (ix3 b m k))

/-- The same distance expanded: |a|² + |p|² − 2 a·p. -/
def dR (A P : SPl.Idx → EReal) (b : Fin 8) (n m : Fin 4096) : EReal :=
  ((0 + ∑ k : Fin 2, A (ix3 b n k) * A (ix3 b n k)) + (0 + ∑ k : Fin 2, P (ix3 b m k) * P (ix3 b m k)))
    - two * ∑ k : Fin 2, A (ix3 b n k) * P (ix3 b m k)

/-- For each point of `P`, the squared distance to the nearest point of `A`; and the other way round. -/
def colMin (A P : SPl.Idx → EReal) (b : Fin 8) (m : Fin 4096) : EReal := ⨅ n : Fin 4096, dK A P b n m
def rowMin (A P : SPl.Idx → EReal) (b : Fin 8) (n : Fin 4096) : EReal := ⨅ m : Fin 4096, dK A P b n m

/-- The loss as the kernel's program forms it: nearest distances first, floored afterwards, then the two means of
    the roots, averaged. -/
def lossK (A P : SPl.Idx → EReal) : EReal :=
  half * (Ideal.div (0 + ∑ i : SOut.Idx, Ideal.sqrt (max (colMin A P (i 0) (i 2)) eps)) cnt
        + Ideal.div (0 + ∑ i : SOut.Idx, Ideal.sqrt (max (rowMin A P (i 0) (i 2)) eps)) cnt)

/-- The loss as the reference forms it: every expanded distance floored first, then the nearest, the roots, the
    two means, averaged. -/
def lossR (A P : SPl.Idx → EReal) : EReal :=
  half * (Ideal.div (0 + ∑ i : SRed.Idx, Ideal.sqrt (⨅ n : Fin 4096, max (dR A P (i 0) n (i 1)) eps)) cnt
        + Ideal.div (0 + ∑ i : SRed.Idx, Ideal.sqrt (⨅ m : Fin 4096, max (dR A P (i 0) (i 1) m) eps)) cnt)

end Cert.Chamfer

end
-- ==== Proof.KI.IdealRows.lean ====
/- The running row minimum after a grid point as an infimum of squared distances over the columns seen so far, and
   after a row tile's last column tile as the nearest-neighbour distance over the whole second cloud. The point
   numbered t is batch t / 64, row tile t / 8 % 8, column tile t % 8. -/
import proofs.«102414_j35115652612620_1_alg».proof.Proof.KI.AccDefs
import proofs.«102414_j35115652612620_1_alg».proof.Proof.KI.Blocks
import proofs.«102414_j35115652612620_1_alg».proof.Proof.PayIdeal
import proofs.«102414_j35115652612620_1_alg».proof.Proof.Spec

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Rows

variable (m : (ℓ : Loc nD τ sig) → Buf (Elt Ideal) ℓ)

/-! ## The running row minimum as an infimum of squared distances -/

/-- The squared distance between row i of the first block and row j of the second at point t is the clouds' squared
    distance between the points those rows are. -/
theorem pay2_at (c : Dev nD) (t : Fin cfg0.N) (i j : Fin 512) (b : Fin 8) (nn mm : Fin 4096)
    (hb : b.val = t.val / 64) (hnn : nn.val = 512 * (t.val / 8 % 8) + i.val) (hmm : mm.val = 512 * (t.val % 8) + j.val) :
    k0_pay2 (F := Ideal) (ablk m c t) (pblk m c t) (ix2 i j)
      = Cert.Chamfer.dK (V m c main_v10) (V m c main_v21) b nn mm := by
  have e1 : (⟨t.val / 64, by have := lt_of_lt_of_eq t.isLt N_0; omega⟩ : Fin 8) = b := Fin.ext hb.symm
  have e2 : (⟨512 * (t.val / 8 % 8) + i.val, by have := i.isLt; omega⟩ : Fin 4096) = nn := Fin.ext hnn.symm
  have e3 : (⟨512 * (t.val % 8) + j.val, by have := j.isLt; omega⟩ : Fin 4096) = mm := Fin.ext hmm.symm
  rw [pay2_apply]
  unfold Cert.Chamfer.dK
  refine Finset.sum_congr rfl fun k _ => ?_
  rw [ablk_apply, pblk_apply, e1, e2, e3]

/-- A lower bound of this tile's row minimum at row i bounds the squared distances to this tile's columns. -/
theorem tile_le_iff (c : Dev nD) (t : Fin cfg0.N) (i : Fin 512) (x : EReal) (b : Fin 8) (nn : Fin 4096)
    (hb : b.val = t.val / 64) (hnn : nn.val = 512 * (t.val / 8 % 8) + i.val) :
    x ≤ k0_pay4 (F := Ideal) (ablk m c t) (pblk m c t) (ix1 i)
      ↔ ∀ mm : Fin 4096, 512 * (t.val % 8) ≤ mm.val → mm.val < 512 * (t.val % 8 + 1) →
          x ≤ Cert.Chamfer.dK (V m c main_v10) (V m c main_v21) b nn mm := by
  rw [pay4_apply, le_iInf_iff]
  constructor
  · intro h mm h1 h2
    rw [← pay2_at m c t i ⟨mm.val - 512 * (t.val % 8), by omega⟩ b nn mm hb hnn (by show mm.val = _ + (mm.val - _); omega)]
    exact h _
  · intro h j
    have hj := j.isLt
    rw [pay2_at m c t i j b nn ⟨512 * (t.val % 8) + j.val, by omega⟩ hb hnn rfl]
    exact h _ (by show 512 * (t.val % 8) ≤ 512 * (t.val % 8) + j.val; omega)
      (by show 512 * (t.val % 8) + j.val < _; omega)

/-- A lower bound of the running row minimum after the point numbered n bounds the squared distances to every column
    seen so far in that row tile: the columns below 512 · (n % 8 + 1). -/
theorem rowAt_le_iff_aux (c : Dev nD) (i : Fin 512) (x : EReal) (n : ℕ) :
    ∀ (hn : n < cfg0.N) (b : Fin 8) (nn : Fin 4096), b.val = n / 64 → nn.val = 512 * (n / 8 % 8) + i.val →
      (x ≤ rowAt (F := Ideal) m c n hn (ix3 0 0 i)
        ↔ ∀ mm : Fin 4096, mm.val < 512 * (n % 8 + 1) →
            x ≤ Cert.Chamfer.dK (V m c main_v10) (V m c main_v21) b nn mm) := by
  induction n using Nat.strong_induction_on with
  | _ n ih =>
    intro hn b nn hb hnn
    by_cases h : n % 8 = 0
    · rw [rowAt_first m c ⟨n, hn⟩ h, pay7_apply, tile_le_iff m c ⟨n, hn⟩ i x b nn hb hnn]
      constructor
      · intro H mm hm
        exact H mm (by show 512 * (n % 8) ≤ mm.val; omega) hm
      · intro H mm _ hm
        exact H mm hm
    · have hn1 : n - 1 < cfg0.N := Nat.lt_of_le_of_lt (Nat.sub_le _ _) hn
      rw [rowAt_later m c ⟨n, hn⟩ h, pay8_apply, le_min_iff,
        ih (n - 1) (by omega) hn1 b nn (by omega) (by omega), tile_le_iff m c ⟨n, hn⟩ i x b nn hb hnn]
      constructor
      · rintro ⟨H1, H2⟩ mm hm
        by_cases hlt : mm.val < 512 * (n % 8)
        · exact H1 mm (by omega)
        · exact H2 mm (by show 512 * (n % 8) ≤ mm.val; omega) hm
      · intro H
        exact ⟨fun mm hm => H mm (by omega), fun mm _ hm => H mm hm⟩

/-- The same at a grid point. -/
theorem rowAt_le_iff (c : Dev nD) (t : Fin cfg0.N) (i : Fin 512) (x : EReal) :
    x ≤ rowAt (F := Ideal) m c t.val t.isLt (ix3 0 0 i)
      ↔ ∀ mm : Fin 4096, mm.val < 512 * (t.val % 8 + 1) →
          x ≤ Cert.Chamfer.dK (V m c main_v10) (V m c main_v21)
            ⟨t.val / 64, by have := lt_of_lt_of_eq t.isLt N_0; omega⟩
            ⟨512 * (t.val / 8 % 8) + i.val, by have := i.isLt; omega⟩ mm :=
  rowAt_le_iff_aux m c i x t.val t.isLt _ _ rfl rfl

/-- After the last column tile of a row tile the running row minimum is the nearest-neighbour distance over the whole
    second cloud. -/
theorem row_final (c : Dev nD) (b : Fin 8) (n : Fin 4096) :
    rowAt (F := Ideal) m c (64 * b.val + 8 * (n.val / 512) + 7)
        (lt_of_lt_of_eq (by have := b.isLt; have := n.isLt; omega : 64 * b.val + 8 * (n.val / 512) + 7 < 512) N_0.symm)
        (ix3 0 0 ⟨n.val % 512, Nat.mod_lt _ (by norm_num)⟩)
      = Cert.Chamfer.rowMin (V m c main_v10) (V m c main_v21) b n := by
  have hb := b.isLt
  have hn := n.isLt
  refine eq_of_forall_le_iff fun x => ?_
  rw [rowAt_le_iff_aux m c ⟨n.val % 512, Nat.mod_lt _ (by norm_num)⟩ x _ _ b n (by omega)
    (by show n.val = 512 * ((64 * b.val + 8 * (n.val / 512) + 7) / 8 % 8) + n.val % 512; omega)]
  unfold Cert.Chamfer.rowMin
  rw [le_iInf_iff]
  constructor
  · intro H mm
    exact H mm (by have := mm.isLt; omega)
  · intro H mm _
    exact H mm

end Rows

end Cert.KernelIdeal.Gen

end
-- ==== Proof.KI.IdealCols.lean ====
/- The scratch row of 4096 lanes as column minima. After r points of batch b, a lane of column tile q has been
   treated by  r / 8 + [q < r % 8]  row tiles; if that count k is positive the lane holds the minimum, over the first
   512·k points of the first cloud, of the squared distance to the lane's point of the second cloud. After the
   batch's 64 points every lane holds the minimum over all 4096 points. -/
import proofs.«102414_j35115652612620_1_alg».proof.Proof.KI.ScPure
import proofs.«102414_j35115652612620_1_alg».proof.Proof.KI.Blocks
import proofs.«102414_j35115652612620_1_alg».proof.Proof.KI.IdealRows
import proofs.«102414_j35115652612620_1_alg».proof.Proof.PayIdeal
import proofs.«102414_j35115652612620_1_alg».proof.Proof.Spec

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## Partial column minima -/

section Pure

variable (A P : Cert.Chamfer.SPl.Idx → EReal) (b : Fin 8)

/-- The minimum over the first 512·k points of the first cloud of the squared distance to point l of the second. -/
def colPart (k : ℕ) (l : Fin 4096) : EReal :=
  ⨅ nn : Fin 4096, ⨅ _ : nn.val < 512 * k, Cert.Chamfer.dK A P b nn l

theorem le_colPart_iff (k : ℕ) (l : Fin 4096) (x : EReal) :
    x ≤ colPart A P b k l ↔ ∀ nn : Fin 4096, nn.val < 512 * k → x ≤ Cert.Chamfer.dK A P b nn l := by
  unfold colPart
  simp only [le_iInf_iff]

/-- The minimum over the 512 points of row tile q. -/
def tileMin (q : ℕ) (hq : q < 8) (l : Fin 4096) : EReal :=
  ⨅ i : Fin 512, Cert.Chamfer.dK A P b ⟨512 * q + i.val, by have := i.isLt; omega⟩ l

theorem le_tileMin_iff (q : ℕ) (hq : q < 8) (l : Fin 4096) (x : EReal) :
    x ≤ tileMin A P b q hq l
      ↔ ∀ i : Fin 512, x ≤ Cert.Chamfer.dK A P b ⟨512 * q + i.val, by have := i.isLt; omega⟩ l := by
  unfold tileMin
  exact le_iInf_iff

/-- No point yet: the minimum of nothing. -/
theorem colPart_zero (l : Fin 4096) : colPart A P b 0 l = ⊤ :=
  top_le_iff.mp ((le_colPart_iff A P b 0 l ⊤).mpr fun nn h => absurd h (by omega))

/-- One more row tile: the minimum with that tile's minimum. -/
theorem colPart_succ (k : ℕ) (hk : k < 8) (l : Fin 4096) :
    colPart A P b (k + 1) l = min (colPart A P b k l) (tileMin A P b k hk l) := by
  refine eq_of_forall_le_iff fun x => ?_
  rw [le_min_iff, le_colPart_iff, le_colPart_iff, le_tileMin_iff]
  constructor
  · intro h
    exact ⟨fun nn hnn => h nn (by omega), fun i => h _ (by
      show 512 * k + i.val < 512 * (k + 1)
      have := i.isLt
      omega)⟩
  · rintro ⟨h1, h2⟩ nn hnn
    by_cases hlt : nn.val < 512 * k
    · exact h1 nn hlt
    · have e : (⟨512 * k + (nn.val - 512 * k), by have := nn.isLt; omega⟩ : Fin 4096) = nn :=
        Fin.ext (by show 512 * k + (nn.val - 512 * k) = nn.val; omega)
      exact (congrArg (fun z => x ≤ Cert.Chamfer.dK A P b z l) e).mp (h2 ⟨nn.val - 512 * k, by omega⟩)

theorem colPart_one (l : Fin 4096) : colPart A P b 1 l = tileMin A P b 0 (by omega) l :=
  (colPart_succ A P b 0 (by omega) l).trans (by rw [colPart_zero]; exact min_eq_right le_top)

/-- All eight row tiles: the column minimum. -/
theorem colPart_eight (l : Fin 4096) : colPart A P b 8 l = Cert.Chamfer.colMin A P b l := by
  refine eq_of_forall_le_iff fun x => ?_
  rw [le_colPart_iff]
  unfold Cert.Chamfer.colMin
  rw [le_iInf_iff]
  exact ⟨fun h nn => h nn (by have := nn.isLt; omega), fun h nn _ => h nn⟩

end Pure

/-- How many row tiles have treated column tile q after r points of a batch. -/
def doneTiles (r q : ℕ) : ℕ := r / 8 + (if q < r % 8 then 1 else 0)

/-! ## One point's effect on a lane -/

section Kernel

variable (m : (ℓ : Loc nD τ sig) → Buf (Elt Ideal) ℓ) (c : Dev nD)

theorem le_N {n : ℕ} (h : n ≤ 512) : n ≤ cfg0.N := le_of_le_of_eq h N_0.symm

/-- The scratch row does not depend on how its count is written. -/
theorem scAt_congr (d : Vec Ideal S1x4096 .f32) {n n' : ℕ} (e : n = n') (h : n ≤ cfg0.N) (h' : n' ≤ cfg0.N) :
    scAt (F := Ideal) m c d n h = scAt (F := Ideal) m c d n' h' := by
  subst e; rfl

/-- Past the first row tile the body takes the later branch. -/
theorem cond2_of_not1 (t : Fin cfg0.N) (h : ¬ k0_cond1 (grid0.coords t) = 1#1) : k0_cond2 (grid0.coords t) = 1#1 :=
  (hcond2 t).mpr fun h0 => h ((hcond1 t).mpr h0)

/-- A lane of another column tile keeps its value. -/
theorem sc_out (d : Vec Ideal S1x4096 .f32) (t : Fin cfg0.N) (l : Fin 4096) (hl : ¬ l.val / 512 = t.val % 8) :
    scAt (F := Ideal) m c d (t.val + 1) t.isLt (ix2 0 l)
      = scAt (F := Ideal) m c d t.val (Nat.le_of_lt t.isLt) (ix2 0 l) := by
  have hy : ((ix2 (0 : Fin 1) l : S1x4096.Idx) 1).val < 512 * (t.val % 8)
      ∨ 512 * (t.val % 8) + 512 ≤ ((ix2 (0 : Fin 1) l : S1x4096.Idx) 1).val := by
    show l.val < 512 * (t.val % 8) ∨ 512 * (t.val % 8) + 512 ≤ l.val
    omega
  by_cases h1 : k0_cond1 (grid0.coords t) = 1#1
  · rw [scAt_succ1 m c d t h1]
    exact scStep1_out t h1 _ _ _ _ hy
  · rw [scAt_succ2 m c d t h1 (cond2_of_not1 t h1)]
    exact scStep2_out t _ _ _ _ _ hy

/-- This tile's column minimum at a lane of the point's column tile is the minimum over the point's row tile. -/
theorem pay3_tile (t : Fin cfg0.N) (b : Fin 8) (hb : b.val = t.val / 64) (l : Fin 4096) (j : Fin 512)
    (hl : l.val = 512 * (t.val % 8) + j.val) :
    k0_pay3 (F := Ideal) (ablk m c t) (pblk m c t) (ix1 j)
      = tileMin (V m c main_v10) (V m c main_v21) b (t.val / 8 % 8) (by omega) l := by
  rw [pay3_apply]
  unfold tileMin
  exact iInf_congr fun i => pay2_at m c t i j b _ l hb rfl hl

/-- At a first row tile a lane of the point's column tile takes the tile's minimum. -/
theorem sc_first (d : Vec Ideal S1x4096 .f32) (t : Fin cfg0.N) (b : Fin 8) (hb : b.val = t.val / 64)
    (h0 : t.val / 8 % 8 = 0) (l : Fin 4096) (hl : l.val / 512 = t.val % 8) :
    scAt (F := Ideal) m c d (t.val + 1) t.isLt (ix2 0 l) = colPart (V m c main_v10) (V m c main_v21) b 1 l := by
  have h1 := (hcond1 t).mpr h0
  have hl' : l.val = 512 * (t.val % 8) + (⟨l.val % 512, Nat.mod_lt _ (by decide)⟩ : Fin 512).val := by
    show l.val = 512 * (t.val % 8) + l.val % 512
    omega
  rw [scAt_succ1 m c d t h1, colPart_one]
  refine (scStep1_in' t h1 _ _ _ l _ hl').trans ((pay5_apply _ _ _).trans ?_)
  refine (pay3_tile m c t b hb l _ hl').trans ?_
  congr 1

/-- At a later row tile it takes the minimum of what it held and the tile's minimum. -/
theorem sc_later (d : Vec Ideal S1x4096 .f32) (t : Fin cfg0.N) (b : Fin 8) (hb : b.val = t.val / 64)
    (q : ℕ) (hq : q < 8) (h8 : t.val / 8 % 8 = q) (h0 : ¬ q = 0) (l : Fin 4096) (hl : l.val / 512 = t.val % 8) :
    scAt (F := Ideal) m c d (t.val + 1) t.isLt (ix2 0 l)
      = min (scAt (F := Ideal) m c d t.val (Nat.le_of_lt t.isLt) (ix2 0 l))
          (tileMin (V m c main_v10) (V m c main_v21) b q hq l) := by
  subst h8
  have h1 : ¬ k0_cond1 (grid0.coords t) = 1#1 := fun h => h0 ((hcond1 t).mp h)
  have h2 := (hcond2 t).mpr h0
  have hj : 512 * (t.val % 8) + l.val % 512 < 4096 := by have := l.isLt; omega
  have el : l = ⟨512 * (t.val % 8) + l.val % 512, hj⟩ :=
    Fin.ext (by show l.val = 512 * (t.val % 8) + l.val % 512; omega)
  have hl' : l.val = 512 * (t.val % 8) + (⟨l.val % 512, Nat.mod_lt _ (by decide)⟩ : Fin 512).val := by
    show l.val = 512 * (t.val % 8) + l.val % 512
    omega
  rw [scAt_succ2 m c d t h1 h2, ← pay3_tile m c t b hb l ⟨l.val % 512, Nat.mod_lt _ (by decide)⟩ hl']
  refine (congrArg (fun z => scStep2 scM0 hsc0 (grid0.coords t) h2 (ablk m c t) (pblk m c t)
    (scAt (F := Ideal) m c d t.val (Nat.le_of_lt t.isLt)) (ix2 0 z)) el).trans ?_
  refine (scStep2_in t h2 _ _ _ ⟨l.val % 512, Nat.mod_lt _ (by decide)⟩ hj).trans ((pay6_apply _ _ _ _).trans ?_)
  exact congrArg (fun z => min (scAt (F := Ideal) m c d t.val (Nat.le_of_lt t.isLt) (ix2 0 z))
    (k0_pay3 (F := Ideal) (ablk m c t) (pblk m c t) (ix1 ⟨l.val % 512, Nat.mod_lt _ (by decide)⟩))) el.symm

/-! ## The invariant over a batch's points -/

/-- After r points of batch b a lane whose column tile has been treated holds the minimum over the row tiles that
    treated it, whatever the row held before the batch. -/
theorem col_inv (d : Vec Ideal S1x4096 .f32) (b : Fin 8) :
    ∀ (r : ℕ) (hr : r ≤ 64) (l : Fin 4096), 0 < doneTiles r (l.val / 512) →
      scAt (F := Ideal) m c d (64 * b.val + r) (le_N (by have := b.isLt; omega)) (ix2 0 l)
        = colPart (V m c main_v10) (V m c main_v21) b (doneTiles r (l.val / 512)) l := by
  intro r
  induction r with
  | zero =>
    intro hr l hk
    exact absurd hk (by unfold doneTiles; simp)
  | succ r ih =>
    intro hr l hk
    have hb := b.isLt
    have hl4 := l.isLt
    obtain ⟨t, ht⟩ : ∃ t : Fin cfg0.N, t.val = 64 * b.val + r :=
      ⟨⟨64 * b.val + r, lt_of_lt_of_eq (by omega) N_0.symm⟩, rfl⟩
    have e64 : b.val = t.val / 64 := by omega
    have e8 : t.val / 8 % 8 = r / 8 := by omega
    have em : t.val % 8 = r % 8 := by omega
    have ih' : ∀ l' : Fin 4096, 0 < doneTiles r (l'.val / 512) →
        scAt (F := Ideal) m c d t.val (Nat.le_of_lt t.isLt) (ix2 0 l')
          = colPart (V m c main_v10) (V m c main_v21) b (doneTiles r (l'.val / 512)) l' := fun l' h' =>
      (congrFun (scAt_congr m c d ht _ _) _).trans (ih (by omega) l' h')
    rw [scAt_congr m c d (show 64 * b.val + (r + 1) = t.val + 1 by omega) _ t.isLt]
    by_cases hl : l.val / 512 = t.val % 8
    · have hd1 : doneTiles (r + 1) (l.val / 512) = r / 8 + 1 := by
        unfold doneTiles; split_ifs <;> omega
      have hd0 : doneTiles r (l.val / 512) = r / 8 := by
        unfold doneTiles; split_ifs <;> omega
      rw [hd1]
      by_cases h0 : r / 8 = 0
      · rw [h0]
        exact sc_first m c d t b e64 (by omega) l hl
      · refine (sc_later m c d t b e64 (r / 8) (by omega) e8 h0 l hl).trans ?_
        rw [ih' l (by rw [hd0]; omega), hd0, colPart_succ _ _ b (r / 8) (by omega) l]
    · have hd : doneTiles (r + 1) (l.val / 512) = doneTiles r (l.val / 512) := by
        unfold doneTiles; split_ifs <;> omega
      rw [sc_out m c d t l hl, hd]
      rw [hd] at hk
      exact ih' l hk

/-- After a batch's 64 points every lane of the scratch row holds its column's minimum over the whole first cloud. -/
theorem col_final (b : Fin 8) (j : Fin 4096) :
    scAt (F := Ideal) m c scDflt (64 * b.val + 64) (le_N (by have := b.isLt; omega)) (ix2 0 j)
      = Cert.Chamfer.colMin (V m c main_v10) (V m c main_v21) b j := by
  have hd : doneTiles 64 (j.val / 512) = 8 := by
    unfold doneTiles; split_ifs <;> omega
  refine (col_inv m c scDflt b 64 le_rfl j (by rw [hd]; omega)).trans ?_
  rw [hd]
  exact colPart_eight _ _ b j

end Kernel

end Cert.KernelIdeal.Gen

end
-- ==== Proof.Plane.lean ====
/- The projection both programs apply to each cloud before the distances: homogeneous coordinates, the batch's
   3 × 4 matrix, the perspective division by the third row, then the shift and scale to the unit square
   ((q − 112) / 224). Stated once, as the host operations themselves, so that each program's text is this term. -/
import proofs.«102414_j35115652612620_1_alg».proof.KernelIdeal
import proofs.«102414_j35115652612620_1_alg».proof.Proof.Gen.KernelIdeal
import proofs.«102414_j35115652612620_1_alg».proof.Proof.Spec

noncomputable section

namespace Cert.KernelIdeal

open Idealize.ShloMosaic
open Facts₀ Facts

/-- The clouds' third projective coordinate: what the perspective division divides by. -/
def depth (x : FVec Ideal S8x4096x3 .f32) (Pm : FVec Ideal S8x3x4 .f32) : FVec Ideal S8x4096x1 .f32 :=
  extractStridedSlice S8x4096x1 ![0, 0, 2]
    (Host.dotGeneral dot_S8x4096x4_S8x3x4_S8x4096x3_2_2_1_1_0_0 none
      (concatenate S8x4096x4 2 [⟨S8x4096x3, x⟩, ⟨S8x4096x1, broadcastInDim S8x4096x1 ![] bcast_S_S8x4096x1 (constant (F := Ideal) S_ .f32 0x3F800000#32)⟩]
        concatenates_S8x4096x3_S8x4096x1_S8x4096x4_d2) Pm)
    slices_S8x4096x3_S8x4096x1_0_0_2

/-- The first two projective coordinates. -/
def numer (x : FVec Ideal S8x4096x3 .f32) (Pm : FVec Ideal S8x3x4 .f32) : FVec Ideal S8x4096x2 .f32 :=
  extractStridedSlice S8x4096x2 ![0, 0, 0]
    (Host.dotGeneral dot_S8x4096x4_S8x3x4_S8x4096x3_2_2_1_1_0_0 none
      (concatenate S8x4096x4 2 [⟨S8x4096x3, x⟩, ⟨S8x4096x1, broadcastInDim S8x4096x1 ![] bcast_S_S8x4096x1 (constant (F := Ideal) S_ .f32 0x3F800000#32)⟩]
        concatenates_S8x4096x3_S8x4096x1_S8x4096x4_d2) Pm)
    slices_S8x4096x3_S8x4096x2_0_0_0

/-- A cloud projected to the image plane and normalised. -/
def plane (x : FVec Ideal S8x4096x3 .f32) (Pm : FVec Ideal S8x3x4 .f32) : FVec Ideal S8x4096x2 .f32 :=
  Host.divf
    (subf (Host.divf (numer x Pm) (broadcastInDim S8x4096x2 ![0, 1, 2] bcast_S8x4096x1_S8x4096x2_0_1_2 (depth x Pm)))
      (broadcastInDim S8x4096x2 ![] bcast_S_S8x4096x2 (constant (F := Ideal) S_ .f32 0x42E00000#32)))
    (broadcastInDim S8x4096x2 ![] bcast_S_S8x4096x2 (constant (F := Ideal) S_ .f32 0x43600000#32))

end Cert.KernelIdeal

end
-- ==== Proof.KI.Tail.lean ====
/- The host operations around the region, read at the ideal values: before it, the two clouds projected to the
   image plane; after it, the floor, the square roots, the two means and their average as one closed term. -/
import proofs.«102414_j35115652612620_1_alg».proof.Proof.Gen.KernelIdeal.Frame
import proofs.«102414_j35115652612620_1_alg».proof.Proof.Plane
import proofs.«102414_j35115652612620_1_alg».proof.Proof.Spec
import Idealize.ShloMosaic.Lib.StableHlo.Run
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (m : (ℓ : Loc nD τ sig) → Buf (Elt Ideal) ℓ)

/-! ## Before the region: the projected clouds -/

/-- The region finds the second cloud, projected and normalised, in its first input array. -/
theorem V_main_v10 (c : Dev nD) : (V m c main_v10 : S8x4096x2.Idx → EReal)
    = Cert.KernelIdeal.plane (m ((c : Thread nD τ).loc main_arg1)) (m ((c : Thread nD τ).loc main_arg2)) := by
  show StableHlo.after hostOps0 (fun b => m (c, b)) (Proc.devRef .tc main_v10) = _
  after_results
  rfl

/-- The region finds the first cloud, projected and normalised, in its second input array. -/
theorem V_main_v21 (c : Dev nD) : (V m c main_v21 : S8x4096x2.Idx → EReal)
    = Cert.KernelIdeal.plane (m ((c : Thread nD τ).loc main_arg0)) (m ((c : Thread nD τ).loc main_arg2)) := by
  show StableHlo.after hostOps0 (fun b => m (c, b)) (Proc.devRef .tc main_v21) = _
  after_results
  rfl

/-! ## After the region: the loss from the two arrays of nearest distances -/

/-- The floor, the square roots, the two means and their average, over any two arrays of nearest distances. -/
def tailLoss (O0 O1 : S8x1x4096.Idx → EReal) : EReal :=
  Cert.Chamfer.half * (Ideal.div (0 + ∑ i : S8x1x4096.Idx, Ideal.sqrt (max (O0 i) Cert.Chamfer.eps)) Cert.Chamfer.cnt
    + Ideal.div (0 + ∑ i : S8x1x4096.Idx, Ideal.sqrt (max (O1 i) Cert.Chamfer.eps)) Cert.Chamfer.cnt)

/-- A host sum over every axis, from the zero word: zero plus the sum over every index. -/
theorem sumAll (x : FVec Ideal S8x1x4096 .f32) (j : S_.Idx) :
    Host.reduceAdd (F := Ideal) x (constant (F := Ideal) S_ .f32 0x00000000#32) reducesTo_S8x1x4096_S_d0_1_2 h_S_ j
      = 0 + ∑ i : S8x1x4096.Idx, x i :=
  (Ideal.hostReduceAdd_total reducesTo_S8x1x4096_S_d0_1_2 (fun b => b.elim0) x _ j).trans
    (congrArg (· + ∑ i : S8x1x4096.Idx, x i) Ideal.ofBits_zero_f32)

/-- The operations after the region over ANY contents of the buffers: their last result is the loss of the two
    arrays the region wrote. -/
theorem tail_after (W : Valuation τ sig (Elt Ideal)) :
    (StableHlo.after hostOps1 W (Proc.devRef .tc main_v34) : S_.Idx → EReal)
      = fun _ => tailLoss (W (Proc.devRef .tc main_v22_0)) (W (Proc.devRef .tc main_v22_1)) := by
  after_results
  funext j
  rw [mulf_apply, addf_apply]
  unfold tailLoss
  refine congrArg₂ (· * ·) rfl (congrArg₂ (· + ·) (congrArg₂ Ideal.div ?_ rfl) (congrArg₂ Ideal.div ?_ rfl))
  · exact sumAll _ j
  · exact sumAll _ j

/-- The program's last result, for any proof data: the loss of the two arrays the region leaves. -/
theorem tail_eq (dats : (p : Fin 1) → (c : Dev nD) → Dat τ (Elt Ideal) Unit ℕ (UR sig nD τ) ℕ (cfgs p) c) (c : Dev nD) :
    Pipeline.afterTail₀ cfgs dats 0 (V0 m) [hostOps1] c main_v34
      = fun _ => tailLoss ((dats 0 c).arrAt 2 cfg0.N) ((dats 0 c).arrAt 3 cfg0.N) := by
  unfold Pipeline.afterTail₀
  refine (tail_after _).trans ?_
  have e2 := Pipeline.withArrays_arr spec0 launch0.win.arr_inj c (V0 m c) (fun w => (dats 0 c).arrAt w (cfgs 0).N) 2
  have e3 := Pipeline.withArrays_arr spec0 launch0.win.arr_inj c (V0 m c) (fun w => (dats 0 c).arrAt w (cfgs 0).N) 3
  exact funext fun _ => congrArg₂ tailLoss e2 e3

end Cert.KernelIdeal.Gen

end
-- ==== Proof.KI.Value.lean ====
/- The idealized kernel program's run with its result named: the loss of the two projected clouds in the order the
   kernel forms it (nearest squared distances first, floored afterwards). The column result's array is the scratch
   row at each batch's last point, the row result's array the running row minimum at each row tile's last point; the
   host operations after the region turn the two arrays into the loss. -/
import proofs.«102414_j35115652612620_1_alg».proof.Proof.KI.FrameRun
import proofs.«102414_j35115652612620_1_alg».proof.Proof.KI.ScPure
import proofs.«102414_j35115652612620_1_alg».proof.Proof.KI.Final
import proofs.«102414_j35115652612620_1_alg».proof.Proof.KI.IdealRows
import proofs.«102414_j35115652612620_1_alg».proof.Proof.KI.IdealCols
import proofs.«102414_j35115652612620_1_alg».proof.Proof.KI.Tail

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem scIndep {F : FTy → Type} [FloatOps F] (m : (ℓ : Loc nD τ sig) → Buf (Elt F) ℓ) : ScIndep m :=
  fun c d d' n hn h8 => scAt_indep m c d d' n hn h8

/-- The two result arrays turned into the loss by the host operations after the region are the kernel's form of the
    loss of the two clouds the region found. -/
theorem tailLoss_eq (c : Dev nD) :
    tailLoss ((dats m 0 c).arrAt 2 cfg0.N) ((dats m 0 c).arrAt 3 cfg0.N)
      = Cert.Chamfer.lossK (V m c main_v10) (V m c main_v21) := by
  rw [final2 m c, final3 m c]
  unfold tailLoss Cert.Chamfer.lossK
  have e2 : ∀ i : S8x1x4096.Idx,
      k0_pay1 (F := Ideal) (scAt m c scDflt (64 * (i 0).val + 64) (bound2 i)) (ix3 0 0 (i 2))
        = Cert.Chamfer.colMin (V m c main_v10) (V m c main_v21) (i 0) (i 2) := fun i => by
    exact (pay1_apply _ (i 2)).trans (col_final m c (i 0) (i 2))
  have e3 : ∀ i : S8x1x4096.Idx,
      rowAt (F := Ideal) m c (64 * (i 0).val + 8 * ((i 2).val / 512) + 7) (bound3 i)
          (ix3 0 0 ⟨(i 2).val % 512, Nat.mod_lt _ (by decide)⟩)
        = Cert.Chamfer.rowMin (V m c main_v10) (V m c main_v21) (i 0) (i 2) := fun i => row_final m c (i 0) (i 2)
  simp only [e2, e3]

theorem run_value :
    θ_run defs (onTc (τ := τ) (main (F := Ideal))) ⟨m, fun _ => 0, ρ⟩ (fun r => ∀ c : Dev nD,
      r.2.mem ((c.tc : Thread nD τ).loc main_v34)
          = (fun _ => Cert.Chamfer.lossK
              (Cert.KernelIdeal.plane (m ((c.tc : Thread nD τ).loc main_arg1)) (m ((c.tc : Thread nD τ).loc main_arg2)))
              (Cert.KernelIdeal.plane (m ((c.tc : Thread nD τ).loc main_arg0)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v34 (Pipeline.mem_restRefs_of main_v34 (by decide) (by decide))).trans
        ((tail_eq m (dats m) c).trans (by rw [tailLoss_eq m c, V_main_v10 m c, V_main_v21 m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ (scIndep m))

end Cert.KernelIdeal.Gen

end
-- ==== Proof.RefValue.lean ====
/- The reference's run read back as the loss of the two projected clouds. -/
import proofs.«102414_j35115652612620_1_alg».proof.Proof.Gen.ReferenceIdeal.Run
import proofs.«102414_j35115652612620_1_alg».proof.Proof.Gen.ReferenceIdeal.Read
import proofs.«102414_j35115652612620_1_alg».proof.Proof.Spec
import proofs.«102414_j35115652612620_1_alg».proof.Proof.Plane

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Idealize.ShloMosaic.ValueIdx Cert.Chamfer

/-- The first cloud's projection, operation by operation, is the shared projection term. -/
theorem v10_eq (x1 : (⟨S8x4096x3, .f32⟩ : BufTy).Contents (Elt Ideal)) (x2 : (⟨S8x3x4, .f32⟩ : BufTy).Contents (Elt Ideal)) :
    val_main_v10 (F := Ideal) x1 x2 = Cert.KernelIdeal.plane x1 x2 := rfl

/-- The second cloud's projection likewise. -/
theorem v21_eq (x0 : (⟨S8x4096x3, .f32⟩ : BufTy).Contents (Elt Ideal)) (x2 : (⟨S8x3x4, .f32⟩ : BufTy).Contents (Elt Ideal)) :
    val_main_v21 (F := Ideal) x0 x2 = Cert.KernelIdeal.plane x0 x2 := rfl

/-- A fold of min from ⊤ over every coordinate is the infimum. -/
theorem fold_min_top {n : Nat} (f : Fin n → EReal) :
    (Finset.univ : Finset (Fin n)).fold min ⊤ f = ⨅ k, f k := by
  apply eq_of_forall_le_iff; intro c
  rw [Finset.le_fold_min, le_iInf_iff]
  simp

theorem red1 : S8x4096x4096.Reduces [1] S8x4096 := by decide
theorem red2 : S8x4096x4096.Reduces [2] S8x4096 := by decide

section
variable (x0 x1 : (⟨S8x4096x3, .f32⟩ : BufTy).Contents (Elt Ideal)) (x2 : (⟨S8x3x4, .f32⟩ : BufTy).Contents (Elt Ideal))

/-- The expanded squared distance |a|² + |p|² − 2 a·p, entry by entry. -/
theorem v34_at (b : Fin 8) (n m : Fin 4096) :
    val_main_v34 (F := Ideal) x0 x1 x2 (ix3 b n m)
      = dR (val_main_v10 (F := Ideal) x1 x2) (val_main_v21 (F := Ideal) x0 x2) b n m := by
  have e1 : ∀ k : Fin 2, idx_main_v23 (idx_main_v24 (idx_main_v28 (ix3 b n m))) k = ix3 b n k := fun k =>
    funext fun a => Fin.ext (by match a with | ⟨0, _⟩ => rfl | ⟨1, _⟩ => rfl | ⟨2, _⟩ => rfl)
  have e2 : ∀ k : Fin 2, idx_main_v26 (idx_main_v27 (idx_main_v29 (ix3 b n m))) k = ix3 b m k := fun k =>
    funext fun a => Fin.ext (by match a with | ⟨0, _⟩ => rfl | ⟨1, _⟩ => rfl | ⟨2, _⟩ => rfl)
  have e3 : ∀ k : Fin 2, lidx_main_v31 (ix3 b n m) k = ix3 b n k := fun k =>
    funext fun a => Fin.ext (by match a with | ⟨0, _⟩ => rfl | ⟨1, _⟩ => rfl | ⟨2, _⟩ => rfl)
  have e4 : ∀ k : Fin 2, ridx_main_v31 (ix3 b n m) k = ix3 b m k := fun k =>
    funext fun a => Fin.ext (by match a with | ⟨0, _⟩ => rfl | ⟨1, _⟩ => rfl | ⟨2, _⟩ => rfl)
  rw [val_main_v34_apply, val_main_v30_apply, val_main_v33_apply, val_main_v28_apply, val_main_v29_apply,
    val_main_v24_apply, val_main_v27_apply, val_main_v23_apply, val_main_v26_apply, val_main_v32_apply,
    val_main_v31_apply, val_main_cst_7_apply, val_main_cst_5_apply, val_main_cst_6_apply]
  simp only [val_main_v22_apply, val_main_v25_apply, e1, e2, e3, e4, Ideal.addf_def, Ideal.subf_def, Ideal.mulf_def,
    Ideal.ofBits_def, Ideal.ofBits_zero_f32]
  rfl

/-- The floored distance. -/
theorem v36_at (b : Fin 8) (n m : Fin 4096) :
    val_main_v36 (F := Ideal) x0 x1 x2 (ix3 b n m)
      = max (dR (val_main_v10 (F := Ideal) x1 x2) (val_main_v21 (F := Ideal) x0 x2) b n m) eps := by
  rw [val_main_v36_apply, v34_at, val_main_v35_apply, val_main_cst_8_apply]
  rfl

/-- A reduced index with the coordinate put back on the middle axis. -/
theorem lift1 (j : S8x4096.Idx) (k : Fin (S8x4096x4096.size 1)) :
    red1.lift j k = ix3 (j 0) (⟨k.val, k.isLt⟩ : Fin 4096) (j 1) := by
  funext c; apply Fin.ext
  match c with
  | ⟨0, _⟩ => rfl
  | ⟨1, _⟩ => rfl
  | ⟨2, _⟩ => rfl

/-- A reduced index with the coordinate put back on the last axis. -/
theorem lift2 (j : S8x4096.Idx) (k : Fin (S8x4096x4096.size 2)) :
    red2.lift j k = ix3 (j 0) (j 1) (⟨k.val, k.isLt⟩ : Fin 4096) := by
  funext c; apply Fin.ext
  match c with
  | ⟨0, _⟩ => rfl
  | ⟨1, _⟩ => rfl
  | ⟨2, _⟩ => rfl

/-- The initial word of the minimum reductions is +∞. -/
theorem inf_word : Ideal.ofBits .f32 0x7F800000#32 = (⊤ : EReal) := by
  simp [Ideal.ofBits, Ideal.ieee]

/-- The minimum over the first cloud's points: the nearest floored distance for each point of the second. -/
theorem v37_at (j : S8x4096.Idx) :
    val_main_v37 (F := Ideal) x0 x1 x2 j
      = ⨅ n : Fin 4096, max (dR (val_main_v10 (F := Ideal) x1 x2) (val_main_v21 (F := Ideal) x0 x2) (j 0) n (j 1)) eps := by
  unfold val_main_v37
  refine (Host.reduce_eq_fold_single FloatOps.minimumf _ _ reducesTo_S8x4096x4096_S8x4096_d1 red1 h_S_ j).trans ?_
  have hf : (val_main_v36 (F := Ideal) x0 x1 x2 ∘ red1.lift j)
      = fun n : Fin 4096 => max (dR (val_main_v10 (F := Ideal) x1 x2) (val_main_v21 (F := Ideal) x0 x2) (j 0) n (j 1)) eps :=
    funext fun k => (congrArg (val_main_v36 (F := Ideal) x0 x1 x2) (lift1 j k)).trans
      (v36_at x0 x1 x2 (j 0) ⟨k.val, k.isLt⟩ (j 1))
  rw [hf, val_main_cst_9_apply]
  exact (congrArg (fun t => Finset.fold min t _ (Finset.univ : Finset (Fin 4096))) inf_word).trans (fold_min_top _)

/-- The minimum over the second cloud's points: the nearest floored distance for each point of the first. -/
theorem v38_at (j : S8x4096.Idx) :
    val_main_v38 (F := Ideal) x0 x1 x2 j
      = ⨅ m : Fin 4096, max (dR (val_main_v10 (F := Ideal) x1 x2) (val_main_v21 (F := Ideal) x0 x2) (j 0) (j 1) m) eps := by
  unfold val_main_v38
  refine (Host.reduce_eq_fold_single FloatOps.minimumf _ _ reducesTo_S8x4096x4096_S8x4096_d2 red2 h_S_ j).trans ?_
  have hf : (val_main_v36 (F := Ideal) x0 x1 x2 ∘ red2.lift j)
      = fun m : Fin 4096 => max (dR (val_main_v10 (F := Ideal) x1 x2) (val_main_v21 (F := Ideal) x0 x2) (j 0) (j 1) m) eps :=
    funext fun k => (congrArg (val_main_v36 (F := Ideal) x0 x1 x2) (lift2 j k)).trans
      (v36_at x0 x1 x2 (j 0) (j 1) ⟨k.val, k.isLt⟩)
  rw [hf, val_main_cst_10_apply]
  exact (congrArg (fun t => Finset.fold min t _ (Finset.univ : Finset (Fin 4096))) inf_word).trans (fold_min_top _)

/-- The root of the nearest floored distance, for each point of the second cloud. -/
theorem v39_at (j : S8x4096.Idx) :
    val_main_v39 (F := Ideal) x0 x1 x2 j
      = Ideal.sqrt (⨅ n : Fin 4096, max (dR (val_main_v10 (F := Ideal) x1 x2) (val_main_v21 (F := Ideal) x0 x2) (j 0) n (j 1)) eps) := by
  rw [val_main_v39_apply, v37_at]
  rfl

/-- The root of the nearest floored distance, for each point of the first cloud. -/
theorem v42_at (j : S8x4096.Idx) :
    val_main_v42 (F := Ideal) x0 x1 x2 j
      = Ideal.sqrt (⨅ m : Fin 4096, max (dR (val_main_v10 (F := Ideal) x1 x2) (val_main_v21 (F := Ideal) x0 x2) (j 0) (j 1) m) eps) := by
  rw [val_main_v42_apply, v38_at]
  rfl

/-- The sum of the first family of roots over every batch and point. -/
theorem v40_at (i : S_.Idx) :
    val_main_v40 (F := Ideal) x0 x1 x2 i
      = 0 + ∑ j : S8x4096.Idx, Ideal.sqrt (⨅ n : Fin 4096, max (dR (val_main_v10 (F := Ideal) x1 x2) (val_main_v21 (F := Ideal) x0 x2) (j 0) n (j 1)) eps) := by
  rw [val_main_v40_apply, val_main_cst_11_apply]
  exact congrArg₂ (· + ·) Ideal.ofBits_zero_f32 (Finset.sum_congr rfl fun j _ => v39_at x0 x1 x2 j)

/-- The sum of the second family of roots over every batch and point. -/
theorem v43_at (i : S_.Idx) :
    val_main_v43 (F := Ideal) x0 x1 x2 i
      = 0 + ∑ j : S8x4096.Idx, Ideal.sqrt (⨅ m : Fin 4096, max (dR (val_main_v10 (F := Ideal) x1 x2) (val_main_v21 (F := Ideal) x0 x2) (j 0) (j 1) m) eps) := by
  rw [val_main_v43_apply, val_main_cst_13_apply]
  exact congrArg₂ (· + ·) Ideal.ofBits_zero_f32 (Finset.sum_congr rfl fun j _ => v42_at x0 x1 x2 j)

/-- The first mean. -/
theorem v41_at (i : S_.Idx) :
    val_main_v41 (F := Ideal) x0 x1 x2 i
      = Ideal.div (0 + ∑ j : S8x4096.Idx, Ideal.sqrt (⨅ n : Fin 4096, max (dR (val_main_v10 (F := Ideal) x1 x2) (val_main_v21 (F := Ideal) x0 x2) (j 0) n (j 1)) eps)) cnt := by
  rw [val_main_v41_apply, v40_at, val_main_cst_12_apply]
  rfl

/-- The second mean. -/
theorem v44_at (i : S_.Idx) :
    val_main_v44 (F := Ideal) x0 x1 x2 i
      = Ideal.div (0 + ∑ j : S8x4096.Idx, Ideal.sqrt (⨅ m : Fin 4096, max (dR (val_main_v10 (F := Ideal) x1 x2) (val_main_v21 (F := Ideal) x0 x2) (j 0) (j 1) m) eps)) cnt := by
  rw [val_main_v44_apply, v43_at, val_main_cst_14_apply]
  rfl

/-- The average of the two means: the loss over the two operation-by-operation projections. -/
theorem v46_at (i : S_.Idx) :
    val_main_v46 (F := Ideal) x0 x1 x2 i
      = lossR (val_main_v10 (F := Ideal) x1 x2) (val_main_v21 (F := Ideal) x0 x2) := by
  rw [val_main_v46_apply, val_main_v45_apply, v41_at, v44_at, val_main_cst_15_apply]
  rfl

end

/-- The reference's result is the loss, floored-first-then-nearest over expanded distances, of the two projected clouds. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m c
      = fun _ => Cert.Chamfer.lossR
          (Cert.KernelIdeal.plane (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)))
          (Cert.KernelIdeal.plane (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2))) := by
  funext i
  refine (congrFun (val_main_v46_eq (F := Ideal) m c) i).trans ?_
  refine (v46_at _ _ _ i).trans ?_
  rw [v10_eq, v21_eq]

end Cert.ReferenceIdeal.RefValue

end
-- ==== Proof.LossEq.lean ====
/- The two ways of forming the chamfer loss agree on real coordinates: the squared distance equals its expansion,
   flooring commutes with the nearest-neighbour infimum, and the two sums run over index sets in bijection. -/
import proofs.«102414_j35115652612620_1_alg».proof.Proof.Spec
import Mathlib.Order.CompleteBooleanAlgebra
import Mathlib.Data.EReal.Operations
import Mathlib.Algebra.BigOperators.Fin
import Mathlib.Algebra.BigOperators.Group.Finset.Basic
import Mathlib.Tactic.Ring
import Mathlib.Tactic.NormNum

noncomputable section

open scoped BigOperators

namespace Cert.Chamfer

open Idealize.ShloMosaic Idealize.ShloMosaic.ValueIdx

/-- The word for two denotes the real number 2. -/
theorem two_eq : two = ((2 : ℝ) : EReal) := by
  simp [two, Ideal.ofBits, Ideal.ieee]
  rw [← EReal.coe_mul]
  norm_num

/-- For real coordinates the squared distance equals its expansion |a|² + |p|² − 2 a·p. -/
theorem dK_eq_dR (A P : SPl.Idx → EReal) (hA : ∀ i, ∃ r : ℝ, A i = (r : EReal))
    (hP : ∀ i, ∃ r : ℝ, P i = (r : EReal)) (b : Fin 8) (n m : Fin 4096) : dK A P b n m = dR A P b n m := by
  obtain ⟨a0, ha0⟩ := hA (ix3 b n 0)
  obtain ⟨a1, ha1⟩ := hA (ix3 b n 1)
  obtain ⟨p0, hp0⟩ := hP (ix3 b m 0)
  obtain ⟨p1, hp1⟩ := hP (ix3 b m 1)
  simp only [dK, dR, Fin.sum_univ_two, ha0, ha1, hp0, hp1, two_eq, zero_add]
  norm_cast
  ring

/-- Flooring commutes with an infimum over any index set. -/
theorem max_iInf {ι : Type*} (d : ι → EReal) (e : EReal) : max (⨅ n, d n) e = ⨅ n, max (d n) e := by
  exact iInf_sup_eq d e

/-- The kernel's index set batch × 1 × point is the reference's batch × point. -/
def outRed : SOut.Idx ≃ SRed.Idx where
  toFun i := ix2 (i 0) (i 2)
  invFun j := ix3 (j 0) 0 (j 1)
  left_inv i := by
    funext a
    match a with
    | ⟨0, _⟩ => rfl
    | ⟨1, _⟩ => exact Subsingleton.elim (α := Fin 1) _ _
    | ⟨2, _⟩ => rfl
  right_inv j := (eq_ix2 j).symm

/-- A sum over the kernel's index set, re-indexed over the reference's. -/
theorem sum_out_red (f : Fin 8 → Fin 4096 → EReal) :
    ∑ i : SOut.Idx, f (i 0) (i 2) = ∑ j : SRed.Idx, f (j 0) (j 1) :=
  Fintype.sum_equiv outRed _ _ (fun _ => rfl)

/-- On real coordinates the loss formed nearest-first-then-floored over batch × 1 × point equals the loss formed
    from expanded distances floored-first-then-nearest over batch × point. -/
theorem lossK_eq_lossR (A P : SPl.Idx → EReal) (hA : ∀ i, ∃ r : ℝ, A i = (r : EReal))
    (hP : ∀ i, ∃ r : ℝ, P i = (r : EReal)) : lossK A P = lossR A P := by
  have hd : dK A P = dR A P := by
    funext b n m
    exact dK_eq_dR A P hA hP b n m
  unfold lossK lossR
  rw [sum_out_red (fun b m => Ideal.sqrt (max (colMin A P b m) eps)),
    sum_out_red (fun b n => Ideal.sqrt (max (rowMin A P b n) eps))]
  simp only [colMin, rowMin, max_iInf, hd]

end Cert.Chamfer

end
-- ==== Proof.PreReal.lean ====
/- Under the precondition the two projected clouds are arrays of real numbers. The precondition says that every entry of
   the three inputs has absolute value below +∞, hence is a real, and that the third projective coordinate of every
   point of both clouds is not zero. A cloud of reals in homogeneous coordinates [x, 1] times a matrix of reals is an
   array of finite sums of products of reals, so both the first two projective coordinates and the third are reals, the
   third a nonzero one; the quotient by a nonzero real is the product with its reciprocal, a real; subtracting the real
   112 and dividing by the nonzero real 224 keep it real. -/
import proofs.«102414_j35115652612620_1_alg».proof.Proof.Plane
import proofs.«102414_j35115652612620_1_alg».proof.Pre_finite_inputs
import proofs.«102414_j35115652612620_1_alg».proof.Proof.Gen.Pre_finite_inputs
import Idealize.ShloMosaic.Lib.ReduceAll
import Idealize.ShloMosaic.Lib.ValueIdx
import Idealize.ShloMosaic.PureOps.Ideal.Laws

noncomputable section

namespace Cert.KernelIdeal

open Idealize.ShloMosaic
open Facts₀ Facts

namespace PreReal

/-! ### Extended reals that are reals -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type} (s : Finset ι) (f : ι → EReal) (h : ∀ i ∈ s, IsReal (f i)) : IsReal (∑ i ∈ s, f i) :=
  Finset.sum_induction f IsReal (fun _ _ => IsReal.add) ⟨0, by simp⟩ h

theorem IsReal.div {x : EReal} {y : ℝ} (hx : IsReal x) (hy : y ≠ 0) : IsReal (Ideal.div x (y : EReal)) := by
  rw [Ideal.div_coe hy]; exact hx.mul ⟨_, rfl⟩

/-- An extended real whose absolute value is below +∞ is a real. -/
theorem isReal_of_abs_lt_top {x : EReal} (h : max x (-x) < ⊤) : IsReal x := by
  induction x using EReal.rec with
  | bot => simp at h
  | top => simp at h
  | coe r => exact ⟨r, rfl⟩

theorem ofBits_inf_f32 : Ideal.ofBits .f32 0x7F800000#32 = ⊤ := by simp [Ideal.ofBits, Ideal.ieee]

/-! ### The precondition read back -/

/-- The shape of rank zero has one index. -/
instance subsingleton_S_Idx : Subsingleton Cert.Pre_finite_inputs.S_.Idx := ⟨fun a b => funext fun d => d.elim0⟩

theorem ofBool_eq_one_iff {b : Bool} : BitVec.ofBool b = 1#1 ↔ b = true := by cases b <;> decide

/-- The comparison |x| < +∞ answering 1 makes x a real. -/
theorem isReal_of_cmp_abs {x : EReal}
    (h : FloatOps.cmpf (F := Ideal) (φ := .f32) .olt (FloatOps.hostAbsf (F := Ideal) (φ := .f32) x) (Ideal.ofBits .f32 0x7F800000#32) = 1#1) : IsReal x := by
  rw [ofBits_inf_f32, Ideal.cmpf_def, Ideal.hostAbsf_def, Ideal.absf_def] at h
  exact isReal_of_abs_lt_top (of_decide_eq_true (ofBool_eq_one_iff.1 h))

/-- The comparison x ≠ 0 answering 1 makes x nonzero. -/
theorem ne_zero_of_cmp_une {x : EReal}
    (h : FloatOps.cmpf (F := Ideal) (φ := .f32) .une x (Ideal.ofBits .f32 0x00000000#32) = 1#1) : x ≠ 0 := by
  rw [Ideal.ofBits_zero_f32, Ideal.cmpf_def] at h
  exact of_decide_eq_true (ofBool_eq_one_iff.1 h)

/-- What the precondition says: every entry of the three inputs is a real, and the third projective coordinate of
    every point of both clouds is not zero. -/
theorem pre_decode [Cert.Pre_finite_inputs.Facts] (x0 x1 : FVec Ideal S8x4096x3 .f32) (Pm : FVec Ideal S8x3x4 .f32)
    (hpre : Cert.Pre_finite_inputs.fn (F := Ideal) x0 x1 Pm = fun _ => 1#1) :
    (∀ i, IsReal (x0 i)) ∧ (∀ i, IsReal (x1 i)) ∧ (∀ i, IsReal (Pm i)) ∧ (∀ i, depth x1 Pm i ≠ 0) ∧ (∀ i, depth x0 Pm i ≠ 0) := by
  have h := congrFun hpre ValueIdx.ix0
  dsimp only [Cert.Pre_finite_inputs.fn, Cert.Pre_finite_inputs.fn_part1] at h
  obtain ⟨h, hd0⟩ := IntOp.andi_eq_one.1 h
  obtain ⟨h, hd1⟩ := IntOp.andi_eq_one.1 h
  obtain ⟨h, hP⟩ := IntOp.andi_eq_one.1 h
  obtain ⟨hx0, hx1⟩ := IntOp.andi_eq_one.1 h
  refine ⟨fun i => ?_, fun i => ?_, fun i => ?_, fun i => ?_, fun i => ?_⟩
  · exact isReal_of_cmp_abs (Host.reduce_andi_all _ _ _ _ _ hx0 i)
  · exact isReal_of_cmp_abs (Host.reduce_andi_all _ _ _ _ _ hx1 i)
  · exact isReal_of_cmp_abs (Host.reduce_andi_all _ _ _ _ _ hP i)
  · exact ne_zero_of_cmp_une (Host.reduce_andi_all _ _ _ _ _ hd1 i)
  · exact ne_zero_of_cmp_une (Host.reduce_andi_all _ _ _ _ _ hd0 i)

/-! ### The three constants -/

theorem isReal_ofBits_one : IsReal (Ideal.ofBits .f32 0x3F800000#32) := by
  refine ⟨1, ?_⟩
  simp [Ideal.ofBits, Ideal.ieee]
  rw [← EReal.coe_mul, ← EReal.coe_one, EReal.coe_eq_coe_iff]
  norm_num

theorem isReal_ofBits_112 : IsReal (Ideal.ofBits .f32 0x42E00000#32) := by
  refine ⟨112, ?_⟩
  simp [Ideal.ofBits, Ideal.ieee]
  rw [← EReal.coe_mul, EReal.coe_eq_coe_iff]
  norm_num

theorem ofBits_224 : ∃ r : ℝ, r ≠ 0 ∧ Ideal.ofBits .f32 0x43600000#32 = (r : EReal) := by
  refine ⟨224, by norm_num, ?_⟩
  simp [Ideal.ofBits, Ideal.ieee]
  rw [← EReal.coe_mul, EReal.coe_eq_coe_iff]
  norm_num

/-! ### Reals through the layout operations, the product and the projection -/

/-- Every entry of a concatenation is an entry of one of its pieces. -/
theorem concatenate_of_pieces {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

/-- Every entry of a slice is an entry of the operand. -/
theorem slice_of_entries {α : Type} {s t : Shape} (off : Fin s.rank → Nat) (x : s.Idx → α) (h : s.Slices off t)
    (P : α → Prop) (hP : ∀ i, P (x i)) (j : t.Idx) : P (extractStridedSlice t off x h j) := by
  unfold extractStridedSlice
  exact hP _

/-- A product of two arrays of reals is an array of reals: each entry is a finite sum of products. -/
theorem isReal_dotGeneral {sl sr so : Shape} (d : DotDims sl sr so) (prec : Option ContractPrecision)
    (l : FVec Ideal sl .f32) (r : FVec Ideal sr .f32) (hl : ∀ i, IsReal (l i)) (hr : ∀ i, IsReal (r i)) (j : so.Idx) :
    IsReal (Host.dotGeneral d prec l r j) := by
  have e : Host.dotGeneral d prec l r j = ∑ k : d.contr.Idx, l (d.lhsIdx j k) * r (d.rhsIdx j k) :=
    Ideal.dotGeneral_apply d prec .single l r j
  rw [e]
  exact IsReal.sum _ _ fun k _ => (hl _).mul (hr _)

/-- The projective coordinates of a cloud: the homogeneous points times the batch's matrix. -/
def proj (x : FVec Ideal S8x4096x3 .f32) (Pm : FVec Ideal S8x3x4 .f32) : FVec Ideal S8x4096x3 .f32 :=
  Host.dotGeneral dot_S8x4096x4_S8x3x4_S8x4096x3_2_2_1_1_0_0 none
    (concatenate S8x4096x4 2 [⟨S8x4096x3, x⟩, ⟨S8x4096x1, broadcastInDim S8x4096x1 ![] bcast_S_S8x4096x1 (constant (F := Ideal) S_ .f32 0x3F800000#32)⟩]
      concatenates_S8x4096x3_S8x4096x1_S8x4096x4_d2) Pm

theorem isReal_proj (x : FVec Ideal S8x4096x3 .f32) (Pm : FVec Ideal S8x3x4 .f32)
    (hx : ∀ i, IsReal (x i)) (hP : ∀ i, IsReal (Pm i)) (j : S8x4096x3.Idx) : IsReal (proj x Pm j) := by
  refine isReal_dotGeneral _ _ _ _ (fun i => ?_) hP j
  refine concatenate_of_pieces _ _ _ IsReal (fun p hp => ?_) i
  simp only [List.mem_cons, List.not_mem_nil, or_false] at hp
  rcases hp with rfl | rfl
  · exact hx
  · intro k; exact isReal_ofBits_one

theorem isReal_numer (x : FVec Ideal S8x4096x3 .f32) (Pm : FVec Ideal S8x3x4 .f32)
    (hx : ∀ i, IsReal (x i)) (hP : ∀ i, IsReal (Pm i)) (j : S8x4096x2.Idx) : IsReal (numer x Pm j) :=
  slice_of_entries _ (proj x Pm) _ IsReal (isReal_proj x Pm hx hP) j

theorem isReal_depth (x : FVec Ideal S8x4096x3 .f32) (Pm : FVec Ideal S8x3x4 .f32)
    (hx : ∀ i, IsReal (x i)) (hP : ∀ i, IsReal (Pm i)) (j : S8x4096x1.Idx) : IsReal (depth x Pm j) :=
  slice_of_entries _ (proj x Pm) _ IsReal (isReal_proj x Pm hx hP) j

/-- A cloud of reals whose third projective coordinate is nowhere zero projects to reals. -/
theorem isReal_plane (x : FVec Ideal S8x4096x3 .f32) (Pm : FVec Ideal S8x3x4 .f32)
    (hx : ∀ i, IsReal (x i)) (hP : ∀ i, IsReal (Pm i)) (hd : ∀ i, depth x Pm i ≠ 0) (i : S8x4096x2.Idx) :
    IsReal (plane x Pm i) := by
  obtain ⟨k, hk⟩ : ∃ k, broadcastInDim S8x4096x2 ![0, 1, 2] bcast_S8x4096x1_S8x4096x2_0_1_2 (depth x Pm) i = depth x Pm k :=
    ⟨_, rfl⟩
  obtain ⟨dr, hdr⟩ := isReal_depth x Pm hx hP k
  have hdr0 : dr ≠ 0 := fun h0 => hd k (by rw [hdr, h0, EReal.coe_zero])
  obtain ⟨c, hc⟩ := isReal_ofBits_112
  obtain ⟨w, hw0, hw⟩ := ofBits_224
  show IsReal (Ideal.div (Ideal.div (numer x Pm i)
      (broadcastInDim S8x4096x2 ![0, 1, 2] bcast_S8x4096x1_S8x4096x2_0_1_2 (depth x Pm) i) - Ideal.ofBits .f32 0x42E00000#32)
    (Ideal.ofBits .f32 0x43600000#32))
  rw [hk, hdr, hc, hw]
  exact (((isReal_numer x Pm hx hP i).div hdr0).sub ⟨c, rfl⟩).div hw0

end PreReal

/-- Under the precondition both projected clouds are arrays of reals. -/
theorem plane_real [Cert.Pre_finite_inputs.Facts] (x0 x1 : FVec Ideal S8x4096x3 .f32) (Pm : FVec Ideal S8x3x4 .f32)
    (hpre : Cert.Pre_finite_inputs.fn (F := Ideal) x0 x1 Pm = fun _ => 1#1) :
    (∀ i, ∃ r : ℝ, plane x1 Pm i = (r : EReal)) ∧ (∀ i, ∃ r : ℝ, plane x0 Pm i = (r : EReal)) := by
  obtain ⟨h0, h1, hP, hd1, hd0⟩ := PreReal.pre_decode x0 x1 Pm hpre
  exact ⟨PreReal.isReal_plane x1 Pm h1 hP hd1, PreReal.isReal_plane x0 Pm h0 hP hd0⟩

end Cert.KernelIdeal

end
-- ==== Proof.lean ====
/- Both programs project two clouds of 4096 points per batch to the image plane (homogeneous coordinates, a 3 × 4
   matrix, division by the third coordinate, shift and scale) and return the symmetric chamfer loss: the mean over
   the points of one cloud of the root of the floored squared distance to the nearest point of the other, averaged
   over the two directions. The kernel forms each squared distance as a sum of squared coordinate differences,
   takes the nearest-neighbour minima tile by tile (a running row minimum in the row result's block, a running
   column minimum in a scratch row) and floors afterwards; the reference expands |a|² + |p|² − 2 a·p, floors every
   distance, then takes the minima. Where every projected coordinate is a real number the two expansions agree
   (the precondition keeps the perspective division's denominator off zero, and the inputs finite), flooring
   commutes with a minimum, and a minimum of tile minima is the minimum: the two results are one extended real. -/
import proofs.«102414_j35115652612620_1_alg».proof.Defs
import proofs.«102414_j35115652612620_1_alg».proof.Proof.Gen.Kernel
import proofs.«102414_j35115652612620_1_alg».proof.Proof.Gen.KernelIdeal
import proofs.«102414_j35115652612620_1_alg».proof.Proof.Gen.ReferenceIdeal
import proofs.«102414_j35115652612620_1_alg».proof.Proof.Gen.Pre_finite_inputs
import proofs.«102414_j35115652612620_1_alg».proof.Proof.K.Indep
import proofs.«102414_j35115652612620_1_alg».proof.Proof.KI.Value
import proofs.«102414_j35115652612620_1_alg».proof.Proof.RefValue
import proofs.«102414_j35115652612620_1_alg».proof.Proof.LossEq
import proofs.«102414_j35115652612620_1_alg».proof.Proof.PreReal
import Idealize.ShloMosaic.Adequacy
import Idealize.ShloMosaic.Init

noncomputable section

namespace Cert.Proof

open Idealize.ShloMosaic Idealize.SL.Sem

/-- The reference's result is the kernel's, from memories agreeing on the arguments and satisfying the precondition. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) :
    Cert.ReferenceIdeal.Value.res_out0 (F := Ideal) m' c
      = fun _ => Cert.Chamfer.lossK
          (Cert.KernelIdeal.plane (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
          (Cert.KernelIdeal.plane (m ((c.tc : Thread Cert.KernelIdeal.nD Cert.KernelIdeal.τ).loc Cert.KernelIdeal.main_arg0)) (m ((c.tc : Thread Cert.KernelIdeal.nD Cert.KernelIdeal.τ).loc Cert.KernelIdeal.main_arg2))) := by
  have hr := @Cert.KernelIdeal.plane_real Cert.Pre_finite_inputs.Gen.facts _ _ _ (hpre c)
  rw [Cert.ReferenceIdeal.RefValue.res_eq m' c, (hagree c).1, (hagree c).2.1, (hagree c).2.2]
  exact funext fun _ => (Cert.Chamfer.lossK_eq_lossR _ _ hr.1 hr.2).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ (Cert.Kernel.Gen.scIndep m),
  fun m ρ _ => Cert.KernelIdeal.Gen.frame m ρ (Cert.KernelIdeal.Gen.scIndep m),
  fun m ρ _ => (θ_run Cert.ReferenceIdeal.defs _ _).mono (fun _ h c => (h c).2) (Cert.ReferenceIdeal.Value.run (F := Ideal) m ρ),
  trivial,
  fun m ρ m' ρ' hpre hagree =>
    ⟨fun c => fun _ => Cert.Chamfer.lossK
        (Cert.KernelIdeal.plane (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (Cert.KernelIdeal.plane (m ((c.tc : Thread Cert.KernelIdeal.nD Cert.KernelIdeal.τ).loc Cert.KernelIdeal.main_arg0)) (m ((c.tc : Thread Cert.KernelIdeal.nD Cert.KernelIdeal.τ).loc Cert.KernelIdeal.main_arg2))),
      Cert.KernelIdeal.Gen.run_value m ρ,
      (θ_run Cert.ReferenceIdeal.defs _ _).mono (fun _ h c => ⟨(h c).1.trans (ref_result m m' hpre hagree c), (h c).2⟩)
        (Cert.ReferenceIdeal.Value.run (F := Ideal) m' ρ')⟩⟩

end Cert.Proof

end
